-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg13 : FVec F S8 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x8 .f32) (main_arg13 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x8 .f32 := Host.absf main_arg12
  let main_cst_18 : FVec F S_ .f32 := constant S_ .f32 0x7F800000#32
  let main_v50 : FVec F S128x8 .f32 := broadcastInDim S128x8 ![] bcast_S_S128x8 main_cst_18
  fn_part3 (F := F) main_arg13 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x8 .f32) (main_arg13 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x8 .f32) (main_arg13 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x100000 : Shape := ⟨2, ![1, 100000]⟩
abbrev S2x100000 : Shape := ⟨2, ![2, 100000]⟩
abbrev S2x1700000 : Shape := ⟨2, ![2, 1700000]⟩
abbrev S_ : Shape := ⟨0, ![]⟩
abbrev S1700000 : Shape := ⟨1, ![1700000]⟩
abbrev S1x1700000 : Shape := ⟨2, ![1, 1700000]⟩
abbrev S1700000x1 : Shape := ⟨2, ![1700000, 1]⟩
abbrev S106496x128 : Shape := ⟨2, ![106496, 128]⟩
abbrev S8192x128 : Shape := ⟨2, ![8192, 128]⟩
abbrev S1700000x128 : Shape := ⟨2, ![1700000, 128]⟩
abbrev S1x128 : Shape := ⟨2, ![1, 128]⟩
abbrev S102400x128 : Shape := ⟨2, ![102400, 128]⟩
abbrev S4096x128 : Shape := ⟨2, ![4096, 128]⟩
abbrev S106496 : Shape := ⟨1, ![106496]⟩
abbrev S1x8 : Shape := ⟨2, ![1, 8]⟩
abbrev S512x8 : Shape := ⟨2, ![512, 8]⟩
abbrev S8192 : Shape := ⟨1, ![8192]⟩
abbrev S512x128 : Shape := ⟨2, ![512, 128]⟩
abbrev S8192x512 : Shape := ⟨2, ![8192, 512]⟩
abbrev S8192x1 : Shape := ⟨2, ![8192, 1]⟩

abbrev nBuf : Space → Nat
  | .hbm => 118
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8, .f32⟩
  | .hbm, ⟨13, _⟩ => ⟨S8, .f32⟩
  | .hbm, ⟨14, _⟩ => ⟨S100000, .i32⟩
  | .hbm, ⟨15, _⟩ => ⟨S1x100000, .i32⟩
  | .hbm, ⟨16, _⟩ => ⟨S1x100000, .i32⟩
  | .hbm, ⟨17, _⟩ => ⟨S2x100000, .i32⟩
  | .hbm, ⟨18, _⟩ => ⟨S2x1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S1x1700000, .i32⟩
  | .hbm, ⟨23, _⟩ => ⟨S1700000, .i32⟩
  | .hbm, ⟨24, _⟩ => ⟨S1x1700000, .i32⟩
  | .hbm, ⟨25, _⟩ => ⟨S1700000, .i32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S_, .i32⟩
  | .hbm, ⟨59, _⟩ => ⟨S_, .f32⟩
  | .hbm, ⟨60, _⟩ => ⟨S106496x128, .f32⟩
  | .hbm, ⟨61, _⟩ => ⟨S106496x128, .f32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S_, .f32⟩
  | .hbm, ⟨84, _⟩ => ⟨S102400x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S102400x128, .f32⟩
  | .hbm, ⟨90, _⟩ => ⟨S100000x128, .f32⟩
  | .hbm, ⟨91, _⟩ => ⟨S1700000x1, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S_, .i32⟩
  | .hbm, ⟨111, _⟩ => ⟨S_, .f32⟩
  | .hbm, ⟨112, _⟩ => ⟨S106496x128, .f32⟩
  | .hbm, ⟨113, _⟩ => ⟨S_, .i32⟩
  | .hbm, ⟨114, _⟩ => ⟨S_, .i32⟩
  | .hbm, ⟨115, _⟩ => ⟨S106496, .i32⟩
  | .hbm, ⟨116, _⟩ => ⟨S1x8, .f32⟩
  | .hbm, ⟨117, _⟩ => ⟨S512x8, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S4096x128, .f32⟩
  | .local _ .vmem, ⟨13, _⟩ => ⟨S4096x128, .f32⟩
  | .local _ .vmem, ⟨14, _⟩ => ⟨S8192x128, .f32⟩
  | .local _ .vmem, ⟨15, _⟩ => ⟨S8192x128, .f32⟩
  | .local _ .vmem, ⟨16, _⟩ => ⟨S8192, .i32⟩
  | .local _ .vmem, ⟨17, _⟩ => ⟨S8192, .i32⟩
  | .local _ .vmem, ⟨18, _⟩ => ⟨S128x8, .f32⟩
  | .local _ .vmem, ⟨19, _⟩ => ⟨S1x8, .f32⟩
  | .local _ .vmem, ⟨20, _⟩ => ⟨S512x8, .f32⟩
  | .local _ .vmem, ⟨21, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call1_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_call2_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_call3_v0 : Ref sig .tc := ⟨.hbm, 111, rfl⟩
abbrev main_v76 : Ref sig .tc := ⟨.hbm, 112, rfl⟩
abbrev main_c_15 : Ref sig .tc := ⟨.hbm, 113, rfl⟩
abbrev main_call4_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![13], ![false]⟩

def k2_cond2 (i : grid2.Coords) : BitVec 1 :=
  let arg0 : BitVec 32 := BitVec.ofNat 32 (i 0).val
  let c12_i32 : BitVec 32 := 12#32
  let v21 : BitVec 1 := Scalar.cmpi .eq arg0 c12_i32
  let v22 : BitVec 32 := Scalar.extui v21
  let c0_i32_7 : BitVec 32 := 0#32
  let v23 : BitVec 1 := Scalar.cmpi .ne v22 c0_i32_7
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  bcast_S_S100000 : S_.BroadcastsInDim S100000 (![] : Fin 0 → Fin S100000.rank)
  concatenates_S1600000_S100000_S1700000_d0 : Shape.Concatenates [S1600000, S100000] S1700000 0
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S1700000_S1700000x1_0 : S1700000.BroadcastsInDim S1700000x1 (![0] : Fin 1 → Fin S1700000x1.rank)
  bcast_S_S1700000 : S_.BroadcastsInDim S1700000 (![] : Fin 0 → Fin S1700000.rank)
  pads_S100000x128_S106496x128_064960_000 : S100000x128.Pads (![0, 0] : Fin 2 → Nat) ![6496, 0] ![0, 0] S106496x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S106496x128_S100000x128_0_0 : S106496x128.Slices ![0, 0] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  pads_S100000x128_S102400x128_024000_000 : S100000x128.Pads (![0, 0] : Fin 2 → Nat) ![2400, 0] ![0, 0] S102400x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S102400x128_S100000x128_0_0 : S102400x128.Slices ![0, 0] S100000x128
  pads_S100000_S106496_064960 : S100000.Pads (![0] : Fin 1 → Nat) ![6496] ![0] S106496
  shapeCasts_S8_S1x8 : S8.ShapeCasts S1x8
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S8192_S8192_0 : ∀ a, (![0] : Fin 1 → Nat) a + S8192.size a ≤ S8192.size a
  h_S8192 : 0 < S8192.numel
  shapeCasts_S8192_S8192 : S8192.ShapeCasts S8192
  iota_S8192x512_d1_w32 : S8192x512.Iotas .tc 32 [1]
  shapeCasts_S8192_S8192x1 : S8192.ShapeCasts S8192x1
  broadcasts_S8192x1_S8192x512 : S8192x1.Broadcasts S8192x512
  natLt_1_32 : 1 < 32
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S512x8_S512x8_0_0 : ∀ a, (![0, 0] : Fin 2 → Nat) a + S512x8.size a ≤ S512x8.size a
  h_S512x8 : 0 < S512x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S8192x128_S128x128_S8192x128_1_0_0_1_n_n_wf : DotDims.WF S8192x128 S128x128 S8192x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4096x128_S128x128_S4096x128_1_0_0_1_n_n_wf : DotDims.WF S4096x128 S128x128 S4096x128 [1] [0] [0] [1] [] []
  dot_S8192x512_S8192x128_S512x128_0_0_1_1_n_n_wf : DotDims.WF S8192x512 S8192x128 S512x128 [0] [0] [1] [1] [] []
  dot_S512x128_S128x8_S512x8_1_0_0_1_n_n_wf : DotDims.WF S512x128 S128x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S106496x128.size a
  hwx0_2 : ∀ i : grid0.Coords, EltTy.bits .f32 = 32 ∨ (Rect.block (s := S106496x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S102400x128.size a
  hwx1_6 : ∀ i : grid1.Coords, EltTy.bits .f32 = 32 ∨ (Rect.block (s := S102400x128) S4096x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S106496x128.size a
  hwx2_0 : ∀ i : grid2.Coords, EltTy.bits .f32 = 32 ∨ (Rect.block (s := S106496x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192.size a ≤ S106496.size a
  hwx2_1 : ∀ i : grid2.Coords, EltTy.bits .i32 = 32 ∨ (Rect.block (s := S106496) S8192.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x8.size a ≤ S512x8.size a
  hwx2_4 : ∀ i : grid2.Coords, EltTy.bits .f32 = 32 ∨ (Rect.block (s := S512x8) S512x8.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x512_S8192x128_S512x128_0_0_1_1_n_n : DotDims S8192x512 S8192x128 S512x128 where
  lhsContracting := [0]
  rhsContracting := [0]
  lhsNonContracting := [1]
  rhsNonContracting := [1]
  lhsBatch := []
  rhsBatch := []
  wf := dot_S8192x512_S8192x128_S512x128_0_0_1_1_n_n_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

abbrev win0_0 : Pipeline.Window sig grid0 :=
  Pipeline.Window.ofSpec (Memref.whole main_v34) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v76) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S512x8.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x100000 : Shape := ⟨2, ![1, 100000]⟩
abbrev S2x100000 : Shape := ⟨2, ![2, 100000]⟩
abbrev S2x1700000 : Shape := ⟨2, ![2, 1700000]⟩
abbrev S_ : Shape := ⟨0, ![]⟩
abbrev S1700000 : Shape := ⟨1, ![1700000]⟩
abbrev S1x1700000 : Shape := ⟨2, ![1, 1700000]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512x8 : Shape := ⟨2, ![512, 8]⟩
abbrev S1x8 : Shape := ⟨2, ![1, 8]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8, .f32⟩
  | .hbm, ⟨13, _⟩ => ⟨S8, .f32⟩
  | .hbm, ⟨14, _⟩ => ⟨S100000, .i32⟩
  | .hbm, ⟨15, _⟩ => ⟨S1x100000, .i32⟩
  | .hbm, ⟨16, _⟩ => ⟨S1x100000, .i32⟩
  | .hbm, ⟨17, _⟩ => ⟨S2x100000, .i32⟩
  | .hbm, ⟨18, _⟩ => ⟨S2x1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S1x1700000, .i32⟩
  | .hbm, ⟨23, _⟩ => ⟨S1700000, .i32⟩
  | .hbm, ⟨24, _⟩ => ⟨S1x1700000, .i32⟩
  | .hbm, ⟨25, _⟩ => ⟨S1700000, .i32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x128, .f32⟩
  | .hbm, ⟨59, _⟩ => ⟨S1700000x1, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S1700000x1, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x128, .f32⟩
  | .hbm, ⟨108, _⟩ => ⟨S1700000x128, .f32⟩
  | .hbm, ⟨109, _⟩ => ⟨S1700000x128, .f32⟩
  | .hbm, ⟨110, _⟩ => ⟨S_, .f32⟩
  | .hbm, ⟨111, _⟩ => ⟨S100000x128, .f32⟩
  | .hbm, ⟨112, _⟩ => ⟨S1700000x1, .i32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S_, .f32⟩
  | .hbm, ⟨118, _⟩ => ⟨S512x128, .f32⟩
  | .hbm, ⟨119, _⟩ => ⟨S100000x1, .i32⟩
  | .hbm, ⟨120, _⟩ => ⟨S512x128, .f32⟩
  | .hbm, ⟨121, _⟩ => ⟨S512x8, .f32⟩
  | .hbm, ⟨122, _⟩ => ⟨S1x8, .f32⟩
  | .hbm, ⟨123, _⟩ => ⟨S512x8, .f32⟩
  | .hbm, ⟨124, _⟩ => ⟨S512x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_10 : Ref sig .tc := ⟨.hbm, 99, rfl⟩
abbrev main_v69 : Ref sig .tc := ⟨.hbm, 100, rfl⟩
abbrev main_v70 : Ref sig .tc := ⟨.hbm, 101, rfl⟩
abbrev main_c_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  bcast_S_S100000 : S_.BroadcastsInDim S100000 (![] : Fin 0 → Fin S100000.rank)
  concatenates_S1600000_S100000_S1700000_d0 : Shape.Concatenates [S1600000, S100000] S1700000 0
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x8_S512x8_1_0_0_1_n_n_wf : DotDims.WF S512x128 S128x8 S512x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf

class Facts : Prop extends Facts₀ where

variable [Facts]
-- ==== Proof.KB.Vals.lean ====
/-
  The contents of core `c`'s buffers on entry to each of the three kernel regions, read at the core's own
  references: what each region's proof data is stated at.
-/
import proofs.«403968_j10488310137582_1_alg».proof.Proof.Gen.Kernel.Regions

noncomputable section

namespace Cert.Kernel.Hand

open Idealize.ShloMosaic Idealize.ShloMosaic.TcCoe Idealize.SL.Sem Cert.Kernel Cert.Kernel.Gen

variable {F : FTy → Type} [FloatOps F]
variable (m : (ℓ : Loc nD τ sig) → Buf (Elt F) ℓ) (outs : Outs (F := F))

/-- On entry to region 0 (after the first four host stretches). -/
abbrev E4 : (c : Dev nD) → (b : Ref sig .tc) → Buf (Elt F) ((c : Thread nD τ).loc b) := fun c b => V4 m c b
/-- On entry to region 1. -/
abbrev E8 : (c : Dev nD) → (b : Ref sig .tc) → Buf (Elt F) ((c : Thread nD τ).loc b) := fun c b => V8 m outs c b
/-- On entry to region 2. -/
abbrev E14 : (c : Dev nD) → (b : Ref sig .tc) → Buf (Elt F) ((c : Thread nD τ).loc b) := fun c b => V14 m outs c b

end Cert.Kernel.Hand

end
-- ==== Proof.KB.R0.lean ====
/-
  Region 0 of the program: the dense product of one 8192-row tile of the padded node features with the
  128×128 weight, tile by tile over 13 grid points.  Stated at a parameter `V`, the contents of the
  core's buffers when the region is entered: a window's block at a point is a rectangle of its array;
  the body reads the two input blocks whole and stores the product whole, so the output window's buffer
  after the body is the product of the two input blocks, and the invariant of the region is the class
  invariant (nothing carried between points).
-/
import proofs.«403968_j10488310137582_1_alg».proof.Proof.Gen.Kernel.Launch
import proofs.«403968_j10488310137582_1_alg».proof.Proof.Gen.Kernel.Skeleton
import proofs.«403968_j10488310137582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S8192x128 := Rect.unit (s := S8192x128) ![0, 0] S8192x128.size inb_S8192x128_S8192x128_0_0
abbrev r0_1 : Rect S128x128 := Rect.unit (s := S128x128) ![0, 0] S128x128.size inb_S128x128_S128x128_0_0
abbrev r0_2 : Rect S8192x128 := Rect.unit (s := S8192x128) ![0, 0] S8192x128.size inb_S8192x128_S8192x128_0_0

/-- The output window's staging buffer after the body: its one store, of the body's value of the loaded blocks. -/
def out0_2 (x0 : Vec F S8192x128 .f32) (x1 : Vec F S128x128 .f32) : Vec F S8192x128 .f32 :=
  View.canon [⟨r0_2, k0_pay1 (View.ld x0 r0_0) (View.ld x1 r0_1)⟩]

/-- The one store covers the buffer. -/
theorem cover0_2 (p0 : Vec F S8192x128 .f32) (y : S8192x128.Idx) :
    ∃ pc ∈ ([⟨r0_2, p0⟩] : List (View.Piece (Elt F) S8192x128 .f32)), y ∈ pc.1.set :=
  View.cover_of_tiled [⟨r0_2, p0⟩] S8192x128.size (by rfl) y

set_option maxHeartbeats 1000000 in
/-- The body on whole staging memrefs: the inputs' kept, the output's left at `out0_2` of the inputs'. -/
theorem sound_kernel0 (c : Dev nD) (E : Set ℕ) (i : grid0.Coords) (arg1 : Memref sig .tc .vmem S8192x128 .f32) (harg1 : arg1.IsWhole) (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: arrays as found; inputs' buffers at their blocks, the output's at the body's value of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/-
  Region 1 of the program: on one 4096-row tile of the padded first-layer features, the batch
  normalisation with the running statistics, the rectifier, and the dense product with the second
  128×128 weight, tile by tile over 25 grid points.  Stated at a parameter `V`, the contents of the
  core's buffers when the region is entered.  The body reads its six input blocks whole (the tile, the
  four statistics rows, the weight) and stores the product whole: the output window's buffer after the
  body is that one value of the six input blocks, and nothing is carried between points.
-/
import proofs.«403968_j10488310137582_1_alg».proof.Proof.Gen.Kernel.Launch
import proofs.«403968_j10488310137582_1_alg».proof.Proof.Gen.Kernel.Skeleton
import proofs.«403968_j10488310137582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S1x128 := Rect.unit (s := S1x128) ![0, 0] S1x128.size inb_S1x128_S1x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S4096x128 := Rect.unit (s := S4096x128) ![0, 0] S4096x128.size inb_S4096x128_S4096x128_0_0

/-- The output window's staging buffer after the body: its one store, of the body's value of the loaded blocks. -/
def out1_6 (x0 : Vec F S4096x128 .f32) (x1 : Vec F S1x128 .f32) (x2 : Vec F S1x128 .f32) (x3 : Vec F S1x128 .f32) (x4 : Vec F S1x128 .f32) (x5 : Vec F S128x128 .f32) : Vec F S4096x128 .f32 :=
  View.canon [⟨r1_6, k1_pay1 (View.ld x0 r1_0) (View.ld x1 r1_1) (View.ld x2 r1_2) (View.ld x3 r1_3) (View.ld x4 r1_4) (View.ld x5 r1_5)⟩]

/-- The one store covers the buffer. -/
theorem cover1_6 (p0 : Vec F S4096x128 .f32) (y : S4096x128.Idx) :
    ∃ pc ∈ ([⟨r1_6, p0⟩] : List (View.Piece (Elt F) S4096x128 .f32)), y ∈ pc.1.set :=
  View.cover_of_tiled [⟨r1_6, p0⟩] S4096x128.size (by rfl) y

set_option maxHeartbeats 1000000 in
/-- The body on whole staging memrefs: the inputs' kept, the output's left at `out1_6` of the inputs'. -/
theorem sound_kernel1 (c : Dev nD) (E : Set ℕ) (i : grid1.Coords) (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4096x128 .f32) (harg7 : arg7.IsWhole)
    (x0 : Vec F S4096x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_relu_matmul_kernel i arg1 harg1 arg2 harg2 arg3 harg3 arg4 harg4 arg5 harg5 arg6 harg6 arg7 harg7) K := by
  simp only [cc1__bn_relu_matmul_kernel_eq_skeleton]; unfold cc1__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`: arrays as found; inputs' buffers at their blocks, the output's at the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2K.lean ====
/-
  Region 2 of the program, the kernel body alone.  The body keeps a 512×128 accumulator in a scratch
  buffer across the 13 grid points: at the first point it is reset to zero; at every point the tile's
  contribution is added (the product of the transposed one-hot matrix of the tile's 8192 graph ids with
  the tile's 8192×128 features); at the last point the accumulator is multiplied by the 128×8 weight,
  the bias row is added and the 512×8 result is stored.  Three triples, one per kind of point, each
  with the contents it leaves written out: the scratch ends at `k2_pay2` of the two tiles and of what
  it held when the addition read it, and at the last point the output buffer ends at `k2_pay3` of that.
-/
import proofs.«403968_j10488310137582_1_alg».proof.Proof.Gen.Kernel.Launch
import proofs.«403968_j10488310137582_1_alg».proof.Proof.Gen.Kernel.Skeleton
import proofs.«403968_j10488310137582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The body's first conditional: the grid point is the first. -/
abbrev isFirst2 (i : grid2.Coords) : Prop := (Scalar.cmpi .ne (Scalar.extui (Scalar.cmpi .eq (BitVec.ofNat 32 (i 0).val) 0#32)) 0#32) = 1#1
/-- The body's second conditional: the grid point is the last. -/
abbrev isLast2 (i : grid2.Coords) : Prop := k2_cond2 i = 1#1

theorem isFirst2_iff : ∀ t : Fin cfg2.N, isFirst2 (grid2.coords t) ↔ t.val = 0 :=
  (by decide +kernel : ∀ t : Fin grid2.N, isFirst2 (grid2.coords t) ↔ t.val = 0)
theorem isLast2_iff : ∀ t : Fin cfg2.N, isLast2 (grid2.coords t) ↔ t.val = 12 :=
  (by decide +kernel : ∀ t : Fin grid2.N, isLast2 (grid2.coords t) ↔ t.val = 12)

theorem zeros2 : (![0, 0] : Fin 2 → Nat) = fun _ => 0 := funext fun a => by fin_cases a <;> rfl
theorem zeros1 : (![0] : Fin 1 → Nat) = fun _ => 0 := funext fun a => by fin_cases a <;> rfl

set_option maxHeartbeats 2000000 in
/-- At the first point: the accumulator, whatever it held, ends at the tile's contribution added to zero; the
    output buffer is not touched. -/
theorem run2_first (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : isFirst2 i) (hc1 : ¬isLast2 i) (x0 : Vec F S8192x128 .f32) (x1 : Vec F S8192 .i32) (x2 : Vec F S128x8 .f32) (x3 : Vec F S1x8 .f32) (xo : Vec F S512x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k2_pay2 x0 x1 (k2_pay1 (F := F)))) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [View.read_writes_eq_canon _ _ _ (fun y => ⟨_, List.mem_cons_self, View.mem_set_unit_zero zeros2 inb_S512x128_S512x128_0_0 y⟩),
    View.canon_cons_unit_zero zeros2]
  sl_unfold_run_names
  simp only [View.readAt_eq_ld, View.ld_unit_zero (S := S8192x128) zeros2, View.ld_unit_zero (S := S8192) zeros1]
  rw [View.readCov_unit_zero (S := S512x128) arg6.view zeros2]

set_option maxHeartbeats 2000000 in
/-- At a point that is neither the first nor the last: the accumulator gains the tile's contribution; the output
    buffer is not touched. -/
theorem run2_mid (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : ¬isFirst2 i) (hc1 : ¬isLast2 i) (x0 : Vec F S8192x128 .f32) (x1 : Vec F S8192 .i32) (x2 : Vec F S128x8 .f32) (x3 : Vec F S1x8 .f32) (xo : Vec F S512x8 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k2_pay2 x0 x1 xs)) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [View.read_writes_eq_canon _ _ _ (fun y => ⟨_, List.mem_cons_self, View.mem_set_unit_zero zeros2 inb_S512x128_S512x128_0_0 y⟩),
    View.canon_cons_unit_zero zeros2]
  sl_unfold_run_names
  simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]

set_option maxHeartbeats 2000000 in
/-- At the last point: the accumulator gains the tile's contribution, and the output buffer, whatever it held, ends at
    the accumulator's product with the weight plus the bias row. -/
theorem run2_last (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : ¬isFirst2 i) (hc1 : isLast2 i) (x0 : Vec F S8192x128 .f32) (x1 : Vec F S8192 .i32) (x2 : Vec F S128x8 .f32) (x3 : Vec F S1x8 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay3 (k2_pay2 x0 x1 xs) x2 x3) ∗ owns (c : Thread nD τ) arg6 fullShare (k2_pay2 x0 x1 xs)) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (fun y => ⟨_, List.mem_cons_self, View.mem_set_unit_zero zeros2 inb_S512x8_S512x8_0_0 y⟩),
      View.canon_cons_unit_zero zeros2]
    sl_unfold_run_names
    simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]
    rw [View.readCov_unit_zero (S := S512x128) arg6.view zeros2]
  iexists _; isplitr
  swap; · iexact H5
  ipureintro
  sl_unfold_run_names
  rw [View.read_writes_eq_canon _ _ _ (fun y => ⟨_, List.mem_cons_self, View.mem_set_unit_zero zeros2 inb_S512x128_S512x128_0_0 y⟩),
    View.canon_cons_unit_zero zeros2]
  simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]

end Cert.Kernel.Hand

end
-- ==== Proof.KB.R2.lean ====
/-
  Region 2 of the program as a pipeline: the proof data and the body obligation, at a parameter `V` (the
  contents of the core's buffers when the region is entered).  The accumulator after point n is the fold
    acc 0 = step (tile 0) zero,   acc (n+1) = step (tile (n+1)) (acc n),
  `step` the body's addition of one tile's contribution (`k2_pay2`); the invariant before point n+1 holds the
  scratch buffer at `acc n` (before point 0: at anything), beside the core's other scoped buffers, which
  the region never opens.  The output window is idle except at the last point, where it is left at the
  accumulator's product with the weight plus the bias (`k2_pay3`); it is written back there only.
-/
import proofs.«403968_j10488310137582_1_alg».proof.Proof.KB.R2K

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The accumulator after the body at point `n`. -/
def accAt (c : Dev nD) : (n : ℕ) → n < cfg2.N → Vec F S512x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt c n (Nat.lt_of_succ_lt h))

theorem accAt_zero (c : Dev nD) (t : Fin cfg2.N) (h : t.val = 0) :
    accAt V c t.val t.isLt = k2_pay2 (iblk2 V c 0 t) (iblk2 V c 1 t) (k2_pay1 (F := F)) := by
  obtain ⟨n, hn⟩ := t; cases n with
  | zero => rfl
  | succ n => exact absurd h (Nat.succ_ne_zero n)

theorem accAt_pos (c : Dev nD) (t : Fin cfg2.N) (h : t.val ≠ 0) :
    accAt V c t.val t.isLt = k2_pay2 (iblk2 V c 0 t) (iblk2 V c 1 t) (accAt V c (t.val - 1) (Nat.lt_of_le_of_lt (Nat.sub_le _ _) t.isLt)) := by
  obtain ⟨n, hn⟩ := t; cases n with
  | zero => exact absurd rfl h
  | succ n => rfl

/-- The scratch operand, a whole scoped buffer of the kernel's own. -/
abbrev scM2 : Memref sig .tc .vmem S512x128 .f32 := Memref.whole cc2_scratch0
/-- The core's other scoped buffers that no window of this region stages: never opened here. -/
abbrev others2 (c : Dev nD) : sProp 𝕄 :=
  Pipeline.scopedRestBut (Ix := Unit) (Name := ℕ) (U := UR sig nD τ) (Lvl := ℕ) (Val := Elt F) spec2 c [cc2_scratch0]

/-- The class invariant with the scratch buffer split off. -/
theorem PhiA2_eq (c : Dev nD) :
    (Pipeline.ΦA spec2 c : sProp 𝕄) = iprop(((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole]
  rfl

/-- The invariant before position `n`: the class invariant before the first point; afterwards the scratch at the
    accumulator the point before left. -/
def PhiAcc (c : Dev nD) : (n : ℕ) → n ≤ cfg2.N → sProp 𝕄
  | 0, _ => Pipeline.ΦA spec2 c
  | n + 1, hn => iprop((owns (c : Thread nD τ) scM2 fullShare (accAt V c n hn) ∗ others2 c) ∗ (∃ r, prngReg c r))

theorem PhiAcc_zero (c : Dev nD) (n : ℕ) (h : n ≤ cfg2.N) (hz : n = 0) : PhiAcc V c n h = Pipeline.ΦA spec2 c := by
  subst hz; rfl
theorem PhiAcc_succ (c : Dev nD) (n : ℕ) (hn : n < cfg2.N) :
    PhiAcc V c (n + 1) hn = iprop((owns (c : Thread nD τ) scM2 fullShare (accAt V c n hn) ∗ others2 c) ∗ (∃ r, prngReg c r)) := rfl
theorem PhiAcc_pos (c : Dev nD) (n : ℕ) (h : n ≤ cfg2.N) (hz : n ≠ 0) :
    PhiAcc V c n h = iprop((owns (c : Thread nD τ) scM2 fullShare (accAt V c (n - 1) (by omega)) ∗ others2 c) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (accAt V c t.val t.isLt) (iblk2 V c 2 t) (iblk2 V c 3 t)
  Φ t := PhiAcc V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAcc V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (accAt V c t.val t.isLt) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The input windows are never idle; the output window is idle, and not written back, except at the last point. -/
theorem live2_in : ∀ (w : Fin 4) (t : Fin cfg2.N), cfg2.idle (Fin.castSucc w) (grid2.coords t) = false := by decide +kernel
theorem idle2_out : ∀ t : Fin cfg2.N, ¬isLast2 (grid2.coords t) → cfg2.idle 4 (grid2.coords t) = true := by decide +kernel
theorem noFlush2_out : ∀ t : Fin cfg2.N, ¬isLast2 (grid2.coords t) → (cfg2.win 4).flush t = false := by decide +kernel
theorem live2_out : ∀ t : Fin cfg2.N, isLast2 (grid2.coords t) → cfg2.idle 4 (grid2.coords t) = false := by decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

theorem leaves2_in (c : Dev nD) (w : Fin 4) (t : Fin cfg2.N) :
    (dat2 V c).leavesExact (Fin.castSucc w) t
      = owns (c : Thread nD τ) ((cfg2.win (Fin.castSucc w)).stage (cfg2.slots t (Fin.castSucc w))) fullShare ((dat2 V c).after (Fin.castSucc w) t) := by
  unfold Dat.leavesExact; rw [live2_in w t]

set_option maxHeartbeats 2000000 in
/-- The body at any point: which of the three triples applies is decided by the point's position; the invariant hands
    the scratch over at what the point before left and takes it back at this point's accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiAcc V c (t.val + 1) t.isLt from rfl, PhiAcc_succ]
  rw [show (dat2 V c).leavesExact 0 t = owns (c : Thread nD τ) (st2_0 t) fullShare ((dat2 V c).after 0 t) from leaves2_in V c 0 t,
    show (dat2 V c).leavesExact 1 t = owns (c : Thread nD τ) (st2_1 t) fullShare ((dat2 V c).after 1 t) from leaves2_in V c 1 t,
    show (dat2 V c).leavesExact 2 t = owns (c : Thread nD τ) (st2_2 t) fullShare ((dat2 V c).after 2 t) from leaves2_in V c 2 t,
    show (dat2 V c).leavesExact 3 t = owns (c : Thread nD τ) (st2_3 t) fullShare ((dat2 V c).after 3 t) from leaves2_in V c 3 t,
    after2_0, after2_1, after2_2, after2_3]
  have hN : t.val < 13 := lt_of_lt_of_eq t.isLt (show cfg2.N = 13 from N_2)
  by_cases h0 : t.val = 0
  · have hc0 : isFirst2 (grid2.coords t) := (isFirst2_iff t).mpr h0
    have hc1 : ¬isLast2 (grid2.coords t) := fun h => by have := (isLast2_iff t).mp h; omega
    rw [Dat.leavesExact_idle (dat2 V c) 4 t (idle2_out t hc1) (noFlush2_out t hc1)]
    rw [accAt_zero V c t h0, Phi2_castSucc V c t, PhiAcc_zero V c _ _ h0, PhiA2_eq]
    iintro ⟨⟨⟨HS, Hoth⟩, Hg⟩, Ho, ⟨%d0, H0⟩, ⟨%d1, H1⟩, ⟨%d2, H2⟩, ⟨%d3, H3⟩, ⟨%d4, H4⟩⟩
    iapply (run2_first c Set.univ (grid2.coords t) _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · have hc0 : ¬isFirst2 (grid2.coords t) := fun h => h0 ((isFirst2_iff t).mp h)
    rw [accAt_pos V c t h0, Phi2_castSucc V c t, PhiAcc_pos V c _ _ h0]
    by_cases h1 : t.val = 12
    · have hc1 : isLast2 (grid2.coords t) := (isLast2_iff t).mpr h1
      rw [show (dat2 V c).leavesExact 4 t = owns (c : Thread nD τ) (st2_4 t) fullShare ((dat2 V c).after 4 t) from by
        unfold Dat.leavesExact; rw [live2_out t hc1], after2_4, accAt_pos V c t h0]
      iintro ⟨⟨⟨HS, Hoth⟩, Hg⟩, Ho, ⟨%d0, H0⟩, ⟨%d1, H1⟩, ⟨%d2, H2⟩, ⟨%d3, H3⟩, ⟨%d4, H4⟩⟩
      iapply (run2_last c Set.univ (grid2.coords t) _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hc1 : ¬isLast2 (grid2.coords t) := fun h => h1 ((isLast2_iff t).mp h)
      rw [Dat.leavesExact_idle (dat2 V c) 4 t (idle2_out t hc1) (noFlush2_out t hc1)]
      iintro ⟨⟨⟨HS, Hoth⟩, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the class invariant. -/
theorem hin2 (c : Dev nD) : Pipeline.ΦA spec2 c ⊢ (dat2 V c).Φ 0 := by
  rw [show (dat2 V c).Φ 0 = PhiAcc V c 0 (Nat.zero_le _) from rfl, PhiAcc_zero V c 0 _ rfl]

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiAcc V c (Fin.last cfg2.N).val (Nat.le_of_lt_succ (Fin.last cfg2.N).isLt) from rfl,
    PhiAcc_pos V c _ _ (by rw [Fin.val_last]; have : cfg2.N = 13 := N_2; omega), PhiA2_eq]
  iintro ⟨⟨HS, Hoth⟩, Hg⟩
  isplitl [HS Hoth]
  · isplitl [HS]; · iexists _; iexact HS
    iexact Hoth
  iexact Hg

end Cert.Kernel.Hand

end
-- ==== Proof.KB.Run.lean ====
/-
  The run of the whole program: the three kernel regions as segments among the host stretches.
  What each region leaves in its output array is what the pipeline's write-backs assemble from the
  proof data (`Dat.arrAt` at the grid's end); region 1 is entered from buffers that already hold
  region 0's output, region 2 from buffers that hold region 1's.  Each region's record splits its
  windows' arrays out of the core's unscoped buffers on entry and puts them back on exit; the core's
  generator register and its empty tally of dues ride beside the buffers through every segment.
  Conclusions: from any launch memory every weakly fair execution ends with every unscoped buffer at the
  last segment's contents — in particular the arguments as launched and the result at region 2's output.
-/
import proofs.«403968_j10488310137582_1_alg».proof.Proof.KB.Vals
import proofs.«403968_j10488310137582_1_alg».proof.Proof.KB.R0
import proofs.«403968_j10488310137582_1_alg».proof.Proof.KB.R1
import proofs.«403968_j10488310137582_1_alg».proof.Proof.KB.R2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's output array after its last write-back. -/
def o5 (c : Dev nD) : Buf (Elt F) ((c : Thread nD τ).loc main_v35) := (dat0 (E4 m) c).arrAt 2 cfg0.N
/-- The unknowns of the host side, with region 0's output known. -/
def outsA : Outs (F := F) := fun _ r c => (Function.update (V4 m c) main_v35 (o5 m c)) r
/-- Region 1's output array after its last write-back. -/
def o9 (c : Dev nD) : Buf (Elt F) ((c : Thread nD τ).loc main_v58) := (dat1 (E8 m (outsA m)) c).arrAt 6 cfg1.N
/-- … with region 1's output known too. -/
def outsB : Outs (F := F) := fun J r c => match J with
  | 5 => outsA m 5 r c
  | _ => (Function.update (V8 m (outsA m) c) main_v58 (o9 m c)) r
/-- Region 2's output array after its last write-back. -/
def o15 (c : Dev nD) : Buf (Elt F) ((c : Thread nD τ).loc main_v79) := (dat2 (E14 m (outsB m)) c).arrAt 4 cfg2.N
/-- What each region leaves in the buffers it may change. -/
def outs : Outs (F := F) := fun J r c => match J with
  | 5 => outsA m 5 r c
  | 9 => outsB m 9 r c
  | _ => (Function.update (V14 m (outsB m) c) main_v79 (o15 m c)) r

theorem outs_5 (c : Dev nD) : outs m 5 main_v35 c = (dat0 (E4 m) c).arrAt 2 cfg0.N := by
  show (Function.update (V4 m c) main_v35 (o5 m c)) main_v35 = _
  rw [Function.update_self]; rfl
theorem V8_outs (c : Dev nD) : V8 m (outs m) c = V8 m (outsA m) c := rfl
theorem outs_9 (c : Dev nD) : outs m 9 main_v58 c = (dat1 (E8 m (outs m)) c).arrAt 6 cfg1.N := by
  show (Function.update (V8 m (outsA m) c) main_v58 (o9 m c)) main_v58 = _
  rw [Function.update_self]; rfl
theorem V14_outs (c : Dev nD) : V14 m (outs m) c = V14 m (outsB m) c := rfl
theorem outs_15 (c : Dev nD) : outs m 15 main_v79 c = (dat2 (E14 m (outs m)) c).arrAt 4 cfg2.N := by
  show (Function.update (V14 m (outsB m) c) main_v79 (o15 m c)) main_v79 = _
  rw [Function.update_self]; rfl

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E4 m) c
  | ⟨1, _⟩ => fun c => dat1 (E8 m (outs m)) c
  | ⟨2, _⟩ => fun c => dat2 (E14 m (outs m)) c
  | ⟨_ + 3, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- The core's generator register at some state, and its tally of dues, empty. -/
abbrev R (c : Dev nD) : sProp 𝕄 := iprop((∃ r, prngReg c r) ∗ ∃ W, owes (c : Thread nD τ) (0 : CellTallies nD τ sig Unit) W)

set_option maxHeartbeats 1000000 in
theorem hF0 (c : Dev nD) : ∀ w : Fin cfg0.W, (pdats m 0 c).arrAt w cfg0.N = V5 m (outs m) c (Pipeline.arrRef spec0 w)
  | ⟨0, _⟩ => by
    show (dat0 (E4 m) c).arrAt 0 cfg0.N = V5 m (outs m) c main_v34
    exact ((dat0 (E4 m) c).arrAt_in 0 rfl _).trans ((A_eq0 (E4 m) c 0).trans (V5_of m (outs m) c main_v34 (by decide)).symm)
  | ⟨1, _⟩ => by
    show (dat0 (E4 m) c).arrAt 1 cfg0.N = V5 m (outs m) c main_arg4
    exact ((dat0 (E4 m) c).arrAt_in 1 rfl _).trans ((A_eq0 (E4 m) c 1).trans (V5_of m (outs m) c main_arg4 (by decide)).symm)
  | ⟨2, _⟩ => by
    show (pdats m 0 c).arrAt 2 cfg0.N = V5 m (outs m) c main_v35
    simp only [V5, Function.update_self]; exact (outs_5 m c).symm
theorem hrest0 (c : Dev nD) : ∀ b : Ref sig .tc, b ∉ Finset.univ.image (Pipeline.arrRef spec0) → V5 m (outs m) c b = V4 m c b :=
  fun b hb => V5_of m (outs m) c b (fun h => hb (by
    rw [List.mem_singleton] at h; subst h
    exact Finset.mem_image.mpr ⟨2, Finset.mem_univ _, rfl⟩))

set_option maxHeartbeats 1000000 in
theorem hF1 (c : Dev nD) : ∀ w : Fin cfg1.W, (pdats m 1 c).arrAt w cfg1.N = V9 m (outs m) c (Pipeline.arrRef spec1 w)
  | ⟨0, _⟩ => by
    show (dat1 (E8 m (outs m)) c).arrAt 0 cfg1.N = V9 m (outs m) c main_v53
    exact ((dat1 (E8 m (outs m)) c).arrAt_in 0 rfl _).trans ((A_eq1 (E8 m (outs m)) c 0).trans (V9_of m (outs m) c main_v53 (by decide)).symm)
  | ⟨1, _⟩ => by
    show (dat1 (E8 m (outs m)) c).arrAt 1 cfg1.N = V9 m (outs m) c main_v54
    exact ((dat1 (E8 m (outs m)) c).arrAt_in 1 rfl _).trans ((A_eq1 (E8 m (outs m)) c 1).trans (V9_of m (outs m) c main_v54 (by decide)).symm)
  | ⟨2, _⟩ => by
    show (dat1 (E8 m (outs m)) c).arrAt 2 cfg1.N = V9 m (outs m) c main_v55
    exact ((dat1 (E8 m (outs m)) c).arrAt_in 2 rfl _).trans ((A_eq1 (E8 m (outs m)) c 2).trans (V9_of m (outs m) c main_v55 (by decide)).symm)
  | ⟨3, _⟩ => by
    show (dat1 (E8 m (outs m)) c).arrAt 3 cfg1.N = V9 m (outs m) c main_v56
    exact ((dat1 (E8 m (outs m)) c).arrAt_in 3 rfl _).trans ((A_eq1 (E8 m (outs m)) c 3).trans (V9_of m (outs m) c main_v56 (by decide)).symm)
  | ⟨4, _⟩ => by
    show (dat1 (E8 m (outs m)) c).arrAt 4 cfg1.N = V9 m (outs m) c main_v57
    exact ((dat1 (E8 m (outs m)) c).arrAt_in 4 rfl _).trans ((A_eq1 (E8 m (outs m)) c 4).trans (V9_of m (outs m) c main_v57 (by decide)).symm)
  | ⟨5, _⟩ => by
    show (dat1 (E8 m (outs m)) c).arrAt 5 cfg1.N = V9 m (outs m) c main_arg10
    exact ((dat1 (E8 m (outs m)) c).arrAt_in 5 rfl _).trans ((A_eq1 (E8 m (outs m)) c 5).trans (V9_of m (outs m) c main_arg10 (by decide)).symm)
  | ⟨6, _⟩ => by
    show (pdats m 1 c).arrAt 6 cfg1.N = V9 m (outs m) c main_v58
    simp only [V9, Function.update_self]; exact (outs_9 m c).symm
theorem hrest1 (c : Dev nD) : ∀ b : Ref sig .tc, b ∉ Finset.univ.image (Pipeline.arrRef spec1) → V9 m (outs m) c b = V8 m (outs m) c b :=
  fun b hb => V9_of m (outs m) c b (fun h => hb (by
    rw [List.mem_singleton] at h; subst h
    exact Finset.mem_image.mpr ⟨6, Finset.mem_univ _, rfl⟩))

set_option maxHeartbeats 1000000 in
theorem hF2 (c : Dev nD) : ∀ w : Fin cfg2.W, (pdats m 2 c).arrAt w cfg2.N = V15 m (outs m) c (Pipeline.arrRef spec2 w)
  | ⟨0, _⟩ => by
    show (dat2 (E14 m (outs m)) c).arrAt 0 cfg2.N = V15 m (outs m) c main_v76
    exact ((dat2 (E14 m (outs m)) c).arrAt_in 0 rfl _).trans ((A_eq2 (E14 m (outs m)) c 0).trans (V15_of m (outs m) c main_v76 (by decide)).symm)
  | ⟨1, _⟩ => by
    show (dat2 (E14 m (outs m)) c).arrAt 1 cfg2.N = V15 m (outs m) c main_v77
    exact ((dat2 (E14 m (outs m)) c).arrAt_in 1 rfl _).trans ((A_eq2 (E14 m (outs m)) c 1).trans (V15_of m (outs m) c main_v77 (by decide)).symm)
  | ⟨2, _⟩ => by
    show (dat2 (E14 m (outs m)) c).arrAt 2 cfg2.N = V15 m (outs m) c main_arg12
    exact ((dat2 (E14 m (outs m)) c).arrAt_in 2 rfl _).trans ((A_eq2 (E14 m (outs m)) c 2).trans (V15_of m (outs m) c main_arg12 (by decide)).symm)
  | ⟨3, _⟩ => by
    show (dat2 (E14 m (outs m)) c).arrAt 3 cfg2.N = V15 m (outs m) c main_v78
    exact ((dat2 (E14 m (outs m)) c).arrAt_in 3 rfl _).trans ((A_eq2 (E14 m (outs m)) c 3).trans (V15_of m (outs m) c main_v78 (by decide)).symm)
  | ⟨4, _⟩ => by
    show (pdats m 2 c).arrAt 4 cfg2.N = V15 m (outs m) c main_v79
    simp only [V15, Function.update_self]; exact (outs_15 m c).symm
theorem hrest2 (c : Dev nD) : ∀ b : Ref sig .tc, b ∉ Finset.univ.image (Pipeline.arrRef spec2) → V15 m (outs m) c b = V14 m (outs m) c b :=
  fun b hb => V15_of m (outs m) c b (fun h => hb (by
    rw [List.mem_singleton] at h; subst h
    exact Finset.mem_image.mpr ⟨4, Finset.mem_univ _, rfl⟩))

/-! ## The regions as segments -/

-- a library lemma stated over the pinned configuration unifies only when plain definitions in a metavariable's type may unfold
set_option backward.isDefEq.respectTransparency.types false in
/-- Region 0 over the thread state: entered with every unscoped buffer at `V4`, left at `V5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E4 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when plain definitions in a metavariable's type may unfold
set_option backward.isDefEq.respectTransparency.types false in
/-- Region 1 over the thread state: entered with every unscoped buffer at `V8`, left at `V9`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m (outs m)) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m (outs m) c) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when plain definitions in a metavariable's type may unfold
set_option backward.isDefEq.respectTransparency.types false in
/-- Region 2 over the thread state: entered with every unscoped buffer at `V14`, left at `V15`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E14 m (outs m)) c).loose
  hwaits := Pipeline.hwaits_of_owed_zero _ _ _ _ L lv 2 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E14 m (outs m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (E14 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin2 (E14 m (outs m)) c)
    unfold Pipeline.ΦA
    iintro ⟨Hp, -, Hr⟩
    isplitl [Hr]; · iexact Hr
    iexact Hp
  hout c := by
    rw [Pipeline.ownSems0_none]
    refine Idealize.SL.BI.BIBase.Entails.trans (hout2 (E14 m (outs m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E14 m (outs m) c) (fun b => V15 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's fifteen items in order, on every core. -/
abbrev allSegs (c : Dev nD) : List (Pipeline.Seg (pcfgs (F := F)) adm (pdats m) () defs₀ 𝒱₀ L lv) :=
  segs m (outs m) 𝒱₀ L lv (fun _ c => R c) () (pdats m) (reg0 m) (reg1 m) (reg2 m) c

-- the launch theorem's implicit arguments are found by unifying its conclusion with this one, which takes unfolding plain
-- definitions in a metavariable's type
set_option backward.isDefEq.respectTransparency.types false in
/-- THE RUN: from any launch memory with zero counters, every weakly fair execution of @main terminates, nothing
    faulting, and every final state holds every unscoped buffer of every core at the last segment's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V15 m (outs m) c b) :=
  Pipeline.θ_run_regions_kit_dev (pcfgs (F := F)) adm (pdats m) () cellOf_inj emb₁ defs₀ 𝒱₀ L lv m ρ main (allSegs m)
    (fun c Q => by
      rewrite [main_chain c, Pipeline.Seg.run_eq_chain,
        show (allSegs m c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()) ] from rfl]
      exact .rfl)
    (fun c => by simp only [allSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V15 m (outs m) c) ∗ ∃ r, prngReg c r))
    (hch := fun c => ⟨.rfl, .rfl, .rfl, .rfl, .rfl, .rfl, .rfl, .rfl, .rfl, .rfl, .rfl, .rfl, .rfl, .rfl, .rfl,
      (show iprop(StableHlo.held (c : Thread nD τ) (Pipeline.ucRefs τ sig) (V15 m (outs m) c) ∗ R c)
          ⊢ (iprop((StableHlo.held (c : Thread nD τ) (Pipeline.ucRefs τ sig) (V15 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V15 m (outs m) c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (V15_main_arg0 m (outs m) c),
    (h c _ (mem_uc main_arg1 (by decide))).trans (V15_main_arg1 m (outs m) c),
    (h c _ (mem_uc main_arg2 (by decide))).trans (V15_main_arg2 m (outs m) c),
    (h c _ (mem_uc main_arg3 (by decide))).trans (V15_main_arg3 m (outs m) c),
    (h c _ (mem_uc main_arg4 (by decide))).trans (V15_main_arg4 m (outs m) c),
    (h c _ (mem_uc main_arg5 (by decide))).trans (V15_main_arg5 m (outs m) c),
    (h c _ (mem_uc main_arg6 (by decide))).trans (V15_main_arg6 m (outs m) c),
    (h c _ (mem_uc main_arg7 (by decide))).trans (V15_main_arg7 m (outs m) c),
    (h c _ (mem_uc main_arg8 (by decide))).trans (V15_main_arg8 m (outs m) c),
    (h c _ (mem_uc main_arg9 (by decide))).trans (V15_main_arg9 m (outs m) c),
    (h c _ (mem_uc main_arg10 (by decide))).trans (V15_main_arg10 m (outs m) c),
    (h c _ (mem_uc main_arg11 (by decide))).trans (V15_main_arg11 m (outs m) c),
    (h c _ (mem_uc main_arg12 (by decide))).trans (V15_main_arg12 m (outs m) c),
    (h c _ (mem_uc main_arg13 (by decide))).trans (V15_main_arg13 m (outs m) c)⟩) (run_all m ρ)

/-- The run with the result named: the result buffer ends at what region 2 leaves, the arguments as launched. -/
theorem run_value : θ_run defs (onTc (τ := τ) (main (F := F))) ⟨m, fun _ => 0, ρ⟩ (fun r => ∀ c : Dev nD,
      r.2.mem ((c.tc : Thread nD τ).loc main_v79) = outs m 15 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v79 (by decide))).trans (by
      show (Function.update (V14 m (outs m) c) main_v79 (outs m 15 main_v79 c)) main_v79 = _
      rw [Function.update_self]),
    (h c _ (mem_uc main_arg0 (by decide))).trans (V15_main_arg0 m (outs m) c),
    (h c _ (mem_uc main_arg1 (by decide))).trans (V15_main_arg1 m (outs m) c),
    (h c _ (mem_uc main_arg2 (by decide))).trans (V15_main_arg2 m (outs m) c),
    (h c _ (mem_uc main_arg3 (by decide))).trans (V15_main_arg3 m (outs m) c),
    (h c _ (mem_uc main_arg4 (by decide))).trans (V15_main_arg4 m (outs m) c),
    (h c _ (mem_uc main_arg5 (by decide))).trans (V15_main_arg5 m (outs m) c),
    (h c _ (mem_uc main_arg6 (by decide))).trans (V15_main_arg6 m (outs m) c),
    (h c _ (mem_uc main_arg7 (by decide))).trans (V15_main_arg7 m (outs m) c),
    (h c _ (mem_uc main_arg8 (by decide))).trans (V15_main_arg8 m (outs m) c),
    (h c _ (mem_uc main_arg9 (by decide))).trans (V15_main_arg9 m (outs m) c),
    (h c _ (mem_uc main_arg10 (by decide))).trans (V15_main_arg10 m (outs m) c),
    (h c _ (mem_uc main_arg11 (by decide))).trans (V15_main_arg11 m (outs m) c),
    (h c _ (mem_uc main_arg12 (by decide))).trans (V15_main_arg12 m (outs m) c),
    (h c _ (mem_uc main_arg13 (by decide))).trans (V15_main_arg13 m (outs m) c)⟩) (run_all m ρ)

end Cert.Kernel.Hand

end
-- ==== Proof.KI.Vals.lean ====
/-
  The contents of core `c`'s buffers on entry to each of the three kernel regions, read at the core's own
  references: what each region's proof data is stated at.
-/
import proofs.«403968_j10488310137582_1_alg».proof.Proof.Gen.KernelIdeal.Regions

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (outs : Outs (F := F))

/-- On entry to region 0 (after the first four host stretches). -/
abbrev E4 : (c : Dev nD) → (b : Ref sig .tc) → Buf (Elt F) ((c : Thread nD τ).loc b) := fun c b => V4 m c b
/-- On entry to region 1. -/
abbrev E8 : (c : Dev nD) → (b : Ref sig .tc) → Buf (Elt F) ((c : Thread nD τ).loc b) := fun c b => V8 m outs c b
/-- On entry to region 2. -/
abbrev E14 : (c : Dev nD) → (b : Ref sig .tc) → Buf (Elt F) ((c : Thread nD τ).loc b) := fun c b => V14 m outs c b

end Cert.KernelIdeal.Hand

end
-- ==== Proof.KI.R0.lean ====
/-
  Region 0 of the program: the dense product of one 8192-row tile of the padded node features with the
  128×128 weight, tile by tile over 13 grid points.  Stated at a parameter `V`, the contents of the
  core's buffers when the region is entered: a window's block at a point is a rectangle of its array;
  the body reads the two input blocks whole and stores the product whole, so the output window's buffer
  after the body is the product of the two input blocks, and the invariant of the region is the class
  invariant (nothing carried between points).
-/
import proofs.«403968_j10488310137582_1_alg».proof.Proof.Gen.KernelIdeal.Launch
import proofs.«403968_j10488310137582_1_alg».proof.Proof.Gen.KernelIdeal.Skeleton
import proofs.«403968_j10488310137582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S8192x128 := Rect.unit (s := S8192x128) ![0, 0] S8192x128.size inb_S8192x128_S8192x128_0_0
abbrev r0_1 : Rect S128x128 := Rect.unit (s := S128x128) ![0, 0] S128x128.size inb_S128x128_S128x128_0_0
abbrev r0_2 : Rect S8192x128 := Rect.unit (s := S8192x128) ![0, 0] S8192x128.size inb_S8192x128_S8192x128_0_0

/-- The output window's staging buffer after the body: its one store, of the body's value of the loaded blocks. -/
def out0_2 (x0 : Vec F S8192x128 .f32) (x1 : Vec F S128x128 .f32) : Vec F S8192x128 .f32 :=
  View.canon [⟨r0_2, k0_pay1 (View.ld x0 r0_0) (View.ld x1 r0_1)⟩]

/-- The one store covers the buffer. -/
theorem cover0_2 (p0 : Vec F S8192x128 .f32) (y : S8192x128.Idx) :
    ∃ pc ∈ ([⟨r0_2, p0⟩] : List (View.Piece (Elt F) S8192x128 .f32)), y ∈ pc.1.set :=
  View.cover_of_tiled [⟨r0_2, p0⟩] S8192x128.size (by rfl) y

set_option maxHeartbeats 1000000 in
/-- The body on whole staging memrefs: the inputs' kept, the output's left at `out0_2` of the inputs'. -/
theorem sound_kernel0 (c : Dev nD) (E : Set ℕ) (i : grid0.Coords) (arg1 : Memref sig .tc .vmem S8192x128 .f32) (harg1 : arg1.IsWhole) (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`: arrays as found; inputs' buffers at their blocks, the output's at the body's value of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program: on one 4096-row tile of the padded first-layer features, the batch
  normalisation with the running statistics, the rectifier, and the dense product with the second
  128×128 weight, tile by tile over 25 grid points.  Stated at a parameter `V`, the contents of the
  core's buffers when the region is entered.  The body reads its six input blocks whole (the tile, the
  four statistics rows, the weight) and stores the product whole: the output window's buffer after the
  body is that one value of the six input blocks, and nothing is carried between points.
-/
import proofs.«403968_j10488310137582_1_alg».proof.Proof.Gen.KernelIdeal.Launch
import proofs.«403968_j10488310137582_1_alg».proof.Proof.Gen.KernelIdeal.Skeleton
import proofs.«403968_j10488310137582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0
abbrev r1_2 : Rect S1x128 := Rect.unit (s := S1x128) ![0, 0] S1x128.size inb_S1x128_S1x128_0_0
abbrev r1_3 : Rect S1x128 := Rect.unit (s := S1x128) ![0, 0] S1x128.size inb_S1x128_S1x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S4096x128 := Rect.unit (s := S4096x128) ![0, 0] S4096x128.size inb_S4096x128_S4096x128_0_0

/-- The output window's staging buffer after the body: its one store, of the body's value of the loaded blocks. -/
def out1_6 (x0 : Vec F S4096x128 .f32) (x1 : Vec F S1x128 .f32) (x2 : Vec F S1x128 .f32) (x3 : Vec F S1x128 .f32) (x4 : Vec F S1x128 .f32) (x5 : Vec F S128x128 .f32) : Vec F S4096x128 .f32 :=
  View.canon [⟨r1_6, k1_pay1 (View.ld x0 r1_0) (View.ld x1 r1_1) (View.ld x2 r1_2) (View.ld x3 r1_3) (View.ld x4 r1_4) (View.ld x5 r1_5)⟩]

/-- The one store covers the buffer. -/
theorem cover1_6 (p0 : Vec F S4096x128 .f32) (y : S4096x128.Idx) :
    ∃ pc ∈ ([⟨r1_6, p0⟩] : List (View.Piece (Elt F) S4096x128 .f32)), y ∈ pc.1.set :=
  View.cover_of_tiled [⟨r1_6, p0⟩] S4096x128.size (by rfl) y

set_option maxHeartbeats 1000000 in
/-- The body on whole staging memrefs: the inputs' kept, the output's left at `out1_6` of the inputs'. -/
theorem sound_kernel1 (c : Dev nD) (E : Set ℕ) (i : grid1.Coords) (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4096x128 .f32) (harg7 : arg7.IsWhole)
    (x0 : Vec F S4096x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_relu_matmul_kernel i arg1 harg1 arg2 harg2 arg3 harg3 arg4 harg4 arg5 harg5 arg6 harg6 arg7 harg7) K := by
  simp only [cc1__bn_relu_matmul_kernel_eq_skeleton]; unfold cc1__bn_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of region 1 on core `c`: arrays as found; inputs' buffers at their blocks, the output's at the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2K.lean ====
/-
  Region 2 of the program, the kernel body alone.  The body keeps a 512×128 accumulator in a scratch
  buffer across the 13 grid points: at the first point it is reset to zero; at every point the tile's
  contribution is added (the product of the transposed one-hot matrix of the tile's 8192 graph ids with
  the tile's 8192×128 features); at the last point the accumulator is multiplied by the 128×8 weight,
  the bias row is added and the 512×8 result is stored.  Three triples, one per kind of point, each
  with the contents it leaves written out: the scratch ends at `k2_pay2` of the two tiles and of what
  it held when the addition read it, and at the last point the output buffer ends at `k2_pay3` of that.
-/
import proofs.«403968_j10488310137582_1_alg».proof.Proof.Gen.KernelIdeal.Launch
import proofs.«403968_j10488310137582_1_alg».proof.Proof.Gen.KernelIdeal.Skeleton
import proofs.«403968_j10488310137582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The body's first conditional: the grid point is the first. -/
abbrev isFirst2 (i : grid2.Coords) : Prop := (Scalar.cmpi .ne (Scalar.extui (Scalar.cmpi .eq (BitVec.ofNat 32 (i 0).val) 0#32)) 0#32) = 1#1
/-- The body's second conditional: the grid point is the last. -/
abbrev isLast2 (i : grid2.Coords) : Prop := k2_cond2 i = 1#1

theorem isFirst2_iff : ∀ t : Fin cfg2.N, isFirst2 (grid2.coords t) ↔ t.val = 0 :=
  (by decide +kernel : ∀ t : Fin grid2.N, isFirst2 (grid2.coords t) ↔ t.val = 0)
theorem isLast2_iff : ∀ t : Fin cfg2.N, isLast2 (grid2.coords t) ↔ t.val = 12 :=
  (by decide +kernel : ∀ t : Fin grid2.N, isLast2 (grid2.coords t) ↔ t.val = 12)

theorem zeros2 : (![0, 0] : Fin 2 → Nat) = fun _ => 0 := funext fun a => by fin_cases a <;> rfl
theorem zeros1 : (![0] : Fin 1 → Nat) = fun _ => 0 := funext fun a => by fin_cases a <;> rfl

set_option maxHeartbeats 2000000 in
/-- At the first point: the accumulator, whatever it held, ends at the tile's contribution added to zero; the
    output buffer is not touched. -/
theorem run2_first (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : isFirst2 i) (hc1 : ¬isLast2 i) (x0 : Vec F S8192x128 .f32) (x1 : Vec F S8192 .i32) (x2 : Vec F S128x8 .f32) (x3 : Vec F S1x8 .f32) (xo : Vec F S512x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k2_pay2 x0 x1 (k2_pay1 (F := F)))) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [View.read_writes_eq_canon _ _ _ (fun y => ⟨_, List.mem_cons_self, View.mem_set_unit_zero zeros2 inb_S512x128_S512x128_0_0 y⟩),
    View.canon_cons_unit_zero zeros2]
  sl_unfold_run_names
  simp only [View.readAt_eq_ld, View.ld_unit_zero (S := S8192x128) zeros2, View.ld_unit_zero (S := S8192) zeros1]
  rw [View.readCov_unit_zero (S := S512x128) arg6.view zeros2]

set_option maxHeartbeats 2000000 in
/-- At a point that is neither the first nor the last: the accumulator gains the tile's contribution; the output
    buffer is not touched. -/
theorem run2_mid (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : ¬isFirst2 i) (hc1 : ¬isLast2 i) (x0 : Vec F S8192x128 .f32) (x1 : Vec F S8192 .i32) (x2 : Vec F S128x8 .f32) (x3 : Vec F S1x8 .f32) (xo : Vec F S512x8 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare (k2_pay2 x0 x1 xs)) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  rw [View.read_writes_eq_canon _ _ _ (fun y => ⟨_, List.mem_cons_self, View.mem_set_unit_zero zeros2 inb_S512x128_S512x128_0_0 y⟩),
    View.canon_cons_unit_zero zeros2]
  sl_unfold_run_names
  simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]

set_option maxHeartbeats 2000000 in
/-- At the last point: the accumulator gains the tile's contribution, and the output buffer, whatever it held, ends at
    the accumulator's product with the weight plus the bias row. -/
theorem run2_last (c : Dev nD) (E : Set ℕ) (i : grid2.Coords) (arg1 : Memref sig .tc .vmem S8192x128 .f32) (harg1 : arg1.IsWhole) (arg2 : Memref sig .tc .vmem S8192 .i32) (harg2 : arg2.IsWhole) (arg3 : Memref sig .tc .vmem S128x8 .f32) (harg3 : arg3.IsWhole) (arg4 : Memref sig .tc .vmem S1x8 .f32) (harg4 : arg4.IsWhole) (arg5 : Memref sig .tc .vmem S512x8 .f32) (harg5 : arg5.IsWhole) (arg6 : Memref sig .tc .vmem S512x128 .f32) (harg6 : arg6.IsWhole)
    (hc0 : ¬isFirst2 i) (hc1 : isLast2 i) (x0 : Vec F S8192x128 .f32) (x1 : Vec F S8192 .i32) (x2 : Vec F S128x8 .f32) (x3 : Vec F S1x8 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay3 (k2_pay2 x0 x1 xs) x2 x3) ∗ owns (c : Thread nD τ) arg6 fullShare (k2_pay2 x0 x1 xs)) -∗ K ⟨⟩))
      ⊢ wp frame (wpE (defs₀ (F := F)) Variants.none c none) E (cc2__pool_linear_kernel i arg1 harg1 arg2 harg2 arg3 harg3 arg4 harg4 arg5 harg5 arg6 harg6) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (fun y => ⟨_, List.mem_cons_self, View.mem_set_unit_zero zeros2 inb_S512x8_S512x8_0_0 y⟩),
      View.canon_cons_unit_zero zeros2]
    sl_unfold_run_names
    simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]
    rw [View.readCov_unit_zero (S := S512x128) arg6.view zeros2]
  iexists _; isplitr
  swap; · iexact H5
  ipureintro
  sl_unfold_run_names
  rw [View.read_writes_eq_canon _ _ _ (fun y => ⟨_, List.mem_cons_self, View.mem_set_unit_zero zeros2 inb_S512x128_S512x128_0_0 y⟩),
    View.canon_cons_unit_zero zeros2]
  simp only [View.readAt_eq_ld, View.ld_unit_zero (S := S8192x128) zeros2, View.ld_unit_zero (S := S8192) zeros1,
    View.ld_unit_zero (S := S512x128) zeros2, View.ld_unit_zero (S := S128x8) zeros2, View.ld_unit_zero (S := S1x8) zeros2]

end Cert.KernelIdeal.Hand

end
-- ==== Proof.KI.R2.lean ====
/-
  Region 2 of the program as a pipeline: the proof data and the body obligation, at a parameter `V` (the
  contents of the core's buffers when the region is entered).  The accumulator after point n is the fold
    acc 0 = step (tile 0) zero,   acc (n+1) = step (tile (n+1)) (acc n),
  `step` the body's addition of one tile's contribution (`k2_pay2`); the invariant before point n+1 holds the
  scratch buffer at `acc n` (before point 0: at anything), beside the core's other scoped buffers, which
  the region never opens.  The output window is idle except at the last point, where it is left at the
  accumulator's product with the weight plus the bias (`k2_pay3`); it is written back there only.
-/
import proofs.«403968_j10488310137582_1_alg».proof.Proof.KI.R2K

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The accumulator after the body at point `n`. -/
def accAt (c : Dev nD) : (n : ℕ) → n < cfg2.N → Vec F S512x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (accAt c n (Nat.lt_of_succ_lt h))

theorem accAt_zero (c : Dev nD) (t : Fin cfg2.N) (h : t.val = 0) :
    accAt V c t.val t.isLt = k2_pay2 (iblk2 V c 0 t) (iblk2 V c 1 t) (k2_pay1 (F := F)) := by
  obtain ⟨n, hn⟩ := t; cases n with
  | zero => rfl
  | succ n => exact absurd h (Nat.succ_ne_zero n)

theorem accAt_pos (c : Dev nD) (t : Fin cfg2.N) (h : t.val ≠ 0) :
    accAt V c t.val t.isLt = k2_pay2 (iblk2 V c 0 t) (iblk2 V c 1 t) (accAt V c (t.val - 1) (Nat.lt_of_le_of_lt (Nat.sub_le _ _) t.isLt)) := by
  obtain ⟨n, hn⟩ := t; cases n with
  | zero => exact absurd rfl h
  | succ n => rfl

/-- The scratch operand, a whole scoped buffer of the kernel's own. -/
abbrev scM2 : Memref sig .tc .vmem S512x128 .f32 := Memref.whole cc2_scratch0
/-- The core's other scoped buffers that no window of this region stages: never opened here. -/
abbrev others2 (c : Dev nD) : sProp 𝕄 :=
  Pipeline.scopedRestBut (Ix := Unit) (Name := ℕ) (U := UR sig nD τ) (Lvl := ℕ) (Val := Elt F) spec2 c [cc2_scratch0]

/-- The class invariant with the scratch buffer split off. -/
theorem PhiA2_eq (c : Dev nD) :
    (Pipeline.ΦA spec2 c : sProp 𝕄) = iprop(((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole]
  rfl

/-- The invariant before position `n`: the class invariant before the first point; afterwards the scratch at the
    accumulator the point before left. -/
def PhiAcc (c : Dev nD) : (n : ℕ) → n ≤ cfg2.N → sProp 𝕄
  | 0, _ => Pipeline.ΦA spec2 c
  | n + 1, hn => iprop((owns (c : Thread nD τ) scM2 fullShare (accAt V c n hn) ∗ others2 c) ∗ (∃ r, prngReg c r))

theorem PhiAcc_zero (c : Dev nD) (n : ℕ) (h : n ≤ cfg2.N) (hz : n = 0) : PhiAcc V c n h = Pipeline.ΦA spec2 c := by
  subst hz; rfl
theorem PhiAcc_succ (c : Dev nD) (n : ℕ) (hn : n < cfg2.N) :
    PhiAcc V c (n + 1) hn = iprop((owns (c : Thread nD τ) scM2 fullShare (accAt V c n hn) ∗ others2 c) ∗ (∃ r, prngReg c r)) := rfl
theorem PhiAcc_pos (c : Dev nD) (n : ℕ) (h : n ≤ cfg2.N) (hz : n ≠ 0) :
    PhiAcc V c n h = iprop((owns (c : Thread nD τ) scM2 fullShare (accAt V c (n - 1) (by omega)) ∗ others2 c) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (accAt V c t.val t.isLt) (iblk2 V c 2 t) (iblk2 V c 3 t)
  Φ t := PhiAcc V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAcc V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (accAt V c t.val t.isLt) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The input windows are never idle; the output window is idle, and not written back, except at the last point. -/
theorem live2_in : ∀ (w : Fin 4) (t : Fin cfg2.N), cfg2.idle (Fin.castSucc w) (grid2.coords t) = false := by decide +kernel
theorem idle2_out : ∀ t : Fin cfg2.N, ¬isLast2 (grid2.coords t) → cfg2.idle 4 (grid2.coords t) = true := by decide +kernel
theorem noFlush2_out : ∀ t : Fin cfg2.N, ¬isLast2 (grid2.coords t) → (cfg2.win 4).flush t = false := by decide +kernel
theorem live2_out : ∀ t : Fin cfg2.N, isLast2 (grid2.coords t) → cfg2.idle 4 (grid2.coords t) = false := by decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

theorem leaves2_in (c : Dev nD) (w : Fin 4) (t : Fin cfg2.N) :
    (dat2 V c).leavesExact (Fin.castSucc w) t
      = owns (c : Thread nD τ) ((cfg2.win (Fin.castSucc w)).stage (cfg2.slots t (Fin.castSucc w))) fullShare ((dat2 V c).after (Fin.castSucc w) t) := by
  unfold Dat.leavesExact; rw [live2_in w t]

set_option maxHeartbeats 2000000 in
/-- The body at any point: which of the three triples applies is decided by the point's position; the invariant hands
    the scratch over at what the point before left and takes it back at this point's accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiAcc V c (t.val + 1) t.isLt from rfl, PhiAcc_succ]
  rw [show (dat2 V c).leavesExact 0 t = owns (c : Thread nD τ) (st2_0 t) fullShare ((dat2 V c).after 0 t) from leaves2_in V c 0 t,
    show (dat2 V c).leavesExact 1 t = owns (c : Thread nD τ) (st2_1 t) fullShare ((dat2 V c).after 1 t) from leaves2_in V c 1 t,
    show (dat2 V c).leavesExact 2 t = owns (c : Thread nD τ) (st2_2 t) fullShare ((dat2 V c).after 2 t) from leaves2_in V c 2 t,
    show (dat2 V c).leavesExact 3 t = owns (c : Thread nD τ) (st2_3 t) fullShare ((dat2 V c).after 3 t) from leaves2_in V c 3 t,
    after2_0, after2_1, after2_2, after2_3]
  have hN : t.val < 13 := lt_of_lt_of_eq t.isLt (show cfg2.N = 13 from N_2)
  by_cases h0 : t.val = 0
  · have hc0 : isFirst2 (grid2.coords t) := (isFirst2_iff t).mpr h0
    have hc1 : ¬isLast2 (grid2.coords t) := fun h => by have := (isLast2_iff t).mp h; omega
    rw [Dat.leavesExact_idle (dat2 V c) 4 t (idle2_out t hc1) (noFlush2_out t hc1)]
    rw [accAt_zero V c t h0, Phi2_castSucc V c t, PhiAcc_zero V c _ _ h0, PhiA2_eq]
    iintro ⟨⟨⟨HS, Hoth⟩, Hg⟩, Ho, ⟨%d0, H0⟩, ⟨%d1, H1⟩, ⟨%d2, H2⟩, ⟨%d3, H3⟩, ⟨%d4, H4⟩⟩
    iapply (run2_first c Set.univ (grid2.coords t) _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · have hc0 : ¬isFirst2 (grid2.coords t) := fun h => h0 ((isFirst2_iff t).mp h)
    rw [accAt_pos V c t h0, Phi2_castSucc V c t, PhiAcc_pos V c _ _ h0]
    by_cases h1 : t.val = 12
    · have hc1 : isLast2 (grid2.coords t) := (isLast2_iff t).mpr h1
      rw [show (dat2 V c).leavesExact 4 t = owns (c : Thread nD τ) (st2_4 t) fullShare ((dat2 V c).after 4 t) from by
        unfold Dat.leavesExact; rw [live2_out t hc1], after2_4, accAt_pos V c t h0]
      iintro ⟨⟨⟨HS, Hoth⟩, Hg⟩, Ho, ⟨%d0, H0⟩, ⟨%d1, H1⟩, ⟨%d2, H2⟩, ⟨%d3, H3⟩, ⟨%d4, H4⟩⟩
      iapply (run2_last c Set.univ (grid2.coords t) _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hc1 : ¬isLast2 (grid2.coords t) := fun h => h1 ((isLast2_iff t).mp h)
      rw [Dat.leavesExact_idle (dat2 V c) 4 t (idle2_out t hc1) (noFlush2_out t hc1)]
      iintro ⟨⟨⟨HS, Hoth⟩, Hg⟩, Ho, ⟨%d0, H0⟩, ⟨%d1, H1⟩, ⟨%d2, H2⟩, ⟨%d3, H3⟩, ⟨%d4, H4⟩⟩
      iapply (run2_mid c Set.univ (grid2.coords t) _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the class invariant. -/
theorem hin2 (c : Dev nD) : Pipeline.ΦA spec2 c ⊢ (dat2 V c).Φ 0 := by
  rw [show (dat2 V c).Φ 0 = PhiAcc V c 0 (Nat.zero_le _) from rfl, PhiAcc_zero V c 0 _ rfl]

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiAcc V c (Fin.last cfg2.N).val (Nat.le_of_lt_succ (Fin.last cfg2.N).isLt) from rfl,
    PhiAcc_pos V c _ _ (by rw [Fin.val_last]; have : cfg2.N = 13 := N_2; omega), PhiA2_eq]
  iintro ⟨⟨HS, Hoth⟩, Hg⟩
  isplitl [HS Hoth]
  · isplitl [HS]; · iexists _; iexact HS
    iexact Hoth
  iexact Hg

end Cert.KernelIdeal.Hand

end
-- ==== Proof.KI.Run.lean ====
/-
  The run of the whole program: the three kernel regions as segments among the host stretches.
  What each region leaves in its output array is what the pipeline's write-backs assemble from the
  proof data (`Dat.arrAt` at the grid's end); region 1 is entered from buffers that already hold
  region 0's output, region 2 from buffers that hold region 1's.  Each region's record splits its
  windows' arrays out of the core's unscoped buffers on entry and puts them back on exit; the core's
  generator register and its empty tally of dues ride beside the buffers through every segment.
  Conclusions: from any launch memory every weakly fair execution ends with every unscoped buffer at the
  last segment's contents — in particular the arguments as launched and the result at region 2's output.
-/
import proofs.«403968_j10488310137582_1_alg».proof.Proof.KI.Vals
import proofs.«403968_j10488310137582_1_alg».proof.Proof.KI.R0
import proofs.«403968_j10488310137582_1_alg».proof.Proof.KI.R1
import proofs.«403968_j10488310137582_1_alg».proof.Proof.KI.R2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's output array after its last write-back. -/
def o5 (c : Dev nD) : Buf (Elt F) ((c : Thread nD τ).loc main_v35) := (dat0 (E4 m) c).arrAt 2 cfg0.N
/-- The unknowns of the host side, with region 0's output known. -/
def outsA : Outs (F := F) := fun _ r c => (Function.update (V4 m c) main_v35 (o5 m c)) r
/-- Region 1's output array after its last write-back. -/
def o9 (c : Dev nD) : Buf (Elt F) ((c : Thread nD τ).loc main_v58) := (dat1 (E8 m (outsA m)) c).arrAt 6 cfg1.N
/-- … with region 1's output known too. -/
def outsB : Outs (F := F) := fun J r c => match J with
  | 5 => outsA m 5 r c
  | _ => (Function.update (V8 m (outsA m) c) main_v58 (o9 m c)) r
/-- Region 2's output array after its last write-back. -/
def o15 (c : Dev nD) : Buf (Elt F) ((c : Thread nD τ).loc main_v79) := (dat2 (E14 m (outsB m)) c).arrAt 4 cfg2.N
/-- What each region leaves in the buffers it may change. -/
def outs : Outs (F := F) := fun J r c => match J with
  | 5 => outsA m 5 r c
  | 9 => outsB m 9 r c
  | _ => (Function.update (V14 m (outsB m) c) main_v79 (o15 m c)) r

theorem outs_5 (c : Dev nD) : outs m 5 main_v35 c = (dat0 (E4 m) c).arrAt 2 cfg0.N := by
  show (Function.update (V4 m c) main_v35 (o5 m c)) main_v35 = _
  rw [Function.update_self]; rfl
theorem V8_outs (c : Dev nD) : V8 m (outs m) c = V8 m (outsA m) c := rfl
theorem outs_9 (c : Dev nD) : outs m 9 main_v58 c = (dat1 (E8 m (outs m)) c).arrAt 6 cfg1.N := by
  show (Function.update (V8 m (outsA m) c) main_v58 (o9 m c)) main_v58 = _
  rw [Function.update_self]; rfl
theorem V14_outs (c : Dev nD) : V14 m (outs m) c = V14 m (outsB m) c := rfl
theorem outs_15 (c : Dev nD) : outs m 15 main_v79 c = (dat2 (E14 m (outs m)) c).arrAt 4 cfg2.N := by
  show (Function.update (V14 m (outsB m) c) main_v79 (o15 m c)) main_v79 = _
  rw [Function.update_self]; rfl

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E4 m) c
  | ⟨1, _⟩ => fun c => dat1 (E8 m (outs m)) c
  | ⟨2, _⟩ => fun c => dat2 (E14 m (outs m)) c
  | ⟨_ + 3, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- The core's generator register at some state, and its tally of dues, empty. -/
abbrev R (c : Dev nD) : sProp 𝕄 := iprop((∃ r, prngReg c r) ∗ ∃ W, owes (c : Thread nD τ) (0 : CellTallies nD τ sig Unit) W)

set_option maxHeartbeats 1000000 in
theorem hF0 (c : Dev nD) : ∀ w : Fin cfg0.W, (pdats m 0 c).arrAt w cfg0.N = V5 m (outs m) c (Pipeline.arrRef spec0 w)
  | ⟨0, _⟩ => by
    show (dat0 (E4 m) c).arrAt 0 cfg0.N = V5 m (outs m) c main_v34
    exact ((dat0 (E4 m) c).arrAt_in 0 rfl _).trans ((A_eq0 (E4 m) c 0).trans (V5_of m (outs m) c main_v34 (by decide)).symm)
  | ⟨1, _⟩ => by
    show (dat0 (E4 m) c).arrAt 1 cfg0.N = V5 m (outs m) c main_arg4
    exact ((dat0 (E4 m) c).arrAt_in 1 rfl _).trans ((A_eq0 (E4 m) c 1).trans (V5_of m (outs m) c main_arg4 (by decide)).symm)
  | ⟨2, _⟩ => by
    show (pdats m 0 c).arrAt 2 cfg0.N = V5 m (outs m) c main_v35
    simp only [V5, Function.update_self]; exact (outs_5 m c).symm
theorem hrest0 (c : Dev nD) : ∀ b : Ref sig .tc, b ∉ Finset.univ.image (Pipeline.arrRef spec0) → V5 m (outs m) c b = V4 m c b :=
  fun b hb => V5_of m (outs m) c b (fun h => hb (by
    rw [List.mem_singleton] at h; subst h
    exact Finset.mem_image.mpr ⟨2, Finset.mem_univ _, rfl⟩))

set_option maxHeartbeats 1000000 in
theorem hF1 (c : Dev nD) : ∀ w : Fin cfg1.W, (pdats m 1 c).arrAt w cfg1.N = V9 m (outs m) c (Pipeline.arrRef spec1 w)
  | ⟨0, _⟩ => by
    show (dat1 (E8 m (outs m)) c).arrAt 0 cfg1.N = V9 m (outs m) c main_v53
    exact ((dat1 (E8 m (outs m)) c).arrAt_in 0 rfl _).trans ((A_eq1 (E8 m (outs m)) c 0).trans (V9_of m (outs m) c main_v53 (by decide)).symm)
  | ⟨1, _⟩ => by
    show (dat1 (E8 m (outs m)) c).arrAt 1 cfg1.N = V9 m (outs m) c main_v54
    exact ((dat1 (E8 m (outs m)) c).arrAt_in 1 rfl _).trans ((A_eq1 (E8 m (outs m)) c 1).trans (V9_of m (outs m) c main_v54 (by decide)).symm)
  | ⟨2, _⟩ => by
    show (dat1 (E8 m (outs m)) c).arrAt 2 cfg1.N = V9 m (outs m) c main_v55
    exact ((dat1 (E8 m (outs m)) c).arrAt_in 2 rfl _).trans ((A_eq1 (E8 m (outs m)) c 2).trans (V9_of m (outs m) c main_v55 (by decide)).symm)
  | ⟨3, _⟩ => by
    show (dat1 (E8 m (outs m)) c).arrAt 3 cfg1.N = V9 m (outs m) c main_v56
    exact ((dat1 (E8 m (outs m)) c).arrAt_in 3 rfl _).trans ((A_eq1 (E8 m (outs m)) c 3).trans (V9_of m (outs m) c main_v56 (by decide)).symm)
  | ⟨4, _⟩ => by
    show (dat1 (E8 m (outs m)) c).arrAt 4 cfg1.N = V9 m (outs m) c main_v57
    exact ((dat1 (E8 m (outs m)) c).arrAt_in 4 rfl _).trans ((A_eq1 (E8 m (outs m)) c 4).trans (V9_of m (outs m) c main_v57 (by decide)).symm)
  | ⟨5, _⟩ => by
    show (dat1 (E8 m (outs m)) c).arrAt 5 cfg1.N = V9 m (outs m) c main_arg10
    exact ((dat1 (E8 m (outs m)) c).arrAt_in 5 rfl _).trans ((A_eq1 (E8 m (outs m)) c 5).trans (V9_of m (outs m) c main_arg10 (by decide)).symm)
  | ⟨6, _⟩ => by
    show (pdats m 1 c).arrAt 6 cfg1.N = V9 m (outs m) c main_v58
    simp only [V9, Function.update_self]; exact (outs_9 m c).symm
theorem hrest1 (c : Dev nD) : ∀ b : Ref sig .tc, b ∉ Finset.univ.image (Pipeline.arrRef spec1) → V9 m (outs m) c b = V8 m (outs m) c b :=
  fun b hb => V9_of m (outs m) c b (fun h => hb (by
    rw [List.mem_singleton] at h; subst h
    exact Finset.mem_image.mpr ⟨6, Finset.mem_univ _, rfl⟩))

set_option maxHeartbeats 1000000 in
theorem hF2 (c : Dev nD) : ∀ w : Fin cfg2.W, (pdats m 2 c).arrAt w cfg2.N = V15 m (outs m) c (Pipeline.arrRef spec2 w)
  | ⟨0, _⟩ => by
    show (dat2 (E14 m (outs m)) c).arrAt 0 cfg2.N = V15 m (outs m) c main_v76
    exact ((dat2 (E14 m (outs m)) c).arrAt_in 0 rfl _).trans ((A_eq2 (E14 m (outs m)) c 0).trans (V15_of m (outs m) c main_v76 (by decide)).symm)
  | ⟨1, _⟩ => by
    show (dat2 (E14 m (outs m)) c).arrAt 1 cfg2.N = V15 m (outs m) c main_v77
    exact ((dat2 (E14 m (outs m)) c).arrAt_in 1 rfl _).trans ((A_eq2 (E14 m (outs m)) c 1).trans (V15_of m (outs m) c main_v77 (by decide)).symm)
  | ⟨2, _⟩ => by
    show (dat2 (E14 m (outs m)) c).arrAt 2 cfg2.N = V15 m (outs m) c main_arg12
    exact ((dat2 (E14 m (outs m)) c).arrAt_in 2 rfl _).trans ((A_eq2 (E14 m (outs m)) c 2).trans (V15_of m (outs m) c main_arg12 (by decide)).symm)
  | ⟨3, _⟩ => by
    show (dat2 (E14 m (outs m)) c).arrAt 3 cfg2.N = V15 m (outs m) c main_v78
    exact ((dat2 (E14 m (outs m)) c).arrAt_in 3 rfl _).trans ((A_eq2 (E14 m (outs m)) c 3).trans (V15_of m (outs m) c main_v78 (by decide)).symm)
  | ⟨4, _⟩ => by
    show (pdats m 2 c).arrAt 4 cfg2.N = V15 m (outs m) c main_v79
    simp only [V15, Function.update_self]; exact (outs_15 m c).symm
theorem hrest2 (c : Dev nD) : ∀ b : Ref sig .tc, b ∉ Finset.univ.image (Pipeline.arrRef spec2) → V15 m (outs m) c b = V14 m (outs m) c b :=
  fun b hb => V15_of m (outs m) c b (fun h => hb (by
    rw [List.mem_singleton] at h; subst h
    exact Finset.mem_image.mpr ⟨4, Finset.mem_univ _, rfl⟩))

/-! ## The regions as segments -/

-- a library lemma stated over the pinned configuration unifies only when plain definitions in a metavariable's type may unfold
set_option backward.isDefEq.respectTransparency.types false in
/-- Region 0 over the thread state: entered with every unscoped buffer at `V4`, left at `V5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E4 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when plain definitions in a metavariable's type may unfold
set_option backward.isDefEq.respectTransparency.types false in
/-- Region 1 over the thread state: entered with every unscoped buffer at `V8`, left at `V9`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m (outs m)) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m (outs m) c) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when plain definitions in a metavariable's type may unfold
set_option backward.isDefEq.respectTransparency.types false in
/-- Region 2 over the thread state: entered with every unscoped buffer at `V14`, left at `V15`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E14 m (outs m)) c).loose
  hwaits := Pipeline.hwaits_of_owed_zero _ _ _ _ L lv 2 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E14 m (outs m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (E14 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin2 (E14 m (outs m)) c)
    unfold Pipeline.ΦA
    iintro ⟨Hp, -, Hr⟩
    isplitl [Hr]; · iexact Hr
    iexact Hp
  hout c := by
    rw [Pipeline.ownSems0_none]
    refine Idealize.SL.BI.BIBase.Entails.trans (hout2 (E14 m (outs m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E14 m (outs m) c) (fun b => V15 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's fifteen items in order, on every core. -/
abbrev allSegs (c : Dev nD) : List (Pipeline.Seg (pcfgs (F := F)) adm (pdats m) () defs₀ 𝒱₀ L lv) :=
  segs m (outs m) 𝒱₀ L lv (fun _ c => R c) () (pdats m) (reg0 m) (reg1 m) (reg2 m) c

-- the launch theorem's implicit arguments are found by unifying its conclusion with this one, which takes unfolding plain
-- definitions in a metavariable's type
set_option backward.isDefEq.respectTransparency.types false in
/-- THE RUN: from any launch memory with zero counters, every weakly fair execution of @main terminates, nothing
    faulting, and every final state holds every unscoped buffer of every core at the last segment's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V15 m (outs m) c b) :=
  Pipeline.θ_run_regions_kit_dev (pcfgs (F := F)) adm (pdats m) () cellOf_inj emb₁ defs₀ 𝒱₀ L lv m ρ main (allSegs m)
    (fun c Q => by
      rewrite [main_chain c, Pipeline.Seg.run_eq_chain,
        show (allSegs m c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()) ] from rfl]
      exact .rfl)
    (fun c => by simp only [allSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V15 m (outs m) c) ∗ ∃ r, prngReg c r))
    (hch := fun c => ⟨.rfl, .rfl, .rfl, .rfl, .rfl, .rfl, .rfl, .rfl, .rfl, .rfl, .rfl, .rfl, .rfl, .rfl, .rfl,
      (show iprop(StableHlo.held (c : Thread nD τ) (Pipeline.ucRefs τ sig) (V15 m (outs m) c) ∗ R c)
          ⊢ (iprop((StableHlo.held (c : Thread nD τ) (Pipeline.ucRefs τ sig) (V15 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V15 m (outs m) c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (V15_main_arg0 m (outs m) c),
    (h c _ (mem_uc main_arg1 (by decide))).trans (V15_main_arg1 m (outs m) c),
    (h c _ (mem_uc main_arg2 (by decide))).trans (V15_main_arg2 m (outs m) c),
    (h c _ (mem_uc main_arg3 (by decide))).trans (V15_main_arg3 m (outs m) c),
    (h c _ (mem_uc main_arg4 (by decide))).trans (V15_main_arg4 m (outs m) c),
    (h c _ (mem_uc main_arg5 (by decide))).trans (V15_main_arg5 m (outs m) c),
    (h c _ (mem_uc main_arg6 (by decide))).trans (V15_main_arg6 m (outs m) c),
    (h c _ (mem_uc main_arg7 (by decide))).trans (V15_main_arg7 m (outs m) c),
    (h c _ (mem_uc main_arg8 (by decide))).trans (V15_main_arg8 m (outs m) c),
    (h c _ (mem_uc main_arg9 (by decide))).trans (V15_main_arg9 m (outs m) c),
    (h c _ (mem_uc main_arg10 (by decide))).trans (V15_main_arg10 m (outs m) c),
    (h c _ (mem_uc main_arg11 (by decide))).trans (V15_main_arg11 m (outs m) c),
    (h c _ (mem_uc main_arg12 (by decide))).trans (V15_main_arg12 m (outs m) c),
    (h c _ (mem_uc main_arg13 (by decide))).trans (V15_main_arg13 m (outs m) c)⟩) (run_all m ρ)

/-- The run with the result named: the result buffer ends at what region 2 leaves, the arguments as launched. -/
theorem run_value : θ_run defs (onTc (τ := τ) (main (F := F))) ⟨m, fun _ => 0, ρ⟩ (fun r => ∀ c : Dev nD,
      r.2.mem ((c.tc : Thread nD τ).loc main_v79) = outs m 15 main_v79 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v79 (by decide))).trans (by
      show (Function.update (V14 m (outs m) c) main_v79 (outs m 15 main_v79 c)) main_v79 = _
      rw [Function.update_self]),
    (h c _ (mem_uc main_arg0 (by decide))).trans (V15_main_arg0 m (outs m) c),
    (h c _ (mem_uc main_arg1 (by decide))).trans (V15_main_arg1 m (outs m) c),
    (h c _ (mem_uc main_arg2 (by decide))).trans (V15_main_arg2 m (outs m) c),
    (h c _ (mem_uc main_arg3 (by decide))).trans (V15_main_arg3 m (outs m) c),
    (h c _ (mem_uc main_arg4 (by decide))).trans (V15_main_arg4 m (outs m) c),
    (h c _ (mem_uc main_arg5 (by decide))).trans (V15_main_arg5 m (outs m) c),
    (h c _ (mem_uc main_arg6 (by decide))).trans (V15_main_arg6 m (outs m) c),
    (h c _ (mem_uc main_arg7 (by decide))).trans (V15_main_arg7 m (outs m) c),
    (h c _ (mem_uc main_arg8 (by decide))).trans (V15_main_arg8 m (outs m) c),
    (h c _ (mem_uc main_arg9 (by decide))).trans (V15_main_arg9 m (outs m) c),
    (h c _ (mem_uc main_arg10 (by decide))).trans (V15_main_arg10 m (outs m) c),
    (h c _ (mem_uc main_arg11 (by decide))).trans (V15_main_arg11 m (outs m) c),
    (h c _ (mem_uc main_arg12 (by decide))).trans (V15_main_arg12 m (outs m) c),
    (h c _ (mem_uc main_arg13 (by decide))).trans (V15_main_arg13 m (outs m) c)⟩) (run_all m ρ)

end Cert.KernelIdeal.Hand

end
-- ==== Proof.KI.V0.lean ====
/-
  Region 0's output array, cut back to the first 100000 rows, is the reference's product of the node
  features with the first weight.
-/
import proofs.«403968_j10488310137582_1_alg».proof.Proof.KI.Vals
import proofs.«403968_j10488310137582_1_alg».proof.Proof.KI.R0
import proofs.«403968_j10488310137582_1_alg».proof.Proof.Gen.ReferenceIdeal.Read
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace Stage0

/-! ## The tile product at an entry -/

theorem zero_off2 : (![0, 0] : Fin 2 → Nat) = fun _ => 0 :=
  funext fun a => by match a with | ⟨0, _⟩ => rfl | ⟨1, _⟩ => rfl

/-- In a tile of the left array: entry `k` of the row of `j`. -/
abbrev lrowT (j : S8192x128.Idx) (k : Fin 128) : S8192x128.Idx := fun a => match a with
  | ⟨0, _⟩ => ⟨(j 0).val, (j 0).isLt⟩
  | ⟨1, _⟩ => ⟨k.val, k.isLt⟩
/-- In the weight: entry `k` of the column of `j`. -/
abbrev rcolT (j : S8192x128.Idx) (k : Fin 128) : S128x128.Idx := fun a => match a with
  | ⟨0, _⟩ => ⟨k.val, k.isLt⟩
  | ⟨1, _⟩ => ⟨(j 1).val, (j 1).isLt⟩

theorem lhs_tile_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_tile_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_tile_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_tile_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The body's value at an entry of the tile: the row of the left block against the column of the weight
    (the format changes are the identity on the extended reals, the product into zero is the plain sum). -/
theorem pay0_apply (x0 : Vec Ideal S8192x128 .f32) (x1 : Vec Ideal S128x128 .f32) (j : S8192x128.Idx) :
    k0_pay1 (F := Ideal) x0 x1 j = ∑ k : Fin 128, x0 (lrowT j k) * x1 (rcolT j k) := by
  unfold k0_pay1
  rw [shapeCast_self]
  refine (Ideal.matmul_constant_zero_apply (φ₁ := .bf16) (φ₂ := .bf16) dot_S8192x128_S128x128_S8192x128_1_0_0_1_n_n none
    (truncf .bf16 x0 bitsLt_bf16_f32) (truncf .bf16 x1 bitsLt_bf16_f32) j).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx j ((ValueIdx.contrEquiv1 dot_S8192x128_S128x128_S8192x128_1_0_0_1_n_n 128 rfl rfl).symm k) = lrowT j k := funext fun a => Fin.ext (by
    match a with
    | ⟨0, _⟩ => exact lhs_tile_0 _ _
    | ⟨1, _⟩ => exact (lhs_tile_1 _ _).trans hk)
  have er : dot_S8192x128_S128x128_S8192x128_1_0_0_1_n_n.rhsIdx j ((ValueIdx.contrEquiv1 dot_S8192x128_S128x128_S8192x128_1_0_0_1_n_n 128 rfl rfl).symm k) = rcolT j k := funext fun a => Fin.ext (by
    match a with
    | ⟨0, _⟩ => exact (rhs_tile_0 _ _).trans hk
    | ⟨1, _⟩ => exact rhs_tile_1 _ _)
  exact congrArg₂ (· * ·) (congrArg x0 el) (congrArg x1 er)

/-! ## From the tiles to the array -/

/-- In the padded left array: entry `k` of the row of `i`. -/
abbrev lrowP (i : S106496x128.Idx) (k : Fin 128) : S106496x128.Idx := fun a => match a with
  | ⟨0, _⟩ => ⟨(i 0).val, (i 0).isLt⟩
  | ⟨1, _⟩ => ⟨k.val, k.isLt⟩
/-- In the weight: entry `k` of the column of `i`. -/
abbrev rcolP (i : S106496x128.Idx) (k : Fin 128) : S128x128.Idx := fun a => match a with
  | ⟨0, _⟩ => ⟨k.val, k.isLt⟩
  | ⟨1, _⟩ => ⟨(i 1).val, (i 1).isLt⟩

/-- The product of a 106496-row array with the weight, entry by entry. -/
def prodP (a : (⟨S106496x128, .f32⟩ : BufTy).Contents (Elt Ideal)) (w : (⟨S128x128, .f32⟩ : BufTy).Contents (Elt Ideal)) :
    (⟨S106496x128, .f32⟩ : BufTy).Contents (Elt Ideal) :=
  fun i => ∑ k : Fin 128, a (lrowP i k) * w (rcolP i k)

/-- The printed index maps over the grid: the left and the output tile of point `t` are row block `t`, the weight is whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is tile `t` of the product of the two arrays the region finds. -/
theorem flushed0_eq (c : Dev nD) (t : Fin cfg0.N) :
    (dat0 (F := Ideal) V c).flushed 2 t = ((cfg0.win 2).blk t).view.read (Elt Ideal) (prodP (V c main_v34) (V c main_arg4)) := by
  show (cfg0.win 2).cut (grid0.coords t) ((dat0 (F := Ideal) V c).after 2 t) = _
  rw [after0_2]
  unfold out0_2
  rw [View.canon_unit_zero zero_off2]
  simp only [View.ld_unit_zero (S := S8192x128) zero_off2, View.ld_unit_zero (S := S128x128) zero_off2]
  obtain ⟨e0, e1, e2, e3, e4, e5⟩ := idx_facts0 t
  funext j
  show k0_pay1 (F := Ideal) (iblk0 V c 0 t) (iblk0 V c 1 t) j = prodP (V c main_v34) (V c main_arg4) (((cfg0.win 2).blk t).view.emb j)
  refine (pay0_apply (iblk0 V c 0 t) (iblk0 V c 1 t) j).trans ?_
  refine Finset.sum_congr rfl fun k _ => ?_
  have h0 : (iblk0 V c 0 t : Vec Ideal S8192x128 .f32) (lrowT j k) = V c main_v34 (lrowP (((cfg0.win 2).blk t).view.emb j) k) := by
    show V c main_v34 (((cfg0.win 0).blk t).view.emb (lrowT j k)) = _
    refine congrArg (V c main_v34) (funext fun a => Fin.ext ?_)
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * k.val = k.val; omega
  have h1 : (iblk0 V c 1 t : Vec Ideal S128x128 .f32) (rcolT j k) = V c main_arg4 (rcolP (((cfg0.win 2).blk t).view.emb j) k) := by
    show V c main_arg4 (((cfg0.win 1).blk t).view.emb (rcolT j k)) = _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) h0 h1

/-- An entry of the array is in point `t`'s tile iff each coordinate is in the tile's range on its axis. -/
theorem mem_blk0 (t : Fin cfg0.N) (i : S106496x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v35).slice (win0_2.rect t)).set ↔ _
  rw [View.set_slice_whole, Rect.mem_set_unit]
  exact Iff.rfl

/-- Row `r` of the array is in the tile of point `r / 8192`. -/
theorem cover0 (i : S106496x128.Idx) : ∃ t : Fin cfg0.N, (cfg0.win 2).flush t = true ∧ i ∈ ((cfg0.win 2).blk t).view.set := by
  have hi0 : (i 0).val < 106496 := (i 0).isLt
  have hi1 : (i 1).val < 128 := (i 1).isLt
  have hN : cfg0.N = 13 := N_0
  have ht : (i 0).val / 8192 < cfg0.N := by rw [hN]; omega
  obtain ⟨e0, e1, e2, e3, e4, e5⟩ := idx_facts0 ⟨(i 0).val / 8192, ht⟩
  refine ⟨⟨(i 0).val / 8192, ht⟩, flush0_2 _, ?_⟩
  rw [mem_blk0]
  intro a
  match a with
  | ⟨0, _⟩ =>
    show win0_2.index ⟨(i 0).val / 8192, ht⟩ (0 : Fin 2) * 8192 ≤ (i 0).val ∧ (i 0).val < win0_2.index ⟨(i 0).val / 8192, ht⟩ (0 : Fin 2) * 8192 + 8192
    rw [e4]; show (i 0).val / 8192 * 8192 ≤ (i 0).val ∧ (i 0).val < (i 0).val / 8192 * 8192 + 8192; omega
  | ⟨1, _⟩ =>
    show win0_2.index ⟨(i 0).val / 8192, ht⟩ (1 : Fin 2) * 128 ≤ (i 1).val ∧ (i 1).val < win0_2.index ⟨(i 0).val / 8192, ht⟩ (1 : Fin 2) * 128 + 128
    rw [e5]; omega

/-- The array after the region: the product of the two arrays the region finds. -/
theorem final0 (c : Dev nD) : (dat0 (F := Ideal) V c).arrAt 2 cfg0.N = prodP (V c main_v34) (V c main_arg4) :=
  (dat0 (F := Ideal) V c).arrAt_eq_of_cover 2 (prodP (V c main_v34) (V c main_arg4)) (fun t _ => flushed0_eq V c t) cover0

/-! ## What the region finds, and the cut back to the true rows -/

variable (m : (ℓ : Loc nD τ sig) → Buf (Elt Ideal) ℓ)

/-- The weight reaches the region as launched. -/
theorem entry_w (c : Dev nD) : V4 m c main_arg4 = m ((c : Thread nD τ).loc main_arg4) :=
  (V4_of m c main_arg4 (by decide)).trans <| (V3_of m c main_arg4 (by decide)).trans <|
    (V2_of m c main_arg4 (by decide)).trans <| V1_of m c main_arg4 (by decide)

/-- The node features reach the last host stretch before the region as launched. -/
theorem entry_x3 (c : Dev nD) : V3 m c main_arg0 = m ((c : Thread nD τ).loc main_arg0) :=
  (V3_of m c main_arg0 (by decide)).trans <| (V2_of m c main_arg0 (by decide)).trans <| V1_of m c main_arg0 (by decide)

/-- The left array the region finds is the node features padded below with 6496 rows of some value. -/
theorem entry_x (c : Dev nD) : ∃ v : (⟨S_, .f32⟩ : BufTy).Contents (Elt Ideal),
    (V4 m c main_v34 : (⟨S106496x128, .f32⟩ : BufTy).Contents (Elt Ideal))
      = pad S106496x128 ![0, 0] ![6496, 0] ![0, 0] (m ((c : Thread nD τ).loc main_arg0)) v pads_S100000x128_S106496x128_064960_000 h_S_ := by
  rw [← entry_x3 m c]
  show ∃ v : (⟨S_, .f32⟩ : BufTy).Contents (Elt Ideal), StableHlo.after hostOps0_3 (V3 m c) (Proc.devRef .tc main_v34)
      = pad S106496x128 ![0, 0] ![6496, 0] ![0, 0] (V3 m c main_arg0) v pads_S100000x128_S106496x128_064960_000 h_S_
  generalize V3 m c = W
  exact ⟨_, by after_results; rfl⟩

/-- An entry of the first 100000 rows, as an entry of the padded array. -/
abbrev inPad (i : S100000x128.Idx) : S106496x128.Idx := fun a => match a with
  | ⟨0, _⟩ => ⟨(i 0).val, Nat.lt_trans (i 0).isLt (by decide : (100000 : Nat) < 106496)⟩
  | ⟨1, _⟩ => ⟨(i 1).val, (i 1).isLt⟩

/-- The product of the padded features with the weight, cut back to the first 100000 rows, is the product of the
    features with the weight: a row below 100000 of the padded array is the features' row. -/
theorem slice_prod_pad (x : (⟨S100000x128, .f32⟩ : BufTy).Contents (Elt Ideal)) (w : (⟨S128x128, .f32⟩ : BufTy).Contents (Elt Ideal))
    (v : (⟨S_, .f32⟩ : BufTy).Contents (Elt Ideal)) :
    (extractStridedSlice S100000x128 ![0, 0]
        (prodP (pad S106496x128 ![0, 0] ![6496, 0] ![0, 0] x v pads_S100000x128_S106496x128_064960_000 h_S_) w)
        slices_S106496x128_S100000x128_0_0 : (⟨S100000x128, .f32⟩ : BufTy).Contents (Elt Ideal))
      = Cert.ReferenceIdeal.Read.val_main_v34 (F := Ideal) x w := by
  funext i
  rw [Cert.ReferenceIdeal.Read.val_main_v34_apply]
  have hi0 : (i 0).val < 100000 := (i 0).isLt
  have hi1 : (i 1).val < 128 := (i 1).isLt
  refine (extractStridedSlice_apply ![0, 0] _ slices_S106496x128_S100000x128_0_0 i (inPad i) (fun a => ?_)).trans ?_
  · match a with
    | ⟨0, _⟩ => show (i 0).val = 0 + (i 0).val; omega
    | ⟨1, _⟩ => show (i 1).val = 0 + (i 1).val; omega
  unfold prodP
  refine Finset.sum_congr rfl fun k _ => ?_
  refine congrArg₂ (· * ·) ?_ (congrArg w (funext fun a => Fin.ext ?_))
  · refine pad_apply_of_inside ![0, 0] ![6496, 0] ![0, 0] x v pads_S100000x128_S106496x128_064960_000 h_S_ _
      (Cert.ReferenceIdeal.Read.lidx_main_v34 i k) (fun a => ?_)
    match a with
    | ⟨0, _⟩ => show (i 0).val = 0 + (i 0).val * (0 + 1); omega
    | ⟨1, _⟩ => show k.val = 0 + k.val * (0 + 1); omega
  · match a with
    | ⟨0, _⟩ => rfl
    | ⟨1, _⟩ => rfl

end Stage0

open Stage0 in
/-- Region 0's output array, cut back to its first 100000 rows, is the reference's product of the node features
    with the first weight. -/
theorem stage0 (m : (ℓ : Loc nD τ sig) → Buf (Elt Ideal) ℓ) (outs : Outs (F := Ideal)) (c : Dev nD)
    (h0 : outs 5 main_v35 c = (dat0 (F := Ideal) (E4 m) c).arrAt 2 cfg0.N) :
    (extractStridedSlice S100000x128 ![0, 0] (outs 5 main_v35 c) slices_S106496x128_S100000x128_0_0 : (⟨S100000x128, .f32⟩ : BufTy).Contents (Elt Ideal))
      = Cert.ReferenceIdeal.Read.val_main_v34 (F := Ideal) (m ((c.tc : Thread nD τ).loc main_arg0)) (m ((c.tc : Thread nD τ).loc main_arg4)) := by
  rw [h0, final0 (E4 m) c]
  obtain ⟨v, hv⟩ := entry_x m c
  show (extractStridedSlice S100000x128 ![0, 0] (prodP (V4 m c main_v34) (V4 m c main_arg4)) slices_S106496x128_S100000x128_0_0 : (⟨S100000x128, .f32⟩ : BufTy).Contents (Elt Ideal)) = _
  rw [hv, entry_w m c]
  exact slice_prod_pad _ _ v

end Cert.KernelIdeal.Hand
end
-- ==== Proof.KI.V1.lean ====
/-
  Region 1's value: the second layer's dense product.  On each 4096-row tile of the padded first-layer
  features the region computes max (γ (h − μ) · rsqrt (σ² + ε) + β) 0, row by row, times the 128 × 128 weight; its
  25 tiles fill the 102400 × 128 output array, and the first 100000 rows of that array are the reference's dense
  product of the normalised, rectified first-layer features with the same weight.

  The steps: the body's value at an index, a sum over the 128 hidden features; each loaded block as rows of the
  array it is cut from; what a grid point writes back, as a block of ONE function of the seven arrays the region
  finds; the cover of the output array by the 25 row blocks (row r by point r / 4096); the seven arrays through the
  host's pad and reshapes (the 2400 padded rows never reach the first 100000 rows of the result, so the pad value
  plays no part); the reference read at the same index, where both sides are the same sum of the same terms: no
  algebraic law is needed, and nothing is assumed finite.
-/
import proofs.«403968_j10488310137582_1_alg».proof.Proof.KI.Vals
import proofs.«403968_j10488310137582_1_alg».proof.Proof.KI.R1
import proofs.«403968_j10488310137582_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen
open Idealize.ShloMosaic.ValueIdx
open Idealize.ShloMosaic.Pipeline (Dat)
open scoped BigOperators

/-- One entry of the normalised, rectified features: `max (γ (h − μ) · rsqrt (σ² + ε) + β) 0`, with the two
    literal words kept as words. -/
def bnRelu (h g b mu var : EReal) : EReal :=
  max (g * (h - mu) * Ideal.rsqrt (var + Ideal.ofBits .f32 0x3727C5AC#32) + b) (Ideal.ofBits .f32 0x00000000#32)

/-- Row `P`, column `q` of the second layer's dense product over `R` rows of features: the normalised, rectified
    row `P` of `H` against column `q` of the weight. -/
def G1 {R : Nat} (H : (⟨2, ![R, 128]⟩ : Shape).Idx → EReal) (g b mu var : S1x128.Idx → EReal) (W : S128x128.Idx → EReal)
    (P : Fin R) (q : Fin 128) : EReal :=
  ∑ k : Fin 128, bnRelu (H (ix2 P k)) (g (ix2 (0 : Fin 1) k)) (b (ix2 (0 : Fin 1) k)) (mu (ix2 (0 : Fin 1) k)) (var (ix2 (0 : Fin 1) k)) * W (ix2 k q)

theorem lhs_tile_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_tile_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_tile_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_tile_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's value at row `p`, column `q` of a tile: the tile's own row `p`, normalised with the four statistics
    rows and rectified, against column `q` of the weight. -/
theorem pay1_apply (x0 : Vec Ideal S4096x128 .f32) (x1 x2 x3 x4 : Vec Ideal S1x128 .f32) (x5 : Vec Ideal S128x128 .f32)
    (p : Fin 4096) (q : Fin 128) :
    k1_pay1 (F := Ideal) x0 x1 x2 x3 x4 x5 (ix2 p q) = G1 x0 x1 x2 x3 x4 x5 p q := by
  unfold k1_pay1 G1
  simp only [shapeCast_self, matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]
  simp only [truncf_apply, maximumf_apply, addf_apply, mulf_apply, subf_apply, broadcast_apply, broadcastTo_1b_ab_apply]
  rfl

variable (V : (c : Dev nD) → (b : Ref sig .tc) → Buf (Elt Ideal) ((c : Thread nD τ).loc b))

theorem hz1 : (![0, 0] : Fin 2 → Nat) = fun _ => 0 := funext fun a => by fin_cases a <;> rfl

/-- The windows' index maps over the grid: the feature window and the output window are at row block `t`; the
    statistics rows and the weight are read whole at every point. -/
theorem idx_facts1 : ∀ t : Fin cfg1.N, win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The feature window's block at point `t` is rows `4096 t … 4096 t + 4095` of the padded features. -/
theorem iblk1_0_apply (c : Dev nD) (t : Fin cfg1.N) (y : S4096x128.Idx) (z : S102400x128.Idx)
    (hz0 : (z 0).val = t.val * 4096 + (y 0).val) (hz1 : (z 1).val = (y 1).val) :
    (iblk1 V c 0 t : Vec Ideal S4096x128 .f32) y = (V c main_v53 : S102400x128.Idx → EReal) z := by
  obtain ⟨e0, e1, -⟩ := idx_facts1 t
  unfold iblk1
  rw [View.read_apply]
  show V c main_v53 _ = V c main_v53 _
  congr 1
  funext a
  apply Fin.ext
  match a with
  | ⟨0, _⟩ => show win1_0.index t 0 * 4096 + 1 * (y 0).val = (z 0).val; rw [e0, hz0]; omega
  | ⟨1, _⟩ => show win1_0.index t 1 * 128 + 1 * (y 1).val = (z 1).val; rw [e1, hz1]; omega

/-- Each statistics window's block is its whole row, the weight window's the whole weight, at every point. -/
theorem iblk1_1_apply (c : Dev nD) (t : Fin cfg1.N) (y : S1x128.Idx) :
    (iblk1 V c 1 t : Vec Ideal S1x128 .f32) y = (V c main_v54 : S1x128.Idx → EReal) y := by
  obtain ⟨-, -, -, -, e0, e1, -⟩ := idx_facts1 t
  unfold iblk1
  rw [View.read_apply]
  show V c main_v54 _ = V c main_v54 _
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega
theorem iblk1_2_apply (c : Dev nD) (t : Fin cfg1.N) (y : S1x128.Idx) :
    (iblk1 V c 2 t : Vec Ideal S1x128 .f32) y = (V c main_v55 : S1x128.Idx → EReal) y := by
  obtain ⟨-, -, -, -, -, -, e0, e1, -⟩ := idx_facts1 t
  unfold iblk1
  rw [View.read_apply]
  show V c main_v55 _ = V c main_v55 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega
theorem iblk1_3_apply (c : Dev nD) (t : Fin cfg1.N) (y : S1x128.Idx) :
    (iblk1 V c 3 t : Vec Ideal S1x128 .f32) y = (V c main_v56 : S1x128.Idx → EReal) y := by
  obtain ⟨-, -, -, -, -, -, -, -, e0, e1, -⟩ := idx_facts1 t
  unfold iblk1
  rw [View.read_apply]
  show V c main_v56 _ = V c main_v56 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega
theorem iblk1_4_apply (c : Dev nD) (t : Fin cfg1.N) (y : S1x128.Idx) :
    (iblk1 V c 4 t : Vec Ideal S1x128 .f32) y = (V c main_v57 : S1x128.Idx → EReal) y := by
  obtain ⟨-, -, -, -, -, -, -, -, -, -, e0, e1, -⟩ := idx_facts1 t
  unfold iblk1
  rw [View.read_apply]
  show V c main_v57 _ = V c main_v57 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega
theorem iblk1_5_apply (c : Dev nD) (t : Fin cfg1.N) (y : S128x128.Idx) :
    (iblk1 V c 5 t : Vec Ideal S128x128 .f32) y = (V c main_arg10 : S128x128.Idx → EReal) y := by
  obtain ⟨-, -, -, -, -, -, -, -, -, -, -, -, e0, e1⟩ := idx_facts1 t
  unfold iblk1
  rw [View.read_apply]
  show V c main_arg10 _ = V c main_arg10 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-- The body's value inside a tile, once the tile is known to be rows `4096 T …` of `H` and the other five loaded
    blocks to be the statistics rows and the weight: entry `j` of the tile is entry `i` of the dense product over `H`. -/
theorem tile_eq (x0 : Vec Ideal S4096x128 .f32) (x1 x2 x3 x4 : Vec Ideal S1x128 .f32) (x5 : Vec Ideal S128x128 .f32)
    (H : S102400x128.Idx → EReal) (g b mu var : S1x128.Idx → EReal) (W : S128x128.Idx → EReal)
    (T : Nat) (j : S4096x128.Idx) (i : S102400x128.Idx)
    (hi0 : (i 0).val = T * 4096 + (j 0).val) (hi1 : (i 1).val = (j 1).val)
    (h0 : ∀ (y : S4096x128.Idx) (z : S102400x128.Idx), (z 0).val = T * 4096 + (y 0).val → (z 1).val = (y 1).val → x0 y = H z)
    (h1 : ∀ y, x1 y = g y) (h2 : ∀ y, x2 y = b y) (h3 : ∀ y, x3 y = mu y) (h4 : ∀ y, x4 y = var y) (h5 : ∀ y, x5 y = W y) :
    k1_pay1 (F := Ideal) x0 x1 x2 x3 x4 x5 j = G1 H g b mu var W (i 0) (i 1) := by
  obtain rfl : x1 = g := funext h1
  obtain rfl : x2 = b := funext h2
  obtain rfl : x3 = mu := funext h3
  obtain rfl : x4 = var := funext h4
  obtain rfl : x5 = W := funext h5
  obtain ⟨p, q, rfl⟩ : ∃ (p : Fin 4096) (q : Fin 128), j = ix2 p q := ⟨j 0, j 1, eq_ix2 j⟩
  rw [pay1_apply]
  unfold G1
  have hq : (i 1 : Fin 128) = q := Fin.ext hi1
  rw [hq]
  refine Finset.sum_congr rfl fun k _ => ?_
  rw [h0 (ix2 p k) (ix2 (i 0) k) hi0 rfl]

/-- The second layer's dense product over the padded features as the region finds its seven arrays. -/
abbrev arr1 (c : Dev nD) : S102400x128.Idx → EReal := fun i =>
  G1 (V c main_v53 : S102400x128.Idx → EReal) (V c main_v54 : S1x128.Idx → EReal) (V c main_v55 : S1x128.Idx → EReal)
    (V c main_v56 : S1x128.Idx → EReal) (V c main_v57 : S1x128.Idx → EReal) (V c main_arg10 : S128x128.Idx → EReal) (i 0) (i 1)

/-- What point `t` writes back is block `t` of that one array. -/
theorem flushed1_eq (c : Dev nD) (t : Fin cfg1.N) :
    (dat1 (F := Ideal) V c).flushed 6 t = ((cfg1.win 6).blk t).view.read (Elt Ideal) (arr1 V c) := by
  show (cfg1.win 6).cut (grid1.coords t) ((dat1 V c).after 6 t) = _
  rw [after1_6]
  unfold out1_6
  rw [View.canon_unit_zero hz1]
  simp only [View.ld_unit_zero (S := S4096x128) hz1, View.ld_unit_zero (S := S1x128) hz1, View.ld_unit_zero (S := S128x128) hz1]
  obtain ⟨-, -, e0, e1, -⟩ := idx_facts1 t
  funext j
  show k1_pay1 (F := Ideal) (iblk1 V c 0 t) (iblk1 V c 1 t) (iblk1 V c 2 t) (iblk1 V c 3 t) (iblk1 V c 4 t) (iblk1 V c 5 t) j
    = arr1 V c (((cfg1.win 6).blk t).view.emb j)
  refine tile_eq (iblk1 V c 0 t) (iblk1 V c 1 t) (iblk1 V c 2 t) (iblk1 V c 3 t) (iblk1 V c 4 t) (iblk1 V c 5 t)
    (V c main_v53) (V c main_v54) (V c main_v55) (V c main_v56) (V c main_v57) (V c main_arg10) t.val j (((cfg1.win 6).blk t).view.emb j) ?_ ?_
    (fun y z h0 h1 => iblk1_0_apply V c t y z h0 h1) (iblk1_1_apply V c t) (iblk1_2_apply V c t) (iblk1_3_apply V c t) (iblk1_4_apply V c t) (iblk1_5_apply V c t)
  · show win1_6.index t 0 * 4096 + 1 * (j 0).val = t.val * 4096 + (j 0).val
    rw [e0]; omega
  · show win1_6.index t 1 * 128 + 1 * (j 1).val = (j 1).val
    rw [e1]; omega

/-- An index of the output array is in point `t`'s block iff each coordinate is in the block's range on its axis. -/
theorem mem_blk1 (t : Fin cfg1.N) (i : S102400x128.Idx) :
    i ∈ ((cfg1.win 6).blk t).view.set ↔ ∀ a : Fin 2, win1_6.index t a * S4096x128.size a ≤ (i a).val ∧ (i a).val < win1_6.index t a * S4096x128.size a + S4096x128.size a := by
  show i ∈ ((View.whole main_v58).slice (win1_6.rect t)).set ↔ _
  rw [View.set_slice_whole, Rect.mem_set_unit]
  exact Iff.rfl

/-- The output array after the region: row `r` is written by point `r / 4096`, and the 25 row blocks fill it. -/
theorem arr1_final (c : Dev nD) : (dat1 (F := Ideal) V c).arrAt 6 cfg1.N = arr1 V c :=
  (dat1 (F := Ideal) V c).arrAt_eq_of_cover 6 (arr1 V c) (fun t _ => flushed1_eq V c t) fun i => by
    have hi0 : (i 0).val < 102400 := (i 0).isLt
    have hi1 : (i 1).val < 128 := (i 1).isLt
    have hN : cfg1.N = 25 := N_1
    have hlt : (i 0).val / 4096 < cfg1.N := by rw [hN]; omega
    obtain ⟨-, -, e0, e1, -⟩ := idx_facts1 ⟨(i 0).val / 4096, hlt⟩
    refine ⟨⟨(i 0).val / 4096, hlt⟩, flush1_6 _, ?_⟩
    rw [mem_blk1]
    intro a
    match a with
    | ⟨0, _⟩ =>
      show win1_6.index ⟨(i 0).val / 4096, hlt⟩ 0 * 4096 ≤ (i 0).val ∧ (i 0).val < win1_6.index ⟨(i 0).val / 4096, hlt⟩ 0 * 4096 + 4096
      rw [e0]; show (i 0).val / 4096 * 4096 ≤ (i 0).val ∧ (i 0).val < (i 0).val / 4096 * 4096 + 4096; omega
    | ⟨1, _⟩ =>
      show win1_6.index ⟨(i 0).val / 4096, hlt⟩ 1 * 128 ≤ (i 1).val ∧ (i 1).val < win1_6.index ⟨(i 0).val / 4096, hlt⟩ 1 * 128 + 128
      rw [e1]; omega

/-- The host's pad, over any contents `W` before it: rows below 100000 of the padded features are the features'
    own rows (2400 rows of the pad value are added below them, none above, none between). -/
theorem pad_stretch_apply (W : Valuation τ sig (Elt Ideal)) (P : Fin 100000) (k : Fin 128) (P' : Fin 102400) (hP : P'.val = P.val) :
    (StableHlo.after hostOps1_1 W (Proc.devRef .tc main_v53) : S102400x128.Idx → EReal) (ix2 P' k) = (W main_v52 : S100000x128.Idx → EReal) (ix2 P k) := by
  after_results
  simp only [StableHlo.TRef.ofBuf, StableHlo.TRef.toBuf, cast_eq]
  refine pad_apply_of_inside _ _ _ _ _ _ _ (ix2 P' k) (ix2 P k) fun a => ?_
  match a with
  | ⟨0, _⟩ => show P'.val = 0 + P.val * (0 + 1); omega
  | ⟨1, _⟩ => show k.val = 0 + k.val * (0 + 1); omega

/-- The four reshapes of the statistics vectors to one-row matrices, over any contents `W` before them. -/
theorem reshape_stretch_v54 (W : Valuation τ sig (Elt Ideal)) (k : Fin 128) :
    (StableHlo.after hostOps1_2 W (Proc.devRef .tc main_v54) : S1x128.Idx → EReal) (ix2 (0 : Fin 1) k) = (W main_arg6 : S128.Idx → EReal) (ix1 k) := by
  after_results
  exact shapeCast_a_1a_apply _ _ _ _
theorem reshape_stretch_v55 (W : Valuation τ sig (Elt Ideal)) (k : Fin 128) :
    (StableHlo.after hostOps1_2 W (Proc.devRef .tc main_v55) : S1x128.Idx → EReal) (ix2 (0 : Fin 1) k) = (W main_arg7 : S128.Idx → EReal) (ix1 k) := by
  after_results
  exact shapeCast_a_1a_apply _ _ _ _
theorem reshape_stretch_v56 (W : Valuation τ sig (Elt Ideal)) (k : Fin 128) :
    (StableHlo.after hostOps1_2 W (Proc.devRef .tc main_v56) : S1x128.Idx → EReal) (ix2 (0 : Fin 1) k) = (W main_arg8 : S128.Idx → EReal) (ix1 k) := by
  after_results
  exact shapeCast_a_1a_apply _ _ _ _
theorem reshape_stretch_v57 (W : Valuation τ sig (Elt Ideal)) (k : Fin 128) :
    (StableHlo.after hostOps1_2 W (Proc.devRef .tc main_v57) : S1x128.Idx → EReal) (ix2 (0 : Fin 1) k) = (W main_arg9 : S128.Idx → EReal) (ix1 k) := by
  after_results
  exact shapeCast_a_1a_apply _ _ _ _

variable (m : (ℓ : Loc nD τ sig) → Buf (Elt Ideal) ℓ) (outs : Outs (F := Ideal))

/-- No item before region 1 writes an argument: each is still as launched when the region is entered. -/
theorem V7_arg6 (c : Dev nD) : V7 m outs c main_arg6 = m ((c : Thread nD τ).loc main_arg6) :=
  (V7_of m outs c main_arg6 (by decide)).trans <| (V6_of m outs c main_arg6 (by decide)).trans <| (V5_of m outs c main_arg6 (by decide)).trans <| (V4_of m c main_arg6 (by decide)).trans <| (V3_of m c main_arg6 (by decide)).trans <| (V2_of m c main_arg6 (by decide)).trans <| (V1_of m c main_arg6 (by decide)).trans rfl
theorem V7_arg7 (c : Dev nD) : V7 m outs c main_arg7 = m ((c : Thread nD τ).loc main_arg7) :=
  (V7_of m outs c main_arg7 (by decide)).trans <| (V6_of m outs c main_arg7 (by decide)).trans <| (V5_of m outs c main_arg7 (by decide)).trans <| (V4_of m c main_arg7 (by decide)).trans <| (V3_of m c main_arg7 (by decide)).trans <| (V2_of m c main_arg7 (by decide)).trans <| (V1_of m c main_arg7 (by decide)).trans rfl
theorem V7_arg8 (c : Dev nD) : V7 m outs c main_arg8 = m ((c : Thread nD τ).loc main_arg8) :=
  (V7_of m outs c main_arg8 (by decide)).trans <| (V6_of m outs c main_arg8 (by decide)).trans <| (V5_of m outs c main_arg8 (by decide)).trans <| (V4_of m c main_arg8 (by decide)).trans <| (V3_of m c main_arg8 (by decide)).trans <| (V2_of m c main_arg8 (by decide)).trans <| (V1_of m c main_arg8 (by decide)).trans rfl
theorem V7_arg9 (c : Dev nD) : V7 m outs c main_arg9 = m ((c : Thread nD τ).loc main_arg9) :=
  (V7_of m outs c main_arg9 (by decide)).trans <| (V6_of m outs c main_arg9 (by decide)).trans <| (V5_of m outs c main_arg9 (by decide)).trans <| (V4_of m c main_arg9 (by decide)).trans <| (V3_of m c main_arg9 (by decide)).trans <| (V2_of m c main_arg9 (by decide)).trans <| (V1_of m c main_arg9 (by decide)).trans rfl
theorem E8_arg10 (c : Dev nD) : E8 m outs c main_arg10 = m ((c : Thread nD τ).loc main_arg10) :=
  (V8_of m outs c main_arg10 (by decide)).trans <| (V7_of m outs c main_arg10 (by decide)).trans <| (V6_of m outs c main_arg10 (by decide)).trans <| (V5_of m outs c main_arg10 (by decide)).trans <| (V4_of m c main_arg10 (by decide)).trans <| (V3_of m c main_arg10 (by decide)).trans <| (V2_of m c main_arg10 (by decide)).trans <| (V1_of m c main_arg10 (by decide)).trans rfl

/-- The seven arrays as region 1 finds them, read at an index. -/
theorem E8_v53_apply (c : Dev nD) (P : Fin 100000) (k : Fin 128) (P' : Fin 102400) (hP : P'.val = P.val) :
    (E8 m outs c main_v53 : S102400x128.Idx → EReal) (ix2 P' k) = (V6 m outs c main_v52 : S100000x128.Idx → EReal) (ix2 P k) :=
  (congrFun (V8_of m outs c main_v53 (by decide)) (ix2 P' k)).trans (pad_stretch_apply (V6 m outs c) P k P' hP)
theorem E8_v54_apply (c : Dev nD) (k : Fin 128) :
    (E8 m outs c main_v54 : S1x128.Idx → EReal) (ix2 (0 : Fin 1) k) = (m ((c : Thread nD τ).loc main_arg6) : S128.Idx → EReal) (ix1 k) :=
  (reshape_stretch_v54 (V7 m outs c) k).trans (congrFun (V7_arg6 m outs c) (ix1 k))
theorem E8_v55_apply (c : Dev nD) (k : Fin 128) :
    (E8 m outs c main_v55 : S1x128.Idx → EReal) (ix2 (0 : Fin 1) k) = (m ((c : Thread nD τ).loc main_arg7) : S128.Idx → EReal) (ix1 k) :=
  (reshape_stretch_v55 (V7 m outs c) k).trans (congrFun (V7_arg7 m outs c) (ix1 k))
theorem E8_v56_apply (c : Dev nD) (k : Fin 128) :
    (E8 m outs c main_v56 : S1x128.Idx → EReal) (ix2 (0 : Fin 1) k) = (m ((c : Thread nD τ).loc main_arg8) : S128.Idx → EReal) (ix1 k) :=
  (reshape_stretch_v56 (V7 m outs c) k).trans (congrFun (V7_arg8 m outs c) (ix1 k))
theorem E8_v57_apply (c : Dev nD) (k : Fin 128) :
    (E8 m outs c main_v57 : S1x128.Idx → EReal) (ix2 (0 : Fin 1) k) = (m ((c : Thread nD τ).loc main_arg9) : S128.Idx → EReal) (ix1 k) :=
  (reshape_stretch_v57 (V7 m outs c) k).trans (congrFun (V7_arg9 m outs c) (ix1 k))

open Cert.ReferenceIdeal.Read in
/-- The reference's normalised, rectified features at row `P`, column `k`: the same function `bnRelu` of the
    first layer's entry there and of entry `k` of the four statistics vectors (each broadcast is read back to its
    source entry; the reciprocal square root and the two literal words are the kernel's). -/
theorem ref_bnRelu_apply (x0 : S100000x128.Idx → EReal) (x1 : (⟨S2x1600000, .i32⟩ : BufTy).Contents (Elt Ideal)) (x2 : (⟨S1600000, .f32⟩ : BufTy).Contents (Elt Ideal))
    (x4 : S128x128.Idx → EReal) (x5 x6 x7 x8 x9 : S128.Idx → EReal) (P : Fin 100000) (k : Fin 128) :
    val_main_v66 (F := Ideal) x0 x1 x2 x4 x5 x6 x7 x8 x9 (ix2 P k)
      = bnRelu (val_main_v50 (F := Ideal) x0 x1 x2 x4 x5 (ix2 P k)) (x6 (ix1 k)) (x7 (ix1 k)) (x8 (ix1 k)) (x9 (ix1 k)) := by
  have e1 : idx_main_v51 (idx_main_v52 (ix2 P k)) = ix1 k := funext fun a => by match a with | ⟨0, _⟩ => rfl
  have e2 : idx_main_v54 (idx_main_v55 (ix2 P k)) = ix1 k := funext fun a => by match a with | ⟨0, _⟩ => rfl
  have e3 : idx_main_v60 (idx_main_v61 (ix2 P k)) = ix1 k := funext fun a => by match a with | ⟨0, _⟩ => rfl
  have e4 : idx_main_v63 (idx_main_v64 (ix2 P k)) = ix1 k := funext fun a => by match a with | ⟨0, _⟩ => rfl
  rw [val_main_v66_apply, val_main_v65_apply, val_main_v62_apply, val_main_v56_apply, val_main_v53_apply,
    val_main_v52_apply, val_main_v51_apply, val_main_v55_apply, val_main_v54_apply, val_main_v61_apply, val_main_v60_apply,
    val_main_v59_apply, val_main_v58_apply, val_main_v57_apply, val_main_cst_9_apply, val_main_v64_apply, val_main_v63_apply,
    val_main_call1_v0_apply, val_main_call1_cst_apply, e1, e2, e3, e4]
  rfl

open Cert.ReferenceIdeal.Read in
/-- The bridge over abstract arrays: when the padded features agree with the reference's first layer on the rows
    below 100000, the one-row statistics matrices with the statistics vectors and the weight with the weight, the
    dense product over the padded features cut back to 100000 rows is the reference's dense product: entry by
    entry the two sums over the 128 hidden features have the same terms. -/
theorem bridge1 (H : S102400x128.Idx → EReal) (g b mu var : S1x128.Idx → EReal) (W : S128x128.Idx → EReal)
    (x0 : S100000x128.Idx → EReal) (x1 : (⟨S2x1600000, .i32⟩ : BufTy).Contents (Elt Ideal)) (x2 : (⟨S1600000, .f32⟩ : BufTy).Contents (Elt Ideal))
    (x4 : S128x128.Idx → EReal) (x5 x6 x7 x8 x9 : S128.Idx → EReal) (x10 : S128x128.Idx → EReal)
    (hH : ∀ (P : Fin 100000) (k : Fin 128) (P' : Fin 102400), P'.val = P.val → H (ix2 P' k) = val_main_v50 (F := Ideal) x0 x1 x2 x4 x5 (ix2 P k))
    (hg : ∀ k : Fin 128, g (ix2 (0 : Fin 1) k) = x6 (ix1 k)) (hb : ∀ k : Fin 128, b (ix2 (0 : Fin 1) k) = x7 (ix1 k))
    (hmu : ∀ k : Fin 128, mu (ix2 (0 : Fin 1) k) = x8 (ix1 k)) (hvar : ∀ k : Fin 128, var (ix2 (0 : Fin 1) k) = x9 (ix1 k))
    (hW : W = x10) :
    (extractStridedSlice S100000x128 ![0, 0] (fun i : S102400x128.Idx => G1 H g b mu var W (i 0) (i 1)) slices_S102400x128_S100000x128_0_0 : S100000x128.Idx → EReal)
      = val_main_v67 (F := Ideal) x0 x1 x2 x4 x5 x6 x7 x8 x9 x10 := by
  subst hW
  funext i
  obtain ⟨P, q, rfl⟩ : ∃ (P : Fin 100000) (q : Fin 128), i = ix2 P q := ⟨i 0, i 1, eq_ix2 i⟩
  have hP : P.val < 102400 := by have := P.isLt; omega
  rw [slice2_axis0_apply 0 _ _ P q ⟨P.val, hP⟩ (Nat.zero_add _).symm, val_main_v67_apply]
  show G1 H g b mu var W ⟨P.val, hP⟩ q = _
  unfold G1
  refine Finset.sum_congr rfl fun k _ => ?_
  have el : lidx_main_v67 (ix2 P q) k = ix2 P k := funext fun a => by match a with | ⟨0, _⟩ => rfl | ⟨1, _⟩ => rfl
  have er : ridx_main_v67 (ix2 P q) k = ix2 k q := funext fun a => by match a with | ⟨0, _⟩ => rfl | ⟨1, _⟩ => rfl
  rw [el, er, ref_bnRelu_apply, hH P k ⟨P.val, hP⟩ rfl, hg, hb, hmu, hvar]

/-- Region 1's output array, cut back to the 100000 rows of the graph's nodes, is the reference's second-layer
    dense product of the normalised, rectified first-layer features: the array after the region is one function of
    the seven arrays the region finds (its 25 row blocks fill it, row `r` written by point `r / 4096`); those are the
    host's pad of the first-layer features, the four statistics vectors as one-row matrices and the weight as
    launched; the padded rows are cut away. -/
theorem stage1 (m : (ℓ : Loc nD τ sig) → Buf (Elt Ideal) ℓ) (outs : Outs (F := Ideal)) (c : Dev nD)
    (hprev : V6 m outs c main_v52 = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
    (h1 : outs 9 main_v58 c = (dat1 (F := Ideal) (E8 m outs) c).arrAt 6 cfg1.N) :
    (extractStridedSlice S100000x128 ![0, 0] (outs 9 main_v58 c) slices_S102400x128_S100000x128_0_0 : (⟨S100000x128, .f32⟩ : BufTy).Contents (Elt Ideal))
      = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [h1, arr1_final]
  exact bridge1 (E8 m outs c main_v53) (E8 m outs c main_v54) (E8 m outs c main_v55) (E8 m outs c main_v56) (E8 m outs c main_v57) (E8 m outs c main_arg10)
    _ _ _ _ _ _ _ _ _ _
    (fun P k P' hP => (E8_v53_apply m outs c P k P' hP).trans (congrFun hprev (ix2 P k)))
    (E8_v54_apply m outs c) (E8_v55_apply m outs c) (E8_v56_apply m outs c) (E8_v57_apply m outs c) (E8_arg10 m outs c)

end Cert.KernelIdeal.Hand

end
-- ==== Proof.KI.V2a.lean ====
/-
  Region 2's output array is what the last grid point leaves in the output window: the accumulator after the
  last tile, times the weight, plus the bias.  The input windows' blocks as row tiles of the arrays the region finds.
-/
import proofs.«403968_j10488310137582_1_alg».proof.Proof.KI.R2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace Stage2a

variable (V : (c : Dev nD) → (b : Ref sig .tc) → Buf (Elt Ideal) ((c : Thread nD τ).loc b))

/-- The grid has 13 points. -/
theorem N2 : cfg2.N = 13 := N_2
/-- The last grid point. -/
theorem last_lt : 12 < cfg2.N := by rw [N2]; decide
/-- Row `p` of tile `t` is a row of the 106496-row array. -/
theorem row_lt (t : Fin cfg2.N) (p : Fin 8192) : t.val * 8192 + p.val < 106496 := by
  have h : t.val < 13 := lt_of_lt_of_eq t.isLt N2
  have hp : p.val < 8192 := p.isLt
  omega

/-- The printed index maps over the grid: the feature and graph-id tiles of point `t` are row block `t`; the weight,
    the bias and the output are whole. -/
theorem idx_facts2 : ∀ t : Fin cfg2.N, win2_0.index t (0 : Fin 2) = t.val ∧ win2_0.index t (1 : Fin 2) = 0
    ∧ win2_1.index t (0 : Fin 1) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-! ## The input blocks as tiles of their arrays -/

/-- The feature tile of point `t` at row `p`, column `q`: row `8192 t + p` of the array. -/
theorem iblk2_0_apply (c : Dev nD) (t : Fin cfg2.N) (p : Fin 8192) (q : Fin 128) :
    (iblk2 V c 0 t : Vec Ideal S8192x128 .f32) (ix2 p q)
      = (V c main_v76 : (⟨S106496x128, .f32⟩ : BufTy).Contents (Elt Ideal)) (ix2 ⟨t.val * 8192 + p.val, row_lt t p⟩ q) := by
  obtain ⟨e0, e1, -⟩ := idx_facts2 t
  show V c main_v76 (((cfg2.win 0).blk t).view.emb (ix2 p q)) = _
  refine congrArg (V c main_v76) (funext fun a => Fin.ext ?_)
  match a with
  | ⟨0, _⟩ => show win2_0.index t (0 : Fin 2) * 8192 + 1 * p.val = t.val * 8192 + p.val; omega
  | ⟨1, _⟩ => show win2_0.index t (1 : Fin 2) * 128 + 1 * q.val = q.val; omega

/-- The graph-id tile of point `t` at row `p`: entry `8192 t + p` of the array. -/
theorem iblk2_1_apply (c : Dev nD) (t : Fin cfg2.N) (p : Fin 8192) :
    (iblk2 V c 1 t : Vec Ideal S8192 .i32) (ix1 p)
      = (V c main_v77 : (⟨S106496, .i32⟩ : BufTy).Contents (Elt Ideal)) (ix1 ⟨t.val * 8192 + p.val, row_lt t p⟩) := by
  obtain ⟨-, -, e2, -⟩ := idx_facts2 t
  show V c main_v77 (((cfg2.win 1).blk t).view.emb (ix1 p)) = _
  refine congrArg (V c main_v77) (funext fun a => Fin.ext ?_)
  match a with
  | ⟨0, _⟩ => show win2_1.index t (0 : Fin 1) * 8192 + 1 * p.val = t.val * 8192 + p.val; omega

/-- The weight's block is the whole weight, at every point. -/
theorem iblk2_2_eq (c : Dev nD) (t : Fin cfg2.N) :
    (iblk2 V c 2 t : Vec Ideal S128x8 .f32) = (V c main_arg12 : (⟨S128x8, .f32⟩ : BufTy).Contents (Elt Ideal)) := by
  obtain ⟨-, -, -, e3, e4, -⟩ := idx_facts2 t
  funext j
  show V c main_arg12 (((cfg2.win 2).blk t).view.emb j) = _
  refine congrArg (V c main_arg12) (funext fun a => Fin.ext ?_)
  match a with
  | ⟨0, _⟩ => show win2_2.index t (0 : Fin 2) * 128 + 1 * (j 0).val = (j 0).val; omega
  | ⟨1, _⟩ => show win2_2.index t (1 : Fin 2) * 8 + 1 * (j 1).val = (j 1).val; omega

/-- The bias's block is the whole bias, at every point. -/
theorem iblk2_3_eq (c : Dev nD) (t : Fin cfg2.N) :
    (iblk2 V c 3 t : Vec Ideal S1x8 .f32) = (V c main_v78 : (⟨S1x8, .f32⟩ : BufTy).Contents (Elt Ideal)) := by
  obtain ⟨-, -, -, -, -, e5, e6, -⟩ := idx_facts2 t
  funext j
  show V c main_v78 (((cfg2.win 3).blk t).view.emb j) = _
  refine congrArg (V c main_v78) (funext fun a => Fin.ext ?_)
  match a with
  | ⟨0, _⟩ => show win2_3.index t (0 : Fin 2) * 1 + 1 * (j 0).val = (j 0).val; omega
  | ⟨1, _⟩ => show win2_3.index t (1 : Fin 2) * 8 + 1 * (j 1).val = (j 1).val; omega

/-- The feature tile of point `t`, as one function of the array. -/
theorem iblk2_0_eq (c : Dev nD) (t : Fin cfg2.N) :
    (iblk2 V c 0 t : Vec Ideal S8192x128 .f32)
      = fun j => (V c main_v76 : (⟨S106496x128, .f32⟩ : BufTy).Contents (Elt Ideal))
          (ix2 ⟨t.val * 8192 + (j 0).val, row_lt t (j 0)⟩ (j 1)) := by
  funext j
  exact (congrArg (iblk2 V c 0 t : Vec Ideal S8192x128 .f32) (eq_ix2 j)).trans (iblk2_0_apply V c t (j 0) (j 1))

/-- The graph-id tile of point `t`, as one function of the array. -/
theorem iblk2_1_eq (c : Dev nD) (t : Fin cfg2.N) :
    (iblk2 V c 1 t : Vec Ideal S8192 .i32)
      = fun j => (V c main_v77 : (⟨S106496, .i32⟩ : BufTy).Contents (Elt Ideal))
          (ix1 ⟨t.val * 8192 + (j 0).val, row_lt t (j 0)⟩) := by
  funext j
  exact (congrArg (iblk2 V c 1 t : Vec Ideal S8192 .i32) (eq_ix1 j)).trans (iblk2_1_apply V c t (j 0))

/-! ## The output array -/

/-- The output's block is the whole output array, at every point. -/
theorem read_blk4 (t : Fin cfg2.N) (G : (⟨S512x8, .f32⟩ : BufTy).Contents (Elt Ideal)) :
    ((cfg2.win 4).blk t).view.read (Elt Ideal) G = G := by
  obtain ⟨-, -, -, -, -, -, -, e7, e8⟩ := idx_facts2 t
  funext j
  show G (((cfg2.win 4).blk t).view.emb j) = G j
  refine congrArg G (funext fun a => Fin.ext ?_)
  match a with
  | ⟨0, _⟩ => show win2_4.index t (0 : Fin 2) * 512 + 1 * (j 0).val = (j 0).val; omega
  | ⟨1, _⟩ => show win2_4.index t (1 : Fin 2) * 8 + 1 * (j 1).val = (j 1).val; omega

/-- The output array after the region: written back once, at the last point, from the accumulator after the last
    tile, the weight and the bias. -/
theorem final2 (c : Dev nD) :
    (dat2 (F := Ideal) V c).arrAt 4 cfg2.N
      = k2_pay3 (F := Ideal) (accAt V c 12 last_lt) (iblk2 V c 2 ⟨12, last_lt⟩) (iblk2 V c 3 ⟨12, last_lt⟩) := by
  refine (dat2 (F := Ideal) V c).arrAt_eq_of_cover 4 _ (fun t hf => ?_) (fun i => ?_)
  · have h12 : t.val = 12 := by
      have h := (flush2_4 t).mp hf
      have hN : t.val < 13 := lt_of_lt_of_eq t.isLt N2
      omega
    obtain rfl : t = ⟨12, last_lt⟩ := Fin.ext h12
    show (cfg2.win 4).cut (grid2.coords ⟨12, last_lt⟩) ((dat2 (F := Ideal) V c).after 4 ⟨12, last_lt⟩) = _
    rw [after2_4, read_blk4]
    rfl
  · refine ⟨⟨12, last_lt⟩, (flush2_4 _).mpr rfl, ?_⟩
    show i ∈ ((View.whole main_v79).slice (win2_4.rect ⟨12, last_lt⟩)).set
    rw [View.set_slice_whole, Rect.mem_set_unit]
    obtain ⟨-, -, -, -, -, -, -, e7, e8⟩ := idx_facts2 ⟨12, last_lt⟩
    have h0 : (i 0).val < 512 := (i 0).isLt
    have h1 : (i 1).val < 8 := (i 1).isLt
    intro a
    match a with
    | ⟨0, _⟩ =>
      show win2_4.index ⟨12, last_lt⟩ (0 : Fin 2) * 512 ≤ (i 0).val ∧ (i 0).val < win2_4.index ⟨12, last_lt⟩ (0 : Fin 2) * 512 + 512
      omega
    | ⟨1, _⟩ =>
      show win2_4.index ⟨12, last_lt⟩ (1 : Fin 2) * 8 ≤ (i 1).val ∧ (i 1).val < win2_4.index ⟨12, last_lt⟩ (1 : Fin 2) * 8 + 8
      omega

end Stage2a

end Cert.KernelIdeal.Hand
end
-- ==== Proof.KI.V2g.lean ====
/-
  What the third region finds on entry.  Between the second aggregation and the third region the host pads
  the aggregated rows with 6496 rows of the scalar zero, pads the per-node graph ids with 6496 entries of
  the scalar minus one (the word of all ones), and views the length-8 bias as a 1×8 array; the 128×8 weight is
  the argument itself.  Each of the four stretches is read at the one buffer it writes, over the contents it
  starts from taken as an unknown valuation.
-/
import proofs.«403968_j10488310137582_1_alg».proof.Proof.KI.Vals
import Idealize.ShloMosaic.Lib.StableHlo.Run

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (outs : Outs (F := F))

section Entry2
variable (c : Dev nD)

/-- The integer zero the row padding converts, as the second aggregation's stretch leaves it. -/
theorem c14_10 : V10 m outs c main_c_14 = (constantI S_ 32 0#32 : (⟨S_, .i32⟩ : BufTy).Contents (Elt F)) := by
  show StableHlo.after hostOps2 (V9 m outs c) (Proc.devRef .tc main_c_14) = _
  generalize V9 m outs c = W
  after_results_simp

/-- The aggregated rows, padded below with rows of the converted zero. -/
theorem v76_11 : V11 m outs c main_v76
    = pad S106496x128 ![0, 0] ![6496, 0] ![0, 0] (V10 m outs c main_v75)
        (sitofp .f32 (constantI S_ 32 0#32 : (⟨S_, .i32⟩ : BufTy).Contents (Elt F)) : (⟨S_, .f32⟩ : BufTy).Contents (Elt F))
        pads_S100000x128_S106496x128_064960_000 h_S_ := by
  have h14 := c14_10 m outs c
  show StableHlo.after hostOps2_1 (V10 m outs c) (Proc.devRef .tc main_v76) = pad S106496x128 ![0, 0] ![6496, 0] ![0, 0] (V10 m outs c (Proc.devRef .tc main_v75)) _ _ _
  revert h14
  generalize V10 m outs c = W
  intro h14
  after_results
  simp only [StableHlo.TRef.ofBuf, StableHlo.TRef.toBuf, cast_eq]
  rw [h14]

/-- The integer minus one the id padding uses. -/
theorem c15_12 : V12 m outs c main_c_15 = (constantI S_ 32 4294967295#32 : (⟨S_, .i32⟩ : BufTy).Contents (Elt F)) := by
  show StableHlo.after hostOps2_2 (V11 m outs c) (Proc.devRef .tc main_c_15) = _
  generalize V11 m outs c = W
  after_results

theorem arg3_12 : V12 m outs c main_arg3 = (m ((c : Thread nD τ).loc main_arg3)) := (V12_of m outs c main_arg3 (by decide)).trans ((V11_of m outs c main_arg3 (by decide)).trans ((V10_of m outs c main_arg3 (by decide)).trans ((V9_of m outs c main_arg3 (by decide)).trans ((V8_of m outs c main_arg3 (by decide)).trans ((V7_of m outs c main_arg3 (by decide)).trans ((V6_of m outs c main_arg3 (by decide)).trans ((V5_of m outs c main_arg3 (by decide)).trans ((V4_of m c main_arg3 (by decide)).trans ((V3_of m c main_arg3 (by decide)).trans ((V2_of m c main_arg3 (by decide)).trans ((V1_of m c main_arg3 (by decide)).trans (rfl))))))))))))

/-- The per-node graph ids, padded with entries of minus one. -/
theorem v77_13 : V13 m outs c main_v77
    = pad S106496 ![0] ![6496] ![0] (m ((c : Thread nD τ).loc main_arg3))
        (constantI S_ 32 4294967295#32 : (⟨S_, .i32⟩ : BufTy).Contents (Elt F))
        pads_S100000_S106496_064960 h_S_ := by
  have h15 := c15_12 m outs c
  have h3 := arg3_12 m outs c
  show StableHlo.after hostOps2_3 (V12 m outs c) (Proc.devRef .tc main_v77) = _
  revert h15 h3
  generalize V12 m outs c = W
  intro h15 h3
  after_results
  simp only [StableHlo.TRef.ofBuf, StableHlo.TRef.toBuf, cast_eq]
  rw [h15, h3]
  rfl

theorem arg13_13 : V13 m outs c main_arg13 = (m ((c : Thread nD τ).loc main_arg13)) := (V13_of m outs c main_arg13 (by decide)).trans ((V12_of m outs c main_arg13 (by decide)).trans ((V11_of m outs c main_arg13 (by decide)).trans ((V10_of m outs c main_arg13 (by decide)).trans ((V9_of m outs c main_arg13 (by decide)).trans ((V8_of m outs c main_arg13 (by decide)).trans ((V7_of m outs c main_arg13 (by decide)).trans ((V6_of m outs c main_arg13 (by decide)).trans ((V5_of m outs c main_arg13 (by decide)).trans ((V4_of m c main_arg13 (by decide)).trans ((V3_of m c main_arg13 (by decide)).trans ((V2_of m c main_arg13 (by decide)).trans ((V1_of m c main_arg13 (by decide)).trans (rfl)))))))))))))

/-- The bias viewed as a 1×8 array. -/
theorem v78_14 : V14 m outs c main_v78
    = (shapeCast S1x8 (m ((c : Thread nD τ).loc main_arg13) : (⟨S8, .f32⟩ : BufTy).Contents (Elt F)) shapeCasts_S8_S1x8 : (⟨S1x8, .f32⟩ : BufTy).Contents (Elt F)) := by
  have h13 := arg13_13 m outs c
  show StableHlo.after hostOps2_4 (V13 m outs c) (Proc.devRef .tc main_v78) = _
  revert h13
  generalize V13 m outs c = W
  intro h13
  after_results
  rw [h13]
  rfl

end Entry2

/-- The four arrays the third region reads, on entry to it. -/
theorem entry2 (c : Dev nD) :
    V14 m outs c main_v76
        = pad S106496x128 ![0, 0] ![6496, 0] ![0, 0] (V10 m outs c main_v75)
            (sitofp .f32 (constantI S_ 32 0#32 : (⟨S_, .i32⟩ : BufTy).Contents (Elt F)) : (⟨S_, .f32⟩ : BufTy).Contents (Elt F))
            pads_S100000x128_S106496x128_064960_000 h_S_
      ∧ V14 m outs c main_v77
        = pad S106496 ![0] ![6496] ![0] (m ((c : Thread nD τ).loc main_arg3))
            (constantI S_ 32 4294967295#32 : (⟨S_, .i32⟩ : BufTy).Contents (Elt F))
            pads_S100000_S106496_064960 h_S_
      ∧ V14 m outs c main_arg12 = (m ((c : Thread nD τ).loc main_arg12))
      ∧ V14 m outs c main_v78
        = (shapeCast S1x8 (m ((c : Thread nD τ).loc main_arg13) : (⟨S8, .f32⟩ : BufTy).Contents (Elt F)) shapeCasts_S8_S1x8 : (⟨S1x8, .f32⟩ : BufTy).Contents (Elt F)) :=
  ⟨(V14_of m outs c main_v76 (by decide)).trans ((V13_of m outs c main_v76 (by decide)).trans ((V12_of m outs c main_v76 (by decide)).trans (v76_11 m outs c))),
   (V14_of m outs c main_v77 (by decide)).trans (v77_13 m outs c),
   (V14_of m outs c main_arg12 (by decide)).trans ((V13_of m outs c main_arg12 (by decide)).trans ((V12_of m outs c main_arg12 (by decide)).trans ((V11_of m outs c main_arg12 (by decide)).trans ((V10_of m outs c main_arg12 (by decide)).trans ((V9_of m outs c main_arg12 (by decide)).trans ((V8_of m outs c main_arg12 (by decide)).trans ((V7_of m outs c main_arg12 (by decide)).trans ((V6_of m outs c main_arg12 (by decide)).trans ((V5_of m outs c main_arg12 (by decide)).trans ((V4_of m c main_arg12 (by decide)).trans ((V3_of m c main_arg12 (by decide)).trans ((V2_of m c main_arg12 (by decide)).trans ((V1_of m c main_arg12 (by decide)).trans (rfl)))))))))))))),
   v78_14 m outs c⟩

end Cert.KernelIdeal.Hand

end
-- ==== Proof.KI.V2.lean ====
/-
  Region 2's output array is the reference's result.

  The region walks the 13 row tiles of the padded features H (106496 rows, the last 6496 padding) and of the
  padded graph numbers B (padding: the all-ones word).  At each tile it adds to a 512 × 128 accumulator the
  product of the tile's one-hot matrix, transposed, with the tile's features:
      acc[g, d] += Σ_j [B[8192 t + j] = g] · H[8192 t + j, d],
  and at the last tile writes out  acc · W + bias.  So after the last tile
      acc[g, d] = Σ_{n < 106496} [B[n] = g] · H[n, d] = Σ_{n < 100000} [batch[n] = g] · X[n, d]:
  a padded row's graph number is no graph's number, and 0 · x = 0; a true row of H is the row of X.
  The reference adds every row n of X into row batch[n] of a zero 512 × 128 array: the update at (n, d') lands at
  (g, d) exactly when batch[n], read signed, is g and d' = d, which is the same sum.  Both then take the product with
  W over the 128 columns and add the bias's entry.
-/
import proofs.«403968_j10488310137582_1_alg».proof.Proof.KI.Vals
import proofs.«403968_j10488310137582_1_alg».proof.Proof.KI.R2
import proofs.«403968_j10488310137582_1_alg».proof.Proof.KI.V2a
import proofs.«403968_j10488310137582_1_alg».proof.Proof.KI.V2g
import proofs.«403968_j10488310137582_1_alg».proof.Proof.Gen.ReferenceIdeal.Read
import Idealize.ShloMosaic.Lib.Pipeline.Value
import Idealize.ShloMosaic.Lib.KernelVsHost
import Idealize.ShloMosaic.Lib.ValueIdx
import Idealize.ShloMosaic.Lib.ValueLayout
import Idealize.ShloMosaic.PureOps.Ideal.Laws
import Mathlib.Algebra.BigOperators.Group.Finset.Basic
import Mathlib.Algebra.BigOperators.Fin
import Mathlib.Tactic.Ring
import Mathlib.Tactic.NormNum.Basic

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace Stage2

/-- The one-hot entry: 1 where the word is the column's number, else 0. -/
def oh (b : BitVec 32) (g : ℕ) : EReal := if b = BitVec.ofNat 32 g then 1 else 0

theorem onehot_word (b : BitVec 32) (g : ℕ) :
    (FloatOps.sitofp (F := Ideal) .f32 ((IntOp.cmpi .eq b (BitVec.ofNat 32 g)).setWidth 32) : EReal) = oh b g := by
  unfold oh
  show ((((IntOp.cmpi .eq b (BitVec.ofNat 32 g)).setWidth 32).toInt : ℝ) : EReal) = _
  by_cases h : b = BitVec.ofNat 32 g
  · rw [if_pos h, h]
    simp [IntOp.cmpi]
  · rw [if_neg h]
    have : (b == BitVec.ofNat 32 g) = false := by simpa using h
    simp [IntOp.cmpi, this]

/-! ## The tile's contribution at an entry -/

/-- In a tile of the features: row `j`, the column of `i`. -/
abbrev hrow (i : S512x128.Idx) (j : Fin 8192) : S8192x128.Idx := fun a => match a with
  | ⟨0, _⟩ => ⟨j.val, j.isLt⟩
  | ⟨1, _⟩ => ⟨(i 1).val, (i 1).isLt⟩
/-- In a tile of the graph numbers: row `j`. -/
abbrev brow (j : Fin 8192) : S8192.Idx := fun a => match a with
  | ⟨0, _⟩ => ⟨j.val, j.isLt⟩
/-- In the graph numbers' tile as a one-column matrix: row `j`. -/
abbrev bcol (j : Fin 8192) : S8192x1.Idx := fun a => match a with
  | ⟨0, _⟩ => ⟨j.val, j.isLt⟩
  | ⟨1, _⟩ => ⟨0, Nat.one_pos⟩
/-- In the one-hot tile: row `j`, the column numbered by the graph of `i`. -/
abbrev ohix (i : S512x128.Idx) (j : Fin 8192) : S8192x512.Idx := fun a => match a with
  | ⟨0, _⟩ => ⟨j.val, j.isLt⟩
  | ⟨1, _⟩ => ⟨(i 0).val, (i 0).isLt⟩

theorem lhs_pool_0 (i : S512x128.Idx) (q : dot_S8192x512_S8192x128_S512x128_0_0_1_1_n_n.contr.Idx) :
    (dot_S8192x512_S8192x128_S512x128_0_0_1_1_n_n.lhsIdx i q 0).val = (q ⟨0, by decide⟩).val :=
  dot_S8192x512_S8192x128_S512x128_0_0_1_1_n_n.lhsIdx_val_of_single rfl i q
theorem lhs_pool_1 (i : S512x128.Idx) (q : dot_S8192x512_S8192x128_S512x128_0_0_1_1_n_n.contr.Idx) :
    (dot_S8192x512_S8192x128_S512x128_0_0_1_1_n_n.lhsIdx i q 1).val = (i 0).val := by
  unfold DotDims.lhsIdx
  rw [dif_neg (show ¬(1 : Fin S8192x512.rank) ∈ dot_S8192x512_S8192x128_S512x128_0_0_1_1_n_n.lhsBatch by decide), dif_pos (show (1 : Fin S8192x512.rank) ∈ dot_S8192x512_S8192x128_S512x128_0_0_1_1_n_n.lhsNonContracting by decide)]
  rfl
theorem rhs_pool_0 (i : S512x128.Idx) (q : dot_S8192x512_S8192x128_S512x128_0_0_1_1_n_n.contr.Idx) :
    (dot_S8192x512_S8192x128_S512x128_0_0_1_1_n_n.rhsIdx i q 0).val = (q ⟨0, by decide⟩).val :=
  dot_S8192x512_S8192x128_S512x128_0_0_1_1_n_n.rhsIdx_val_of_single rfl i q
theorem rhs_pool_1 (i : S512x128.Idx) (q : dot_S8192x512_S8192x128_S512x128_0_0_1_1_n_n.contr.Idx) :
    (dot_S8192x512_S8192x128_S512x128_0_0_1_1_n_n.rhsIdx i q 1).val = (i 1).val := by
  unfold DotDims.rhsIdx
  rw [dif_neg (show ¬(1 : Fin S8192x128.rank) ∈ dot_S8192x512_S8192x128_S512x128_0_0_1_1_n_n.rhsBatch by decide), dif_pos (show (1 : Fin S8192x128.rank) ∈ dot_S8192x512_S8192x128_S512x128_0_0_1_1_n_n.rhsNonContracting by decide)]
  rfl

/-- The body's accumulation at an entry (graph g, column d): what the scratch held there plus, over the tile's
    rows, the row's feature in column d where the row's graph number is g. -/
theorem pay2_apply (x : Vec Ideal S8192x128 .f32) (b : Vec Ideal S8192 .i32) (acc : Vec Ideal S512x128 .f32) (i : S512x128.Idx) :
    k2_pay2 (F := Ideal) x b acc i = acc i + ∑ j : Fin 8192, oh (b (brow j)) (i 0).val * x (hrow i j) := by
  unfold k2_pay2
  simp only [shapeCast_self]
  show acc i + _ = _
  simp only [matmul]
  rw [Ideal.matmul_constant_zero_apply]
  rw [← Equiv.sum_comp (ValueIdx.contrEquiv1 dot_S8192x512_S8192x128_S512x128_0_0_1_1_n_n 8192 rfl rfl).symm]
  refine congrArg (acc i + ·) (Finset.sum_congr rfl fun j _ => ?_)
  have hk := ValueIdx.contrEquiv1_symm_val dot_S8192x512_S8192x128_S512x128_0_0_1_1_n_n 8192 rfl rfl j
  have el : dot_S8192x512_S8192x128_S512x128_0_0_1_1_n_n.lhsIdx i ((ValueIdx.contrEquiv1 dot_S8192x512_S8192x128_S512x128_0_0_1_1_n_n 8192 rfl rfl).symm j) = ohix i j := funext fun a => Fin.ext (by
    match a with
    | ⟨0, _⟩ => exact (lhs_pool_0 _ _).trans hk
    | ⟨1, _⟩ => exact lhs_pool_1 _ _)
  have er : dot_S8192x512_S8192x128_S512x128_0_0_1_1_n_n.rhsIdx i ((ValueIdx.contrEquiv1 dot_S8192x512_S8192x128_S512x128_0_0_1_1_n_n 8192 rfl rfl).symm j) = hrow i j := funext fun a => Fin.ext (by
    match a with
    | ⟨0, _⟩ => exact (rhs_pool_0 _ _).trans hk
    | ⟨1, _⟩ => exact rhs_pool_1 _ _)
  rw [el, er]
  refine congrArg₂ (· * ·) ?_ rfl
  show FloatOps.sitofp (F := Ideal) .f32 ((IntOp.cmpi .eq (broadcastTo S8192x512 (shapeCast S8192x1 b shapeCasts_S8192_S8192x1) broadcasts_S8192x1_S8192x512 (ohix i j)) (iota Kind.tc S8192x512 32 [1] iota_S8192x512_d1_w32 (ohix i j))).setWidth 32) = _
  rw [iota_single_apply]
  rw [broadcastTo_apply _ broadcasts_S8192x1_S8192x512 (ohix i j) (bcol j) (fun a => by
    match a with
    | ⟨0, _⟩ => show j.val = if (8192 : Nat) = 1 then 0 else j.val; rw [if_neg (by decide)]
    | ⟨1, _⟩ => show 0 = if (1 : Nat) = 1 then 0 else _; rw [if_pos rfl])]
  rw [shapeCast_apply b shapeCasts_S8192_S8192x1 (bcol j) (brow j) (by
    rw [Shape.rowMajor_val_two, Shape.rowMajor_val_one]
    show j.val = j.val * 1 + 0
    omega)]
  exact onehot_word _ _

/-! ## The reference's scatter-add: which updates land at an entry -/

/-- The graph number's place for the update at `j`: row of `j` of the one-column index array. -/
abbrev bidx (j : S100000x128.Idx) : Cert.ReferenceIdeal.S100000x1.Idx := fun a => match a with
  | ⟨0, _⟩ => ⟨(j 0).val, (j 0).isLt⟩
  | ⟨1, _⟩ => ⟨0, Nat.one_pos⟩

theorem scatter_start0 (j : S100000x128.Idx) (idx : IVec Cert.ReferenceIdeal.S100000x1 32) :
    Cert.ReferenceIdeal.scatter_S512x128_S100000x1_S100000x128_1_0_0_1.start j idx 0 = (idx (bidx j)).toInt := by
  unfold ScatterDims.start
  rw [dif_pos (show (0 : Fin S512x128.rank) ∈ Cert.ReferenceIdeal.scatter_S512x128_S100000x1_S100000x128_1_0_0_1.scatterDimsToOperandDims by decide)]
  refine congrArg (fun k => (idx k).toInt) (funext fun b => Fin.ext ?_)
  match b with
  | ⟨0, _⟩ => rfl
  | ⟨1, _⟩ => rfl
theorem scatter_start1 (j : S100000x128.Idx) (idx : IVec Cert.ReferenceIdeal.S100000x1 32) :
    Cert.ReferenceIdeal.scatter_S512x128_S100000x1_S100000x128_1_0_0_1.start j idx 1 = 0 := by
  unfold ScatterDims.start
  rw [dif_neg (show ¬(1 : Fin S512x128.rank) ∈ Cert.ReferenceIdeal.scatter_S512x128_S100000x1_S100000x128_1_0_0_1.scatterDimsToOperandDims by decide)]
theorem scatter_window0 (j : S100000x128.Idx) :
    Cert.ReferenceIdeal.scatter_S512x128_S100000x1_S100000x128_1_0_0_1.window j 0 = 0 := by
  unfold ScatterDims.window
  rw [dif_neg (show ¬(0 : Fin S512x128.rank) ∈ Cert.ReferenceIdeal.scatter_S512x128_S100000x1_S100000x128_1_0_0_1.sKept by decide)]
theorem scatter_window1 (j : S100000x128.Idx) :
    Cert.ReferenceIdeal.scatter_S512x128_S100000x1_S100000x128_1_0_0_1.window j 1 = (j 1).val := by
  unfold ScatterDims.window
  rw [dif_pos (show (1 : Fin S512x128.rank) ∈ Cert.ReferenceIdeal.scatter_S512x128_S100000x1_S100000x128_1_0_0_1.sKept by decide)]
  rfl

/-- The update at (n, d') lands at (g, d) exactly when row n's graph number, read signed, is g and d' = d. -/
theorem scatter_lands (j : S100000x128.Idx) (idx : IVec Cert.ReferenceIdeal.S100000x1 32) (i : S512x128.Idx) :
    Cert.ReferenceIdeal.scatter_S512x128_S100000x1_S100000x128_1_0_0_1.resultIdx? j idx = some i
      ↔ (idx (bidx j)).toInt = ((i 0).val : ℤ) ∧ (j 1).val = (i 1).val := by
  have hi0 : (i 0).val < 512 := (i 0).isLt
  have hi1 : (i 1).val < 128 := (i 1).isLt
  have hj1 : (j 1).val < 128 := (j 1).isLt
  unfold ScatterDims.resultIdx?
  split
  · rename_i h
    rw [Option.some.injEq]
    constructor
    · intro e
      have e0 := congrArg (fun f => (f 0).val) e
      have e1 := congrArg (fun f => (f 1).val) e
      have h0 := h 0
      simp only [scatter_start0, scatter_start1, scatter_window0, scatter_window1] at e0 e1 h0
      constructor
      · omega
      · omega
    · rintro ⟨e0, e1⟩
      funext a
      apply Fin.ext
      match a with
      | ⟨0, _⟩ =>
        show (Cert.ReferenceIdeal.scatter_S512x128_S100000x1_S100000x128_1_0_0_1.start j idx 0 + (Cert.ReferenceIdeal.scatter_S512x128_S100000x1_S100000x128_1_0_0_1.window j 0 : ℤ)).toNat = (i 0).val
        rw [scatter_start0, scatter_window0, e0]; omega
      | ⟨1, _⟩ =>
        show (Cert.ReferenceIdeal.scatter_S512x128_S100000x1_S100000x128_1_0_0_1.start j idx 1 + (Cert.ReferenceIdeal.scatter_S512x128_S100000x1_S100000x128_1_0_0_1.window j 1 : ℤ)).toNat = (i 1).val
        rw [scatter_start1, scatter_window1]; omega
  · rename_i h
    constructor
    · intro e; exact absurd e (by simp)
    · rintro ⟨e0, e1⟩
      refine absurd (fun a => ?_) h
      match a with
      | ⟨0, _⟩ =>
        show 0 ≤ Cert.ReferenceIdeal.scatter_S512x128_S100000x1_S100000x128_1_0_0_1.start j idx 0 + (Cert.ReferenceIdeal.scatter_S512x128_S100000x1_S100000x128_1_0_0_1.window j 0 : ℤ) ∧ Cert.ReferenceIdeal.scatter_S512x128_S100000x1_S100000x128_1_0_0_1.start j idx 0 + (Cert.ReferenceIdeal.scatter_S512x128_S100000x1_S100000x128_1_0_0_1.window j 0 : ℤ) < (512 : ℕ)
        rw [scatter_start0, scatter_window0, e0]; omega
      | ⟨1, _⟩ =>
        show 0 ≤ Cert.ReferenceIdeal.scatter_S512x128_S100000x1_S100000x128_1_0_0_1.start j idx 1 + (Cert.ReferenceIdeal.scatter_S512x128_S100000x1_S100000x128_1_0_0_1.window j 1 : ℤ) ∧ Cert.ReferenceIdeal.scatter_S512x128_S100000x1_S100000x128_1_0_0_1.start j idx 1 + (Cert.ReferenceIdeal.scatter_S512x128_S100000x1_S100000x128_1_0_0_1.window j 1 : ℤ) < (128 : ℕ)
        rw [scatter_start1, scatter_window1]; omega

/-! ## The accumulator at an entry -/

theorem pay1_apply (i : S512x128.Idx) : k2_pay1 (F := Ideal) i = 0 := by
  unfold k2_pay1
  simp only [shapeCast_self]
  show Ideal.ofBits .f32 0x00000000#32 = 0
  exact Ideal.ofBits_zero_f32

variable (V : (c : Dev nD) → (b : Ref sig .tc) → Buf (Elt Ideal) ((c : Thread nD τ).loc b))

/-- The printed index maps over the grid: the feature tile and the graph-number tile of point `t` are row block `t`. -/
theorem idx_facts2 : ∀ t : Fin cfg2.N, win2_0.index t (0 : Fin 2) = t.val ∧ win2_0.index t (1 : Fin 2) = 0
    ∧ win2_1.index t (0 : Fin 1) = t.val :=
  (by decide +kernel : ∀ t : Fin grid2.N, _)

/-- The feature window's block at point `t` is rows `8192 t … 8192 t + 8191` of the padded features. -/
theorem iblk2_0_apply (c : Dev nD) (t : Fin cfg2.N) (y : S8192x128.Idx) (z : S106496x128.Idx)
    (hz0 : (z 0).val = t.val * 8192 + (y 0).val) (hz1 : (z 1).val = (y 1).val) :
    (iblk2 V c 0 t : Vec Ideal S8192x128 .f32) y = (V c main_v76 : S106496x128.Idx → EReal) z := by
  obtain ⟨e0, e1, -⟩ := idx_facts2 t
  unfold iblk2
  rw [View.read_apply]
  show V c main_v76 _ = V c main_v76 _
  congr 1
  funext a
  apply Fin.ext
  match a with
  | ⟨0, _⟩ => show win2_0.index t 0 * 8192 + 1 * (y 0).val = (z 0).val; rw [e0, hz0]; omega
  | ⟨1, _⟩ => show win2_0.index t 1 * 128 + 1 * (y 1).val = (z 1).val; rw [e1, hz1]; omega

/-- The graph-number window's block at point `t` is entries `8192 t … 8192 t + 8191` of the padded graph numbers. -/
theorem iblk2_1_apply (c : Dev nD) (t : Fin cfg2.N) (y : S8192.Idx) (z : S106496.Idx)
    (hz0 : (z 0).val = t.val * 8192 + (y 0).val) :
    (iblk2 V c 1 t : Vec Ideal S8192 .i32) y = (V c main_v77 : S106496.Idx → BitVec 32) z := by
  obtain ⟨-, -, e0⟩ := idx_facts2 t
  unfold iblk2
  rw [View.read_apply]
  show V c main_v77 _ = V c main_v77 _
  congr 1
  funext a
  apply Fin.ext
  match a with
  | ⟨0, _⟩ => show win2_1.index t 0 * 8192 + 1 * (y 0).val = (z 0).val; rw [e0, hz0]; omega

/-- Row `n`'s contribution to entry (g, d): its feature in column d where its graph number is g; nothing beyond the array. -/
def rowTerm (H : S106496x128.Idx → EReal) (B : S106496.Idx → BitVec 32) (i : S512x128.Idx) (n : ℕ) : EReal :=
  if h : n < 106496 then oh (B (ix1 ⟨n, h⟩)) (i 0).val * H (ix2 ⟨n, h⟩ ⟨(i 1).val, (i 1).isLt⟩) else 0

/-- One tile's contribution is the sum of its rows' contributions. -/
theorem tile_sum (c : Dev nD) (t : Fin cfg2.N) (i : S512x128.Idx) :
    ∑ j : Fin 8192, oh ((iblk2 V c 1 t : Vec Ideal S8192 .i32) (brow j)) (i 0).val * (iblk2 V c 0 t : Vec Ideal S8192x128 .f32) (hrow i j)
      = ∑ j ∈ Finset.range 8192, rowTerm (V c main_v76) (V c main_v77) i (t.val * 8192 + j) := by
  rw [Finset.sum_range]
  refine Finset.sum_congr rfl fun j _ => ?_
  have ht : t.val < 13 := lt_of_lt_of_eq t.isLt (show cfg2.N = 13 from N_2)
  have hj : j.val < 8192 := j.isLt
  have hn : t.val * 8192 + j.val < 106496 := by omega
  unfold rowTerm
  rw [dif_pos hn]
  rw [iblk2_1_apply V c t (brow j) (ix1 ⟨t.val * 8192 + j.val, hn⟩) rfl,
    iblk2_0_apply V c t (hrow i j) (ix2 ⟨t.val * 8192 + j.val, hn⟩ ⟨(i 1).val, (i 1).isLt⟩) rfl rfl]

/-- The accumulator after point `n` at an entry: the sum of the contributions of the rows of tiles 0 … n. -/
theorem accAt_apply (c : Dev nD) : ∀ (n : ℕ) (hn : n < cfg2.N) (i : S512x128.Idx),
    accAt V c n hn i = ∑ k ∈ Finset.range ((n + 1) * 8192), rowTerm (V c main_v76) (V c main_v77) i k
  | 0, hn, i => by
    show k2_pay2 (F := Ideal) (iblk2 V c 0 ⟨0, hn⟩) (iblk2 V c 1 ⟨0, hn⟩) (k2_pay1 (F := Ideal)) i = _
    rw [pay2_apply, pay1_apply, zero_add, tile_sum V c ⟨0, hn⟩ i]
    refine Finset.sum_congr (by norm_num) fun j _ => ?_
    show rowTerm _ _ i (0 * 8192 + j) = _
    rw [Nat.zero_mul, Nat.zero_add]
  | n + 1, hn, i => by
    show k2_pay2 (F := Ideal) (iblk2 V c 0 ⟨n + 1, hn⟩) (iblk2 V c 1 ⟨n + 1, hn⟩) (accAt V c n (Nat.lt_of_succ_lt hn)) i = _
    rw [pay2_apply, accAt_apply c n (Nat.lt_of_succ_lt hn) i, tile_sum V c ⟨n + 1, hn⟩ i,
      show (n + 1 + 1) * 8192 = (n + 1) * 8192 + 8192 by ring, Finset.sum_range_add]

/-! ## The rows beyond the true ones, and the reference's scatter-add -/

/-- The padding's graph number, all ones, is no graph's number. -/
theorem oh_neg_one (g : ℕ) (hg : g < 512) : oh 4294967295#32 g = 0 := by
  unfold oh
  rw [if_neg]
  intro h
  have h1 := congrArg BitVec.toNat h
  simp only [BitVec.toNat_ofNat] at h1
  rw [Nat.mod_eq_of_lt (lt_trans hg (by norm_num))] at h1
  norm_num at h1
  omega

/-- A word read signed is the graph's number exactly when it is that number's word. -/
theorem word_eq_iff (b : BitVec 32) (g : ℕ) (hg : g < 512) : b.toInt = (g : ℤ) ↔ b = BitVec.ofNat 32 g := by
  have hb := b.isLt
  rw [BitVec.toInt_eq_toNat_cond]
  constructor
  · intro h
    apply BitVec.eq_of_toNat_eq
    rw [BitVec.toNat_ofNat]
    split at h <;> omega
  · intro h
    have : b.toNat = g := by rw [h, BitVec.toNat_ofNat]; omega
    split <;> omega

section Bridge
variable (X : (⟨S100000x128, .f32⟩ : BufTy).Contents (Elt Ideal)) (bt : (⟨S100000, .i32⟩ : BufTy).Contents (Elt Ideal))
  (z : (⟨S_, .f32⟩ : BufTy).Contents (Elt Ideal))

/-- The features padded below with 6496 rows of `z`. -/
abbrev padH : (⟨S106496x128, .f32⟩ : BufTy).Contents (Elt Ideal) :=
  pad S106496x128 ![0, 0] ![6496, 0] ![0, 0] X z pads_S100000x128_S106496x128_064960_000 h_S_
/-- The graph numbers padded below with 6496 entries of the all-ones word. -/
abbrev padB : (⟨S106496, .i32⟩ : BufTy).Contents (Elt Ideal) :=
  pad S106496 ![0] ![6496] ![0] bt (constantI S_ 32 4294967295#32 : (⟨S_, .i32⟩ : BufTy).Contents (Elt Ideal)) pads_S100000_S106496_064960 h_S_

theorem rowTerm_inside (i : S512x128.Idx) (n : ℕ) (hn : n < 100000) :
    rowTerm (padH X z) (padB bt) i n
      = oh ((bt : S100000.Idx → BitVec 32) (ix1 ⟨n, hn⟩)) (i 0).val * (X : S100000x128.Idx → EReal) (ix2 ⟨n, hn⟩ ⟨(i 1).val, (i 1).isLt⟩) := by
  have hn' : n < 106496 := by omega
  unfold rowTerm
  rw [dif_pos hn']
  refine congrArg₂ (fun b x => oh b (i 0).val * x) ?_ ?_
  · refine pad_apply_of_inside ![0] ![6496] ![0] bt _ pads_S100000_S106496_064960 h_S_ (ix1 ⟨n, hn'⟩) (ix1 ⟨n, hn⟩) (fun a => ?_)
    match a with
    | ⟨0, _⟩ => show n = 0 + n * (0 + 1); omega
  · refine pad_apply_of_inside ![0, 0] ![6496, 0] ![0, 0] X z pads_S100000x128_S106496x128_064960_000 h_S_
      (ix2 ⟨n, hn'⟩ ⟨(i 1).val, (i 1).isLt⟩) (ix2 ⟨n, hn⟩ ⟨(i 1).val, (i 1).isLt⟩) (fun a => ?_)
    match a with
    | ⟨0, _⟩ => show n = 0 + n * (0 + 1); omega
    | ⟨1, _⟩ => show (i 1).val = 0 + (i 1).val * (0 + 1); omega

theorem rowTerm_outside (i : S512x128.Idx) (n : ℕ) (hn : 100000 ≤ n) :
    rowTerm (padH X z) (padB bt) i n = 0 := by
  unfold rowTerm
  split
  · rename_i hn'
    have hb : (padB bt : S106496.Idx → BitVec 32) (ix1 ⟨n, hn'⟩) = 4294967295#32 := by
      refine (pad_apply_of_not_inside ![0] ![6496] ![0] bt _ pads_S100000_S106496_064960 h_S_ (ix1 ⟨n, hn'⟩) (0 : Fin 1) (fun h => ?_)).trans rfl
      have h3 : (n - 0) / (0 + 1) < 100000 := h.2.2
      omega
    rw [hb, oh_neg_one _ (i 0).isLt, zero_mul]
  · rfl

/-- The thirteen tiles' rows together: the padded rows give nothing, the true rows their feature where the graph matches. -/
theorem pool_eq (i : S512x128.Idx) :
    ∑ k ∈ Finset.range ((12 + 1) * 8192), rowTerm (padH X z) (padB bt) i k
      = ∑ n : Fin 100000, oh ((bt : S100000.Idx → BitVec 32) (ix1 n)) (i 0).val * (X : S100000x128.Idx → EReal) (ix2 n ⟨(i 1).val, (i 1).isLt⟩) := by
  rw [show (12 + 1) * 8192 = 100000 + 6496 by norm_num, Finset.sum_range_add,
    Finset.sum_eq_zero (s := Finset.range 6496) (fun x _ => rowTerm_outside X bt z i (100000 + x) (Nat.le_add_right _ _)),
    add_zero, Finset.sum_range]
  exact Finset.sum_congr rfl fun n _ => rowTerm_inside X bt z i n.val n.isLt

/-- The reference's scatter-add of the rows into the graphs, at an entry: the same sum. -/
theorem ref_pool_apply (i : S512x128.Idx) :
    Host.scatterAdd (F := Ideal) (φ := .f32) Cert.ReferenceIdeal.scatter_S512x128_S100000x1_S100000x128_1_0_0_1
        (Cert.ReferenceIdeal.Read.val_main_v84 (F := Ideal)) (Cert.ReferenceIdeal.Read.val_main_v85 (F := Ideal) bt) X i
      = ∑ n : Fin 100000, oh ((bt : S100000.Idx → BitVec 32) (ix1 n)) (i 0).val * (X : S100000x128.Idx → EReal) (ix2 n ⟨(i 1).val, (i 1).isLt⟩) := by
  show Ideal.hostScatterAdd Cert.ReferenceIdeal.scatter_S512x128_S100000x1_S100000x128_1_0_0_1
        (Cert.ReferenceIdeal.Read.val_main_v84 (F := Ideal)) (Cert.ReferenceIdeal.Read.val_main_v85 (F := Ideal) bt) X i = _
  unfold Ideal.hostScatterAdd
  rw [Cert.ReferenceIdeal.Read.val_main_v84_apply, Cert.ReferenceIdeal.Read.val_main_cst_13_apply]
  show Ideal.ofBits .f32 0x00000000#32 + _ = _
  rw [Ideal.ofBits_zero_f32, zero_add, Finset.sum_filter]
  simp only [scatter_lands]
  rw [sum_idx2]
  refine Finset.sum_congr rfl fun n _ => ?_
  have hi0 : (i 0).val < 512 := (i 0).isLt
  rw [Finset.sum_eq_single (⟨(i 1).val, (i 1).isLt⟩ : Fin 128)]
  · have hv : Cert.ReferenceIdeal.Read.val_main_v85 (F := Ideal) bt (bidx (ix2 n (⟨(i 1).val, (i 1).isLt⟩ : Fin 128))) = (bt : S100000.Idx → BitVec 32) (ix1 n) := by
      rw [Cert.ReferenceIdeal.Read.val_main_v85_apply]
      refine congrArg bt (funext fun a => Fin.ext ?_)
      match a with
      | ⟨0, _⟩ => rfl
    rw [hv]
    unfold oh
    by_cases h : (bt : S100000.Idx → BitVec 32) (ix1 n) = BitVec.ofNat 32 (i 0).val
    · rw [if_pos ⟨(word_eq_iff _ _ hi0).mpr h, rfl⟩, if_pos h, one_mul]
    · rw [if_neg (fun hh => h ((word_eq_iff _ _ hi0).mp hh.1)), if_neg h, zero_mul]
  · intro b _ hb
    rw [if_neg]
    rintro ⟨-, h1⟩
    exact hb (Fin.ext h1)
  · intro h; exact absurd (Finset.mem_univ _) h

end Bridge

/-! ## The last point's output at an entry, and the whole region -/

theorem lhs_lin_0 (i : S512x8.Idx) (q : dot_S512x128_S128x8_S512x8_1_0_0_1_n_n.contr.Idx) :
    (dot_S512x128_S128x8_S512x8_1_0_0_1_n_n.lhsIdx i q 0).val = (i 0).val := by
  unfold DotDims.lhsIdx
  rw [dif_neg (show ¬(0 : Fin S512x128.rank) ∈ dot_S512x128_S128x8_S512x8_1_0_0_1_n_n.lhsBatch by decide), dif_pos (show (0 : Fin S512x128.rank) ∈ dot_S512x128_S128x8_S512x8_1_0_0_1_n_n.lhsNonContracting by decide)]
  rfl
theorem lhs_lin_1 (i : S512x8.Idx) (q : dot_S512x128_S128x8_S512x8_1_0_0_1_n_n.contr.Idx) :
    (dot_S512x128_S128x8_S512x8_1_0_0_1_n_n.lhsIdx i q 1).val = (q ⟨0, by decide⟩).val :=
  dot_S512x128_S128x8_S512x8_1_0_0_1_n_n.lhsIdx_val_of_single rfl i q
theorem rhs_lin_0 (i : S512x8.Idx) (q : dot_S512x128_S128x8_S512x8_1_0_0_1_n_n.contr.Idx) :
    (dot_S512x128_S128x8_S512x8_1_0_0_1_n_n.rhsIdx i q 0).val = (q ⟨0, by decide⟩).val :=
  dot_S512x128_S128x8_S512x8_1_0_0_1_n_n.rhsIdx_val_of_single rfl i q
theorem rhs_lin_1 (i : S512x8.Idx) (q : dot_S512x128_S128x8_S512x8_1_0_0_1_n_n.contr.Idx) :
    (dot_S512x128_S128x8_S512x8_1_0_0_1_n_n.rhsIdx i q 1).val = (i 1).val := by
  unfold DotDims.rhsIdx
  rw [dif_neg (show ¬(1 : Fin S128x8.rank) ∈ dot_S512x128_S128x8_S512x8_1_0_0_1_n_n.rhsBatch by decide), dif_pos (show (1 : Fin S128x8.rank) ∈ dot_S512x128_S128x8_S512x8_1_0_0_1_n_n.rhsNonContracting by decide)]
  rfl

open Cert.ReferenceIdeal.Read in
/-- The last point's output at (g, o): the pooled row of g against column o of the weight, plus the bias's entry o. -/
theorem pay3_apply (acc : Vec Ideal S512x128 .f32) (w : Vec Ideal S128x8 .f32) (b : Vec Ideal S1x8 .f32) (i : S512x8.Idx) :
    k2_pay3 (F := Ideal) acc w b i = (∑ k : Fin 128, acc (lidx_main_v87 i k) * w (ridx_main_v87 i k)) + b (idx_main_v89 i) := by
  unfold k2_pay3
  simp only [shapeCast_self]
  show _ + _ = _
  simp only [matmul]
  rw [Ideal.matmul_constant_zero_apply]
  rw [← Equiv.sum_comp (ValueIdx.contrEquiv1 dot_S512x128_S128x8_S512x8_1_0_0_1_n_n 128 rfl rfl).symm]
  refine congrArg₂ (· + ·) (Finset.sum_congr rfl fun k _ => ?_) ?_
  · have hk := ValueIdx.contrEquiv1_symm_val dot_S512x128_S128x8_S512x8_1_0_0_1_n_n 128 rfl rfl k
    have el : dot_S512x128_S128x8_S512x8_1_0_0_1_n_n.lhsIdx i ((ValueIdx.contrEquiv1 dot_S512x128_S128x8_S512x8_1_0_0_1_n_n 128 rfl rfl).symm k) = lidx_main_v87 i k := funext fun a => Fin.ext (by
      match a with
      | ⟨0, _⟩ => exact lhs_lin_0 _ _
      | ⟨1, _⟩ => exact (lhs_lin_1 _ _).trans hk)
    have er : dot_S512x128_S128x8_S512x8_1_0_0_1_n_n.rhsIdx i ((ValueIdx.contrEquiv1 dot_S512x128_S128x8_S512x8_1_0_0_1_n_n 128 rfl rfl).symm k) = ridx_main_v87 i k := funext fun a => Fin.ext (by
      match a with
      | ⟨0, _⟩ => exact (rhs_lin_0 _ _).trans hk
      | ⟨1, _⟩ => exact rhs_lin_1 _ _)
    rw [el, er]
    rfl
  · exact broadcastTo_apply b broadcasts_S1x8_S512x8 i (idx_main_v89 i) (fun a => by
      match a with
      | ⟨0, _⟩ => show 0 = if (1 : Nat) = 1 then 0 else _; rw [if_pos rfl]
      | ⟨1, _⟩ => show (i 1).val = if (8 : Nat) = 1 then 0 else (i 1).val; rw [if_neg (by decide)])

open Cert.ReferenceIdeal.Read in
/-- The region's output array, over what it finds: for graph g and output o, the pooled features of g (the
    reference's scatter-add of the true rows) against column o of the weight, plus the bias's entry o. -/
theorem stage2_core (c : Dev nD)
    (X : (⟨S100000x128, .f32⟩ : BufTy).Contents (Elt Ideal)) (bt : (⟨S100000, .i32⟩ : BufTy).Contents (Elt Ideal))
    (z : (⟨S_, .f32⟩ : BufTy).Contents (Elt Ideal)) (w : (⟨S128x8, .f32⟩ : BufTy).Contents (Elt Ideal))
    (b13 : (⟨S8, .f32⟩ : BufTy).Contents (Elt Ideal))
    (e76 : V c main_v76 = padH X z) (e77 : V c main_v77 = padB bt) (e12 : V c main_arg12 = w)
    (e78 : V c main_v78 = (shapeCast S1x8 b13 shapeCasts_S8_S1x8 : (⟨S1x8, .f32⟩ : BufTy).Contents (Elt Ideal))) :
    (dat2 (F := Ideal) V c).arrAt 4 cfg2.N = fun i : S512x8.Idx =>
      (∑ k : Fin 128, Host.scatterAdd (F := Ideal) (φ := .f32) Cert.ReferenceIdeal.scatter_S512x128_S100000x1_S100000x128_1_0_0_1
          (val_main_v84 (F := Ideal)) (val_main_v85 (F := Ideal) bt) X (lidx_main_v87 i k) * w (ridx_main_v87 i k))
        + b13 (idx_main_v88 (idx_main_v89 i)) := by
  rw [Stage2a.final2 V c, Stage2a.iblk2_2_eq, Stage2a.iblk2_3_eq, e12, e78]
  funext i
  rw [pay3_apply]
  refine congrArg₂ (· + ·) (Finset.sum_congr rfl fun k _ => congrArg (· * w (ridx_main_v87 i k)) ?_) ?_
  · rw [accAt_apply V c 12 _ (lidx_main_v87 i k), e76, e77]
    exact (pool_eq X bt z _).trans (ref_pool_apply X bt _).symm
  · have e : idx_main_v89 i = ix2 (0 : Fin 1) (⟨(i 1).val, (i 1).isLt⟩ : Fin 8) := funext fun a => by
      match a with
      | ⟨0, _⟩ => rfl
      | ⟨1, _⟩ => rfl
    rw [e, shapeCast_a_1a_apply]
    refine congrArg b13 (funext fun a => ?_)
    match a with
    | ⟨0, _⟩ => rfl

end Stage2

open Stage2 in
/-- Region 2's output array is the reference's result: the graphs' pooled features through the linear layer. -/
theorem stage2 (m : (ℓ : Loc nD τ sig) → Buf (Elt Ideal) ℓ) (outs : Outs (F := Ideal)) (c : Dev nD)
    (hprev : V10 m outs c main_v75 = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h2 : outs 15 main_v79 c = (dat2 (F := Ideal) (E14 m outs) c).arrAt 4 cfg2.N) :
    outs 15 main_v79 c = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  obtain ⟨e76, e77, e12, e78⟩ := entry2 (F := Ideal) m outs c
  rw [h2, stage2_core (E14 m outs) c (V10 m outs c main_v75) (m ((c.tc : Thread nD τ).loc main_arg3)) _
    (m ((c.tc : Thread nD τ).loc main_arg12)) (m ((c.tc : Thread nD τ).loc main_arg13)) e76 e77 e12 e78]
  funext i
  rw [Cert.ReferenceIdeal.Read.val_main_v90_apply, Cert.ReferenceIdeal.Read.val_main_v87_apply,
    Cert.ReferenceIdeal.Read.val_main_v89_apply, Cert.ReferenceIdeal.Read.val_main_v88_apply]
  unfold Cert.ReferenceIdeal.Read.val_main_v86
  rw [← hprev]
  rfl

end Cert.KernelIdeal.Hand
end
-- ==== Proof.KI.Glue.lean ====
/-
  The host side between the three regions.  The kernel program and the reference run the same host
  operations around the dense products: the edge bookkeeping (self loops appended to the edge list, the
  weighted in-degree accumulated per node, its inverse square root where positive, every edge weight scaled
  by that factor at both of its ends), and, after each of the two graph-convolution products, the
  aggregation along the edges (gather the rows at the edge sources, scale by the normalized weights,
  add into the rows at the edge targets, add the bias).  Each stretch of the kernel program is read one
  buffer at a time, over the contents the stretch starts from taken as an unknown valuation, and the term
  so read is the reference's term for the same operation.  The only place the two differ is the operand of
  each aggregation: the kernel program slices the padding off a region's result, the reference has the dense
  product itself; that equality is a hypothesis here, proved with the regions.
-/
import proofs.«403968_j10488310137582_1_alg».proof.Proof.KI.Vals
import proofs.«403968_j10488310137582_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (outs : Outs (F := F))

/-! ## The edge bookkeeping (the first three host stretches)

Both programs build the same edge data from the edge list and the edge weights: self loops are appended, the
weighted in-degree is accumulated per node, its inverse square root is taken where the degree is positive
(zero elsewhere), and every edge's weight is scaled by that factor at its source and at its target.  Read
one stretch at a time, the kernel program's term is the reference's. -/

section Edges
variable (c : Dev nD)

/-- The sources of the edges (self loops appended), after the first stretch. -/
theorem v8_1 : V1 m c main_v8 = Cert.ReferenceIdeal.Read.val_main_v8 (m ((c : Thread nD τ).loc main_arg1)) := by
  show StableHlo.after hostOps0 _ (Proc.devRef .tc main_v8) = _
  after_results
  rfl
/-- The targets of the edges (self loops appended), after the first stretch. -/
theorem v10_1 : V1 m c main_v10 = Cert.ReferenceIdeal.Read.val_main_v10 (m ((c : Thread nD τ).loc main_arg1)) := by
  show StableHlo.after hostOps0 _ (Proc.devRef .tc main_v10) = _
  after_results
  rfl
/-- The edge weights (ones appended for the self loops), after the first stretch. -/
theorem v6_1 : V1 m c main_v6 = Cert.ReferenceIdeal.Read.val_main_v6 (m ((c : Thread nD τ).loc main_arg2)) := by
  show StableHlo.after hostOps0 _ (Proc.devRef .tc main_v6) = _
  after_results
  rfl
/-- Where the weighted in-degree is positive. -/
theorem v15_1 : V1 m c main_v15 = Cert.ReferenceIdeal.Read.val_main_v15 (m ((c : Thread nD τ).loc main_arg1)) (m ((c : Thread nD τ).loc main_arg2)) := by
  show StableHlo.after hostOps0 _ (Proc.devRef .tc main_v15) = _
  after_results
  rfl
/-- The inverse square root of the weighted in-degree. -/
theorem v16_1 : V1 m c main_v16 = Cert.ReferenceIdeal.Read.val_main_v16 (m ((c : Thread nD τ).loc main_arg1)) (m ((c : Thread nD τ).loc main_arg2)) := by
  show StableHlo.after hostOps0 _ (Proc.devRef .tc main_v16) = _
  after_results
  rfl
/-- The zero that replaces the factor of a node of degree zero. -/
theorem cst2_1 : V1 m c main_cst_2 = Cert.ReferenceIdeal.Read.val_main_cst_2 (F := F) := by
  show StableHlo.after hostOps0 _ (Proc.devRef .tc main_cst_2) = _
  after_results
  rfl

/-- The per-node factor: the inverse square root of the degree where that is positive, zero elsewhere. -/
theorem v17_2 : V2 m c main_v17 = Cert.ReferenceIdeal.Read.val_main_v17 (m ((c : Thread nD τ).loc main_arg1)) (m ((c : Thread nD τ).loc main_arg2)) := by
  have h15 := v15_1 m c
  have h16 := v16_1 m c
  have hc := cst2_1 m c
  show StableHlo.after hostOps0_1 (V1 m c) (Proc.devRef .tc main_v17) = _
  revert h15 h16 hc
  generalize V1 m c = W
  intro h15 h16 hc
  after_results
  simp only [StableHlo.TRef.ofBuf, StableHlo.TRef.toBuf, cast_eq]
  rw [h15, h16, hc]
  rfl

theorem v8_2 : V2 m c main_v8 = Cert.ReferenceIdeal.Read.val_main_v8 (m ((c : Thread nD τ).loc main_arg1)) := (V2_of m c main_v8 (by decide)).trans (v8_1 m c)
theorem v10_2 : V2 m c main_v10 = Cert.ReferenceIdeal.Read.val_main_v10 (m ((c : Thread nD τ).loc main_arg1)) := (V2_of m c main_v10 (by decide)).trans (v10_1 m c)
theorem v6_2 : V2 m c main_v6 = Cert.ReferenceIdeal.Read.val_main_v6 (m ((c : Thread nD τ).loc main_arg2)) := (V2_of m c main_v6 (by decide)).trans (v6_1 m c)

/-- The normalized edge weights: the weight times the factor at the source times the factor at the target. -/
theorem v33_3 : V3 m c main_v33 = Cert.ReferenceIdeal.Read.val_main_v33 (m ((c : Thread nD τ).loc main_arg1)) (m ((c : Thread nD τ).loc main_arg2)) := by
  have h8 := v8_2 m c
  have h10 := v10_2 m c
  have h6 := v6_2 m c
  have h17 := v17_2 m c
  show StableHlo.after hostOps0_2 (V2 m c) (Proc.devRef .tc main_v33) = _
  revert h8 h10 h6 h17
  generalize V2 m c = W
  intro h8 h10 h6 h17
  after_results_simp
  rw [h8, h10, h6, h17]
  rfl

end Edges

theorem edges_eq (c : Dev nD) :
    V4 m c main_v33 = Cert.ReferenceIdeal.Read.val_main_v33 (m ((c : Thread nD τ).loc main_arg1)) (m ((c : Thread nD τ).loc main_arg2))
      ∧ V4 m c main_v8 = Cert.ReferenceIdeal.Read.val_main_v8 (m ((c : Thread nD τ).loc main_arg1))
      ∧ V4 m c main_v10 = Cert.ReferenceIdeal.Read.val_main_v10 (m ((c : Thread nD τ).loc main_arg1)) :=
  ⟨(V4_of m c main_v33 (by decide)).trans (v33_3 m c),
   (V4_of m c main_v8 (by decide)).trans ((V3_of m c main_v8 (by decide)).trans (v8_2 m c)),
   (V4_of m c main_v10 (by decide)).trans ((V3_of m c main_v10 (by decide)).trans (v10_2 m c))⟩

/-! ## The two aggregations

After each of the first two regions both programs aggregate the region's rows along the edges: the row of an
edge's source, scaled by the edge's normalized weight, is added into the row of the edge's target, and the
layer's bias is added to every row.  The kernel program reads the rows off the region's padded result with the
padding sliced away; given that this slice is the reference's dense product, the aggregate is the reference's. -/

section Conv
variable (c : Dev nD)

theorem v33_4 : V4 m c main_v33 = Cert.ReferenceIdeal.Read.val_main_v33 (m ((c : Thread nD τ).loc main_arg1)) (m ((c : Thread nD τ).loc main_arg2)) := (edges_eq m c).1
theorem v8_4 : V4 m c main_v8 = Cert.ReferenceIdeal.Read.val_main_v8 (m ((c : Thread nD τ).loc main_arg1)) := (edges_eq m c).2.1
theorem v10_4 : V4 m c main_v10 = Cert.ReferenceIdeal.Read.val_main_v10 (m ((c : Thread nD τ).loc main_arg1)) := (edges_eq m c).2.2

theorem v33_5 : V5 m outs c main_v33 = Cert.ReferenceIdeal.Read.val_main_v33 (m ((c : Thread nD τ).loc main_arg1)) (m ((c : Thread nD τ).loc main_arg2)) := (V5_of m outs c main_v33 (by decide)).trans (v33_4 m c)
theorem v8_5 : V5 m outs c main_v8 = Cert.ReferenceIdeal.Read.val_main_v8 (m ((c : Thread nD τ).loc main_arg1)) := (V5_of m outs c main_v8 (by decide)).trans (v8_4 m c)
theorem v10_5 : V5 m outs c main_v10 = Cert.ReferenceIdeal.Read.val_main_v10 (m ((c : Thread nD τ).loc main_arg1)) := (V5_of m outs c main_v10 (by decide)).trans (v10_4 m c)
theorem arg5_5 : V5 m outs c main_arg5 = (m ((c : Thread nD τ).loc main_arg5)) := (V5_of m outs c main_arg5 (by decide)).trans ((V4_of m c main_arg5 (by decide)).trans ((V3_of m c main_arg5 (by decide)).trans ((V2_of m c main_arg5 (by decide)).trans ((V1_of m c main_arg5 (by decide)).trans (rfl)))))

theorem conv1
    (hT : (extractStridedSlice S100000x128 ![0, 0] (outs 5 main_v35 c) slices_S106496x128_S100000x128_0_0 : (⟨S100000x128, .f32⟩ : BufTy).Contents (Elt F)) = Cert.ReferenceIdeal.Read.val_main_v34 (m ((c : Thread nD τ).loc main_arg0)) (m ((c : Thread nD τ).loc main_arg4))) :
    V6 m outs c main_v52 = Cert.ReferenceIdeal.Read.val_main_v50 (m ((c : Thread nD τ).loc main_arg0)) (m ((c : Thread nD τ).loc main_arg1)) (m ((c : Thread nD τ).loc main_arg2)) (m ((c : Thread nD τ).loc main_arg4)) (m ((c : Thread nD τ).loc main_arg5)) := by
  have h35 : V5 m outs c main_v35 = outs 5 main_v35 c := Function.update_self ..
  have h33 := v33_5 m outs c
  have h8 := v8_5 m outs c
  have h10 := v10_5 m outs c
  have h5 := arg5_5 m outs c
  show StableHlo.after hostOps1 (V5 m outs c) (Proc.devRef .tc main_v52) = _
  revert h35 h33 h8 h10 h5
  generalize V5 m outs c = W
  intro h35 h33 h8 h10 h5
  after_results_simp
  rw [h35, h33, h8, h10, h5]
  beta_reduce
  rw [hT]
  rfl

theorem v33_9 : V9 m outs c main_v33 = Cert.ReferenceIdeal.Read.val_main_v33 (m ((c : Thread nD τ).loc main_arg1)) (m ((c : Thread nD τ).loc main_arg2)) := (V9_of m outs c main_v33 (by decide)).trans ((V8_of m outs c main_v33 (by decide)).trans ((V7_of m outs c main_v33 (by decide)).trans ((V6_of m outs c main_v33 (by decide)).trans (v33_5 m outs c))))
theorem v8_9 : V9 m outs c main_v8 = Cert.ReferenceIdeal.Read.val_main_v8 (m ((c : Thread nD τ).loc main_arg1)) := (V9_of m outs c main_v8 (by decide)).trans ((V8_of m outs c main_v8 (by decide)).trans ((V7_of m outs c main_v8 (by decide)).trans ((V6_of m outs c main_v8 (by decide)).trans (v8_5 m outs c))))
theorem v10_9 : V9 m outs c main_v10 = Cert.ReferenceIdeal.Read.val_main_v10 (m ((c : Thread nD τ).loc main_arg1)) := (V9_of m outs c main_v10 (by decide)).trans ((V8_of m outs c main_v10 (by decide)).trans ((V7_of m outs c main_v10 (by decide)).trans ((V6_of m outs c main_v10 (by decide)).trans (v10_5 m outs c))))
theorem arg11_9 : V9 m outs c main_arg11 = (m ((c : Thread nD τ).loc main_arg11)) := (V9_of m outs c main_arg11 (by decide)).trans ((V8_of m outs c main_arg11 (by decide)).trans ((V7_of m outs c main_arg11 (by decide)).trans ((V6_of m outs c main_arg11 (by decide)).trans ((V5_of m outs c main_arg11 (by decide)).trans ((V4_of m c main_arg11 (by decide)).trans ((V3_of m c main_arg11 (by decide)).trans ((V2_of m c main_arg11 (by decide)).trans ((V1_of m c main_arg11 (by decide)).trans (rfl)))))))))

theorem conv2
    (hT : (extractStridedSlice S100000x128 ![0, 0] (outs 9 main_v58 c) slices_S102400x128_S100000x128_0_0 : (⟨S100000x128, .f32⟩ : BufTy).Contents (Elt F)) = Cert.ReferenceIdeal.Read.val_main_v67 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    V10 m outs c main_v75 = Cert.ReferenceIdeal.Read.val_main_v83 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h58 : V9 m outs c main_v58 = outs 9 main_v58 c := Function.update_self ..
  have h33 := v33_9 m outs c
  have h8 := v8_9 m outs c
  have h10 := v10_9 m outs c
  have h11 := arg11_9 m outs c
  show StableHlo.after hostOps2 (V9 m outs c) (Proc.devRef .tc main_v75) = _
  revert h58 h33 h8 h10 h11
  generalize V9 m outs c = W
  intro h58 h33 h8 h10 h11
  after_results_simp
  rw [h58, h33, h8, h10, h11]
  beta_reduce
  rw [hT]
  rfl

end Conv

end Cert.KernelIdeal.Hand

end
-- ==== Proof.lean ====
/-
  The certificate's claims, assembled.

  The program is a two-layer graph convolution followed by a sum over each graph's nodes and a linear layer.
  Its three kernel regions are the dense parts: region 0 multiplies the node features, padded to whole row
  tiles, by the first weight; region 1 applies the batch normalisation with its running statistics and the
  rectifier to the first layer's output and multiplies by the second weight; region 2 adds each node's row into
  its graph's row — as the product of a one-hot matrix of graph ids with a tile of rows, accumulated over the
  tiles — and applies the last linear layer.  Between the regions the host gathers rows by edge source, scales
  them by the symmetric normalisation and adds them by edge target, with the same operations as the reference.

  Over the extended reals every format change is the identity, a tile-by-tile product is the whole product
  restricted to the tile's rows, padded rows are cut away again (regions 0 and 1) or carry a graph id that
  matches no graph (region 2), and a sum of one-hot-weighted rows is the sum of the rows whose id matches: so
  each region's output is the reference's value at the same stage, and the host stages between them are the
  same functions applied to equal values.  The three frames: each program runs to its end from any memory and
  leaves its arguments as launched; for the two kernel programs by the run of the regions as segments, for
  the reference by its run as a sequence of host operations.
-/
import proofs.«403968_j10488310137582_1_alg».proof.Defs
import proofs.«403968_j10488310137582_1_alg».proof.Proof.Gen.Kernel
import proofs.«403968_j10488310137582_1_alg».proof.Proof.Gen.KernelIdeal
import proofs.«403968_j10488310137582_1_alg».proof.Proof.Gen.ReferenceIdeal
import proofs.«403968_j10488310137582_1_alg».proof.Proof.Gen.Pre_finite_inputs
import proofs.«403968_j10488310137582_1_alg».proof.Proof.Gen.ReferenceIdeal.Run
import proofs.«403968_j10488310137582_1_alg».proof.Proof.Gen.ReferenceIdeal.Read
import proofs.«403968_j10488310137582_1_alg».proof.Proof.KB.Run
import proofs.«403968_j10488310137582_1_alg».proof.Proof.KI.Run
import proofs.«403968_j10488310137582_1_alg».proof.Proof.KI.V0
import proofs.«403968_j10488310137582_1_alg».proof.Proof.KI.V1
import proofs.«403968_j10488310137582_1_alg».proof.Proof.KI.V2
import proofs.«403968_j10488310137582_1_alg».proof.Proof.KI.Glue
import Idealize.ShloMosaic.Adequacy
import Idealize.ShloMosaic.Init

noncomputable section

namespace Cert.Proof

open Idealize.ShloMosaic Idealize.ShloMosaic.TcCoe Idealize.SL.Sem

/-- The printed program runs to its end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run as a sequence of host operations, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Gen Cert.KernelIdeal.Hand in
/-- What region 2 leaves in the result buffer is the reference's result as a function of the arguments: stage by
    stage, each region's output against the reference's value there, each host stage between them by the stage before. -/
theorem result_eq (m : (ℓ : Loc Cert.KernelIdeal.nD Cert.KernelIdeal.τ Cert.KernelIdeal.sig) → Buf (Elt Ideal) ℓ) (c : Dev Cert.KernelIdeal.nD) :
    outs m 15 main_v79 c = Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) :=
  stage2 m (outs m) c
    (conv2 m (outs m) c
      (stage1 m (outs m) c
        (conv1 m (outs m) c (stage0 m (outs m) c (outs_5 m c)))
        (outs_9 m c)))
    (outs_15 m c)

/-- From memories that agree on the arguments both idealized programs run, and end with equal results. -/
theorem algebraic : Cert.algebraic_KernelIdeal_ReferenceIdeal := by
  intro m ρ m' ρ' _ hagree
  refine ⟨fun c => Cert.KernelIdeal.Hand.outs m 15 Cert.KernelIdeal.main_v79 c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v90_eq, h0, h1, h2, h3, h4, h5, h6, h7, h8, h9, h10, h11, h12, h13]
  exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
